-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg2 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg2 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  main_v20

def fn {F : FTy → Type} [FloatOps F] (main_arg0 : FVec F S100000x128 .f32) (main_arg1 : FVec F S1600000 .f32) (main_arg2 : IVec S1600000 32) (main_arg3 : IVec S1600000 32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg2 main_v14
  let main_c_5 : IVec S_ 32 := constantI S_ 32 100000#32
  fn_part1 (F := F) main_arg2 main_v13 main_v15 main_c_5
-- ==== Kernel.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1601536 : Shape := ⟨1, ![1601536]⟩
abbrev S1601536x128 : Shape := ⟨2, ![1601536, 128]⟩
abbrev S4096 : Shape := ⟨1, ![4096]⟩
abbrev S1000x128 : Shape := ⟨2, ![1000, 128]⟩
abbrev S4096x128 : Shape := ⟨2, ![4096, 128]⟩
abbrev S1x1000 : Shape := ⟨2, ![1, 1000]⟩
abbrev S4096x1 : Shape := ⟨2, ![4096, 1]⟩
abbrev S4096x1000 : Shape := ⟨2, ![4096, 1000]⟩
abbrev S1000x1 : Shape := ⟨2, ![1000, 1]⟩
abbrev S1x4096 : Shape := ⟨2, ![1, 4096]⟩
abbrev S1000x4096 : Shape := ⟨2, ![1000, 4096]⟩

abbrev nBuf : Space → Nat
  | .hbm => 17
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S_, .i32⟩
  | .hbm, ⟨6, _⟩ => ⟨S_, .i32⟩
  | .hbm, ⟨7, _⟩ => ⟨S1601536, .i32⟩
  | .hbm, ⟨8, _⟩ => ⟨S_, .i32⟩
  | .hbm, ⟨9, _⟩ => ⟨S_, .i32⟩
  | .hbm, ⟨10, _⟩ => ⟨S1601536, .i32⟩
  | .hbm, ⟨11, _⟩ => ⟨S_, .i32⟩
  | .hbm, ⟨12, _⟩ => ⟨S_, .f32⟩
  | .hbm, ⟨13, _⟩ => ⟨S1601536, .f32⟩
  | .hbm, ⟨14, _⟩ => ⟨S1601536x128, .f32⟩
  | .hbm, ⟨15, _⟩ => ⟨S128x128, .f32⟩
  | .hbm, ⟨16, _⟩ => ⟨S100000x128, .f32⟩
  | .local _ .vmem, ⟨0, _⟩ => ⟨S4096, .i32⟩
  | .local _ .vmem, ⟨1, _⟩ => ⟨S4096, .i32⟩
  | .local _ .vmem, ⟨2, _⟩ => ⟨S4096, .f32⟩
  | .local _ .vmem, ⟨3, _⟩ => ⟨S4096, .f32⟩
  | .local _ .vmem, ⟨4, _⟩ => ⟨S1000x128, .f32⟩
  | .local _ .vmem, ⟨5, _⟩ => ⟨S1000x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096, .i32⟩
  | .local _ .vmem, ⟨10, _⟩ => ⟨S4096, .i32⟩
  | .local _ .vmem, ⟨11, _⟩ => ⟨S4096x128, .f32⟩
  | .local _ .vmem, ⟨12, _⟩ => ⟨S4096x128, .f32⟩
  | .local _ .vmem, ⟨13, _⟩ => ⟨S128x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![391, 100], ![false, false]⟩

def k0_cond2 (i : grid0.Coords) : BitVec 1 :=
  let arg1 : BitVec 32 := BitVec.ofNat 32 (i 1).val
  let c99_i32 : BitVec 32 := 99#32
  let v29 : BitVec 1 := Scalar.cmpi .eq arg1 c99_i32
  let v30 : BitVec 32 := Scalar.extui v29
  let c0_i32_8 : BitVec 32 := 0#32
  let v31 : BitVec 1 := Scalar.cmpi .ne v30 c0_i32_8
  v31

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![100, 391], ![false, false]⟩

def k1_cond2 (i : grid1.Coords) : BitVec 1 :=
  let arg1 : BitVec 32 := BitVec.ofNat 32 (i 1).val
  let c390_i32 : BitVec 32 := 390#32
  let v25 : BitVec 1 := Scalar.cmpi .eq arg1 c390_i32
  let v26 : BitVec 32 := Scalar.extui v25
  let c0_i32_7 : BitVec 32 := 0#32
  let v27 : BitVec 1 := Scalar.cmpi .ne v26 c0_i32_7
  v27

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S1600000_S1601536_015360 : S1600000.Pads (![0] : Fin 1 → Nat) ![1536] ![0] S1601536
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x1000_d1_w32 : S1x1000.Iotas .tc 32 [1]
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x1000 : S4096x1.Broadcasts S4096x1000
  broadcasts_S1x1000_S4096x1000 : S1x1000.Broadcasts S4096x1000
  natLt_1_32 : 1 < 32
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  broadcasts_S4096x1_S4096x128 : S4096x1.Broadcasts S4096x128
  transposes_S128x128_S128x128_1_0 : S128x128.Transposes [1, 0] S128x128
  shapeCasts_S1000x128_S1000x128 : S1000x128.ShapeCasts S1000x128
  iota_S1000x1_d0_w32 : S1000x1.Iotas .tc 32 [0]
  shapeCasts_S4096_S1x4096 : S4096.ShapeCasts S1x4096
  broadcasts_S1000x1_S1000x4096 : S1000x1.Broadcasts S1000x4096
  broadcasts_S1x4096_S1000x4096 : S1x4096.Broadcasts S1000x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S4096x1000_S1000x128_S4096x128_1_0_0_1_n_n_wf : DotDims.WF S4096x1000 S1000x128 S4096x128 [1] [0] [0] [1] [] []
  dot_S1000x4096_S4096x128_S1000x128_1_0_0_1_n_n_wf : DotDims.WF S1000x4096 S4096x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1601536.size a
  hwx0_0 : ∀ i : grid0.Coords, EltTy.bits .i32 = 32 ∨ (Rect.block (s := S1601536) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1601536.size a
  hwx0_1 : ∀ i : grid0.Coords, EltTy.bits .f32 = 32 ∨ (Rect.block (s := S1601536) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S1601536x128.size a
  hwx0_3 : ∀ i : grid0.Coords, EltTy.bits .f32 = 32 ∨ (Rect.block (s := S1601536x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1601536.size a
  hwx1_0 : ∀ i : grid1.Coords, EltTy.bits .i32 = 32 ∨ (Rect.block (s := S1601536) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S1601536x128.size a
  hwx1_1 : ∀ i : grid1.Coords, EltTy.bits .f32 = 32 ∨ (Rect.block (s := S1601536x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S100000x128.size a
  hwx1_3 : ∀ i : grid1.Coords, EltTy.bits .f32 = 32 ∨ (Rect.block (s := S100000x128) S1000x128.size (cc1_transform_3 i) (hinb1_3 i)).WholeWords (EltTy.packing .f32)

variable [Facts₀]

def dot_S4096x1000_S1000x128_S4096x128_1_0_0_1_n_n : DotDims S4096x1000 S1000x128 S4096x128 where
  lhsContracting := [1]
  rhsContracting := [0]
  lhsNonContracting := [0]
  rhsNonContracting := [1]
  lhsBatch := []
  rhsBatch := []
  wf := dot_S4096x1000_S1000x128_S4096x128_1_0_0_1_n_n_wf
def dot_S1000x4096_S4096x128_S1000x128_1_0_0_1_n_n : DotDims S1000x4096 S4096x128 S1000x128 where
  lhsContracting := [1]
  rhsContracting := [0]
  lhsNonContracting := [0]
  rhsNonContracting := [1]
  lhsBatch := []
  rhsBatch := []
  wf := dot_S1000x4096_S4096x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v0) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x1, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S128x128, .f32⟩
  | .hbm, ⟨22, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.GatherData.lean ====
/-
  The gather call: what its scratch accumulator and its windows hold, point by point.

  The grid has 391 edge tiles by 100 node tiles, the node tile running fastest: point `t` is edge tile `t / 100` and
  node tile `t % 100`. The body adds, into a scratch accumulator of one edge tile's 4096 rows, the rows the one-hot of
  the tile's source indices picks out of the current 1000-row node tile, each scaled by its edge weight. The accumulator
  is cleared at node tile 0 and copied to the output block at node tile 99; in between it is carried from point to
  point. So the scratch after point `n` is the body's update of: zeros at the first node tile of an edge tile, and what
  point `n - 1` left otherwise. The three inputs are never written; the output block's buffer holds, after the body at
  the last node tile, the accumulator.
-/
import proofs.«416147_j79207786873559_1_alg».proof.Proof.Gen.Kernel.Launch
import proofs.«416147_j79207786873559_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what every unscoped buffer of core `c` holds when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, a whole scoped buffer of the call's own. -/
abbrev scM0 : Memref sig .tc .vmem S4096x128 .f32 := Memref.whole cc0_scratch0

/-- The accumulator after the body at point `n`: the body's update (`k0_pay2`: the carried value plus the gathered
    rows times the weights) of zeros (`k0_pay1`) where the node tile is the first, and of what the point before left
    elsewhere. -/
def scrAt0 (c : Dev nD) : (n : ℕ) → n < cfg0.N → Vec F S4096x128 .f32
  | 0, hn => k0_pay2 (grid0.coords ⟨0, hn⟩) (iblk0 V c 0 ⟨0, hn⟩) (iblk0 V c 2 ⟨0, hn⟩) (k0_pay1 (F := F)) (iblk0 V c 1 ⟨0, hn⟩)
  | n + 1, hn =>
    if (n + 1) % 100 = 0 then
      k0_pay2 (grid0.coords ⟨n + 1, hn⟩) (iblk0 V c 0 ⟨n + 1, hn⟩) (iblk0 V c 2 ⟨n + 1, hn⟩) (k0_pay1 (F := F)) (iblk0 V c 1 ⟨n + 1, hn⟩)
    else
      k0_pay2 (grid0.coords ⟨n + 1, hn⟩) (iblk0 V c 0 ⟨n + 1, hn⟩) (iblk0 V c 2 ⟨n + 1, hn⟩) (scrAt0 c n (Nat.lt_of_succ_lt hn)) (iblk0 V c 1 ⟨n + 1, hn⟩)

/-- The scoped buffers that belong to the other call, each whole at some contents: they ride through this call
    untouched. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The call's invariant before position `n`: before the first point every scoped buffer that is no staging buffer
    of the call is held at some contents, beside the generator register; afterwards the accumulator is held at
    what the point before left in it. -/
def PhiS0 (c : Dev nD) : (n : ℕ) → n ≤ cfg0.N → sProp 𝕄
  | 0, _ => Pipeline.ΦA spec0 c
  | n + 1, hn => iprop(iprop(owns (c : Thread nD τ) scM0 fullShare (scrAt0 V c n hn) ∗ otherScoped0 (F := F) c) ∗ (∃ r, prngReg c r))

/-- The proof data of the call on core `c`: the arrays as the call finds them; after the body each input's buffer
    at its block and the output's at the accumulator (read only where the block is written back: the last node tile);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => scrAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = scrAt0 V c t.val t.isLt := by dsimp only [dat0]

/-- The accumulator after a point whose node tile is the first: the update of zeros. -/
theorem scrAt0_first (c : Dev nD) (t : Fin cfg0.N) (h : t.val % 100 = 0) :
    scrAt0 V c t.val t.isLt = k0_pay2 (grid0.coords t) (iblk0 V c 0 t) (iblk0 V c 2 t) (k0_pay1 (F := F)) (iblk0 V c 1 t) := by
  obtain ⟨n, hn⟩ := t
  cases n with
  | zero => rfl
  | succ n => exact if_pos h

/-- The accumulator after any other point: the update of what the point before left. -/
theorem scrAt0_next (c : Dev nD) (t : Fin cfg0.N) (h : ¬t.val % 100 = 0) :
    scrAt0 V c t.val t.isLt = k0_pay2 (grid0.coords t) (iblk0 V c 0 t) (iblk0 V c 2 t)
      (scrAt0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

end Cert.Kernel.Gather

end
-- ==== Proof.K.GatherSchedule.lean ====
/-
  The gather call's schedule in closed form.

  Point `t` of the 391 × 100 grid has slow coordinate `t / 100` and fast coordinate `t % 100`. The body clears its
  accumulator where the fast coordinate is 0 and stores the output block where it is 99; the output block's index
  is the slow coordinate, so the pipeline writes the block back exactly at the points whose fast coordinate is 99
  (the next point has another slow coordinate, or there is no next point). Each condition is a comparison of one
  coordinate's word with a literal, decided over that coordinate's 100 values; nothing here ranges over the whole grid.
-/
import proofs.«416147_j79207786873559_1_alg».proof.Proof.K.GatherData

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The fast coordinate of point `t`. -/
theorem coords0_1 (t : Fin cfg0.N) : (grid0.coords t 1).val = t.val % 100 := by
  show t.val / grid0.stride 1 % 100 = _
  rw [show grid0.stride 1 = 1 from by decide, Nat.div_one]

/-- The slow coordinate of point `t`. -/
theorem coords0_0 (t : Fin cfg0.N) : (grid0.coords t 0).val = t.val / 100 := by
  show t.val / grid0.stride 0 % 391 = _
  rw [show grid0.stride 0 = 100 from by decide]
  have hN : cfg0.N = 39100 := N_0
  have := t.isLt
  exact Nat.mod_eq_of_lt (by omega)

/-- The condition of the body's first `scf.if` (clear the accumulator), from the grid coordinates. -/
abbrev cond0_0 (i : grid0.Coords) : Prop :=
  (Scalar.cmpi .ne (Scalar.extui (Scalar.cmpi .eq (BitVec.ofNat 32 (i 1).val) 0#32)) 0#32) = 1#1
/-- The condition of its second (store the output block). -/
abbrev cond0_1 (i : grid0.Coords) : Prop := k0_cond2 i = 1#1

theorem cond0_0_iff (i : grid0.Coords) : cond0_0 i ↔ (i 1).val = 0 :=
  (by decide +kernel : ∀ n : Fin 100, ((Scalar.cmpi .ne (Scalar.extui (Scalar.cmpi .eq (BitVec.ofNat 32 n.val) 0#32)) 0#32) = 1#1) ↔ n.val = 0) (i 1)

theorem cond0_1_iff (i : grid0.Coords) : cond0_1 i ↔ (i 1).val = 99 :=
  (by decide +kernel : ∀ n : Fin 100, ((Scalar.cmpi .ne (Scalar.extui (Scalar.cmpi .eq (BitVec.ofNat 32 n.val) 99#32)) 0#32) = 1#1) ↔ n.val = 99) (i 1)

/-- The accumulator is cleared at the points whose fast coordinate is 0. -/
theorem hcond0_0 (t : Fin cfg0.N) : cond0_0 (grid0.coords t) ↔ t.val % 100 = 0 :=
  (cond0_0_iff _).trans (by rw [coords0_1])
/-- The output block is stored at the points whose fast coordinate is 99. -/
theorem hcond0_1 (t : Fin cfg0.N) : cond0_1 (grid0.coords t) ↔ t.val % 100 = 99 :=
  (cond0_1_iff _).trans (by rw [coords0_1])

/-- The output window's block index at point `t`: the slow coordinate, then 0. -/
theorem index0_3 (t : Fin cfg0.N) : (cfg0.win 3).index t = ![t.val / 100, 0] := by
  have hN : cfg0.N = 39100 := N_0
  have ht := t.isLt
  have e0 : (BitVec.ofNat 32 (grid0.coords t 0).val).toNat = t.val / 100 := by
    rw [BitVec.toNat_ofNat, coords0_0]
    exact Nat.mod_eq_of_lt (by omega)
  show ![(BitVec.ofNat 32 (grid0.coords t 0).val).toNat, (0#32).toNat] = _
  rw [e0]
  rfl

/-- The pipeline writes the output block back exactly at the points whose fast coordinate is 99. -/
theorem flushIff0 (t : Fin cfg0.N) : (cfg0.win 3).flush t = true ↔ t.val % 100 = 99 := by
  have hN : grid0.N = 39100 := N_0
  have ht : t.val < grid0.N := t.isLt
  refine ((cfg0.win 3).flush_out rfl t).trans ⟨?_, fun h => ?_⟩
  · rintro (h | ⟨h, hne⟩)
    · have h' : t.val + 1 = grid0.N := h
      omega
    · by_contra hc
      apply hne
      rw [index0_3, index0_3]
      have e : (t.val + 1) / 100 = t.val / 100 := by omega
      show ![(t.val + 1) / 100, 0] = ![t.val / 100, 0]
      rw [e]
  · by_cases hl : t.val + 1 = grid0.N
    · exact .inl hl
    · have hlt : t.val + 1 < grid0.N := by omega
      refine .inr ⟨hlt, ?_⟩
      rw [index0_3, index0_3]
      intro he
      have e : (t.val + 1) / 100 = t.val / 100 := congrFun he 0
      omega

/-- The inputs are never idle; the output is idle exactly where the body does not store it. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem idleAt0_3 (t : Fin cfg0.N) (h : ¬cond0_1 (grid0.coords t)) : cfg0.idle 3 (grid0.coords t) = true := by
  show (!(k0_cond2 (grid0.coords t) == 1#1)) = true
  rw [Bool.not_eq_true', beq_eq_false_iff_ne]
  exact h
theorem liveAt0_3 (t : Fin cfg0.N) (h : cond0_1 (grid0.coords t)) : cfg0.idle 3 (grid0.coords t) = false := by
  show (!(k0_cond2 (grid0.coords t) == 1#1)) = false
  rw [Bool.not_eq_false', beq_iff_eq]
  exact h
/-- Where the body does not store the output block the pipeline does not write it back. -/
theorem noFlush0_3 (t : Fin cfg0.N) (h : ¬cond0_1 (grid0.coords t)) : (cfg0.win 3).flush t = false := by
  have := (flushIff0 t).not.mpr (fun h' => h ((hcond0_1 t).mpr h'))
  simpa using this

/-- Each window's current staging memref at point `t`, as the pipeline passes it to the body, and its wholeness. -/
abbrev ms0_0 (t : Fin cfg0.N) : Memref sig .tc .vmem S4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)

/-- The kernel body at point `t`, on what the pipeline calls it with. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) (ms0_3 t) (hs0_3 t) scM0 (Memref.isWhole_whole _)

end Cert.Kernel.Gather

end
-- ==== Proof.K.GatherRunA.lean ====
/-
  The gather body at a point whose node tile is the first (and not the last).

  The first conditional is taken, the second is not: the body clears the accumulator, then adds to the cleared
  accumulator the rows the one-hot of the source indices picks out of the node tile, scaled by the edge weights. On
  whole staging memrefs holding the three input blocks, whatever the accumulator held, it ends with the inputs as they
  were, the output block's buffer untouched, and the accumulator at the update of zeros.
-/
import proofs.«416147_j79207786873559_1_alg».proof.Proof.K.GatherSchedule
import Idealize.ShloMosaic.Lib.Pipeline.Value

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-block access of rank 2, however spelt, are zero. -/
theorem hz2 : (![0, 0] : Fin 2 → Nat) = fun _ => 0 := by
  funext a; fin_cases a <;> rfl

/-- The offsets of a whole-block access of rank 1 are zero. -/
theorem hz1 : (![0] : Fin 1 → Nat) = fun _ => 0 := by
  funext a; fin_cases a; rfl

set_option maxHeartbeats 1000000 in
/-- The body where the accumulator is cleared and the output block is not stored: from the inputs' buffers at
    `x0`, `x1`, `x2`, the output's at `xi` and the accumulator's at anything, to the same with the accumulator at the
    update of zeros. -/
theorem run0_A (c : Dev nD) (i : grid0.Coords)
    (arg2 : Memref sig .tc .vmem S4096 .i32) (harg2 : arg2.IsWhole) (arg3 : Memref sig .tc .vmem S4096 .f32) (harg3 : arg3.IsWhole)
    (arg4 : Memref sig .tc .vmem S1000x128 .f32) (harg4 : arg4.IsWhole) (arg5 : Memref sig .tc .vmem S4096x128 .f32) (harg5 : arg5.IsWhole)
    (arg6 : Memref sig .tc .vmem S4096x128 .f32) (harg6 : arg6.IsWhole)
    (hc0 : cond0_0 i) (hc1 : ¬cond0_1 i)
    (x0 : Vec F S4096 .i32) (x1 : Vec F S4096 .f32) (x2 : Vec F S1000x128 .f32) (xi : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi
            ∗ owns (c : Thread nD τ) arg6 fullShare (k0_pay2 i x0 x2 (k0_pay1 (F := F)) x1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  sl_unfold_words
  rw [View.read_writes_eq_canon _ _ _ (fun y => ⟨_, List.mem_cons_self, View.mem_set_unit_zero hz2 Facts₀.inb_S4096x128_S4096x128_0_0 y⟩), View.canon_cons_unit_zero (S := S4096x128) hz2,
    View.readCov_unit_zero (S := S4096x128) _ hz2]
  simp only [View.readAt_eq_ld, harg2.read_unread, harg3.read_unread, harg4.read_unread,
    View.ld_unit_zero (S := S4096) hz1, View.ld_unit_zero (S := S1000x128) hz2]

end Cert.Kernel.Gather

end
-- ==== Proof.K.GatherRunB.lean ====
/-
  The gather body at a point whose node tile is neither the first nor the last.

  Neither conditional is taken: the body adds to the accumulator the rows the one-hot of the source indices picks out
  of the node tile, scaled by the edge weights. On whole staging memrefs holding the three input blocks and the
  accumulator at what the point before left, it ends with the inputs as they were, the output block's buffer
  untouched, and the accumulator at the update of what it held.
-/
import proofs.«416147_j79207786873559_1_alg».proof.Proof.K.GatherRunA

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where the accumulator is carried and the output block is not stored: from the inputs' buffers at `x0`, `x1`, `x2`, the output's at `xi` and the accumulator's at `xs`, to the same with the accumulator at the update of `xs`. -/
theorem run0_B (c : Dev nD) (i : grid0.Coords)
    (arg2 : Memref sig .tc .vmem S4096 .i32) (harg2 : arg2.IsWhole) (arg3 : Memref sig .tc .vmem S4096 .f32) (harg3 : arg3.IsWhole)
    (arg4 : Memref sig .tc .vmem S1000x128 .f32) (harg4 : arg4.IsWhole) (arg5 : Memref sig .tc .vmem S4096x128 .f32) (harg5 : arg5.IsWhole)
    (arg6 : Memref sig .tc .vmem S4096x128 .f32) (harg6 : arg6.IsWhole)
    (hc0 : ¬cond0_0 i) (hc1 : ¬cond0_1 i)
    (x0 : Vec F S4096 .i32) (x1 : Vec F S4096 .f32) (x2 : Vec F S1000x128 .f32) (xi : Vec F S4096x128 .f32) (xs : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi
            ∗ owns (c : Thread nD τ) arg6 fullShare (k0_pay2 i x0 x2 xs x1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  rw [View.read_writes_eq_canon _ _ _ (fun y => ⟨_, List.mem_singleton_self _, View.mem_set_unit_zero hz2 Facts₀.inb_S4096x128_S4096x128_0_0 y⟩), View.canon_unit_zero hz2]
  simp only [View.readAt_eq_ld, harg2.read_unread, harg3.read_unread, harg4.read_unread, harg6.read_unread,
    View.ld_unit_zero (S := S4096) hz1, View.ld_unit_zero (S := S1000x128) hz2, View.ld_unit_zero (S := S4096x128) hz2]

end Cert.Kernel.Gather

end
-- ==== Proof.K.GatherRunC.lean ====
/-
  The gather body at a point whose node tile is the last (and not the first).

  The second conditional is taken, the first is not: the body adds to the accumulator as at every point, then reads
  the accumulator back and stores it as the output block. On whole staging memrefs holding the three input blocks and
  the accumulator at what the point before left, whatever the output's buffer held, it ends with the inputs as they
  were and both the accumulator and the output's buffer at the update of what the accumulator held.
-/
import proofs.«416147_j79207786873559_1_alg».proof.Proof.K.GatherRunB

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body where the accumulator is carried and the output block is stored: from the inputs' buffers at `x0`, `x1`, `x2`, the output's at anything and the accumulator's at `xs`, to the inputs as they were and both the accumulator and the output's buffer at the update of `xs`. -/
theorem run0_C (c : Dev nD) (i : grid0.Coords)
    (arg2 : Memref sig .tc .vmem S4096 .i32) (harg2 : arg2.IsWhole) (arg3 : Memref sig .tc .vmem S4096 .f32) (harg3 : arg3.IsWhole)
    (arg4 : Memref sig .tc .vmem S1000x128 .f32) (harg4 : arg4.IsWhole) (arg5 : Memref sig .tc .vmem S4096x128 .f32) (harg5 : arg5.IsWhole)
    (arg6 : Memref sig .tc .vmem S4096x128 .f32) (harg6 : arg6.IsWhole)
    (hc0 : ¬cond0_0 i) (hc1 : cond0_1 i)
    (x0 : Vec F S4096 .i32) (x1 : Vec F S4096 .f32) (x2 : Vec F S1000x128 .f32) (xs : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 i x0 x2 xs x1)
            ∗ owns (c : Thread nD τ) arg6 fullShare (k0_pay2 i x0 x2 xs x1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_singleton_self _, View.mem_set_unit_zero hz2 Facts₀.inb_S4096x128_S4096x128_0_0 y⟩), View.canon_unit_zero hz2,
      View.readCov_unit_zero (S := S4096x128) _ hz2]
    simp only [View.readAt_eq_ld, harg2.read_unread, harg3.read_unread, harg4.read_unread, harg6.read_unread,
      View.ld_unit_zero (S := S4096) hz1, View.ld_unit_zero (S := S1000x128) hz2, View.ld_unit_zero (S := S4096x128) hz2]
  iexists _; isplitr
  swap; · iexact HS
  ipureintro
  sl_unfold_words
  rw [View.read_writes_eq_canon _ _ _ (fun y => ⟨_, List.mem_singleton_self _, View.mem_set_unit_zero hz2 Facts₀.inb_S4096x128_S4096x128_0_0 y⟩), View.canon_unit_zero hz2]
  simp only [View.readAt_eq_ld, harg2.read_unread, harg3.read_unread, harg4.read_unread, harg6.read_unread,
    View.ld_unit_zero (S := S4096) hz1, View.ld_unit_zero (S := S1000x128) hz2, View.ld_unit_zero (S := S4096x128) hz2]

end Cert.Kernel.Gather

end
-- ==== Proof.K.GatherBody.lean ====
/-
  The gather call's body obligation.

  At every grid point the body, called with the invariant and each window's current staging buffer at what it then
  holds, runs to the invariant at the next position and each buffer at what the proof data says the body leaves. The
  three control cases of the body (clear then update; update; update then store the output block) are told apart by
  the point's node tile; the case where the accumulator is both cleared and stored does not occur, the node tile
  being 0 in the one and 99 in the other.
-/
import proofs.«416147_j79207786873559_1_alg».proof.Proof.K.GatherRunC

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- What every unscoped buffer of core `c` holds when the call is entered.
variable (V : (c : Dev nD) → (b : Ref sig .tc) → Buf (Elt F) ((c : Thread nD τ).loc b))

/-! ## The invariant, position by position -/

/-- What the launch hands the call: the accumulator and the other call's scoped buffers at some contents each, and
    the generator register at some state. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; rfl

/-- Before the first point the invariant is what the launch hands the call. -/
theorem PhiS0_zero (c : Dev nD) (n : ℕ) (h : n ≤ cfg0.N) (hz : n = 0) : PhiS0 V c n h = Pipeline.ΦA spec0 c := by
  subst hz; rfl

/-- After point `n`: the accumulator at what that point left. -/
theorem PhiS0_succ (c : Dev nD) (n : ℕ) (hn : n < cfg0.N) :
    PhiS0 V c (n + 1) hn = iprop(iprop(owns (c : Thread nD τ) scM0 fullShare (scrAt0 V c n hn) ∗ otherScoped0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (scrAt0 V c (n - 1) (by omega)) ∗ otherScoped0 (F := F) c) ∗ (∃ r, prngReg c r)) := by
  cases n with
  | zero => exact absurd rfl hz
  | succ n => rfl

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The inputs' buffers hold their blocks at every point -/

/-- Window 0's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Window 1's likewise. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Window 2's likewise. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- The inputs are never idle: after the body each one's buffer holds its block still. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

/-! ## The body obligation, at a generic point -/

/-- What the body is called with at point `t`: the invariant, what the core owes, and each window's current buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it returns: the invariant at the next position, the same owed, and each window's buffer at what the body
    leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's node tile says which control case it
    is in. At the first node tile the accumulator is cleared, so what it held does not matter (at the very first
    point it is at anything; later at what the edge tile before left) and it ends at the update of zeros; elsewhere
    it enters at what the point before left and ends at the update of that. The output's buffer is stored only at the
    last node tile, where it ends at the accumulator; elsewhere it is handed back as found, and the pipeline does not
    write it back there. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 39100 := lt_of_lt_of_eq t.isLt (show cfg0.N = 39100 from N_0)
  by_cases h0 : t.val % 100 = 0
  · by_cases h1 : t.val % 100 = 99
    · exfalso; omega
    · rw [Dat.leavesExact_idle (dat0 V c) 3 t (idleAt0_3 t (fun h => h1 ((hcond0_1 t).mp h))) (noFlush0_3 t (fun h => h1 ((hcond0_1 t).mp h)))]
      rw [scrAt0_first V c t h0]
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h)) (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h)) (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
  · have hz : t.val ≠ 0 := by omega
    by_cases h1 : t.val % 100 = 99
    · rw [show (dat0 V c).leavesExact 3 t = owns (c : Thread nD τ) (ms0_3 t) fullShare ((dat0 V c).after 3 t) from by
        unfold Dat.leavesExact; rw [liveAt0_3 t ((hcond0_1 t).mpr h1)], after0_3]
      rw [scrAt0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1) (iblk0 V c 0 t) (iblk0 V c 1 t) (iblk0 V c 2 t) (scrAt0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      rw [scrAt0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h)) (iblk0 V c 0 t) (iblk0 V c 1 t) (iblk0 V c 2 t) _ (scrAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The body obligation, at every point: the windows conjoined one by one, it is `sound_body0`. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed the call: the accumulator's named contents
    are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 39100 := N_0; omega), PhiA0_eq]
  iintro ⟨⟨HS, Hr⟩, Hg⟩
  isplitl [HS Hr]
  · isplitl [HS]
    · iexists _; iexact HS
    iexact Hr
  iexact Hg

end Cert.Kernel.Gather

end
-- ==== Proof.K.ScatterData.lean ====
/-
  The scatter-and-project call: what its scratch accumulator and its windows hold, point by point.

  The grid has 100 node tiles by 391 edge tiles, the edge tile running fastest: point `t` is node tile `t / 391` and
  edge tile `t % 391`. The body adds, into a scratch accumulator of one node tile's 1000 rows, for every row the sum of
  the message rows of the current 4096-edge tile whose destination index is that row (a one-hot of node against
  destination, times the message tile). The accumulator is cleared at edge tile 0 and carried from point to point;
  at edge tile 390 the output block receives the accumulator times the transposed weight matrix. The three inputs
  are never written.
-/
import proofs.«416147_j79207786873559_1_alg».proof.Proof.Gen.Kernel.Launch
import proofs.«416147_j79207786873559_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what every unscoped buffer of core `c` holds when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the call's own. -/
abbrev scM1 : Memref sig .tc .vmem S1000x128 .f32 := Memref.whole cc1_scratch0

/-- The accumulator after the body at point `n`: the body's update (`k1_pay2`: the carried value plus the one-hot of
    node against destination times the message tile) of zeros (`k1_pay1`) where the edge tile is the first, and of what
    the point before left elsewhere. -/
def scrAt1 (c : Dev nD) : (n : ℕ) → n < cfg1.N → Vec F S1000x128 .f32
  | 0, hn => k1_pay2 (grid1.coords ⟨0, hn⟩) (iblk1 V c 0 ⟨0, hn⟩) (iblk1 V c 1 ⟨0, hn⟩) (k1_pay1 (F := F))
  | n + 1, hn =>
    if (n + 1) % 391 = 0 then
      k1_pay2 (grid1.coords ⟨n + 1, hn⟩) (iblk1 V c 0 ⟨n + 1, hn⟩) (iblk1 V c 1 ⟨n + 1, hn⟩) (k1_pay1 (F := F))
    else
      k1_pay2 (grid1.coords ⟨n + 1, hn⟩) (iblk1 V c 0 ⟨n + 1, hn⟩) (iblk1 V c 1 ⟨n + 1, hn⟩) (scrAt1 c n (Nat.lt_of_succ_lt hn))

/-- The scoped buffers that are no staging buffer of this call, in the order the launch lists them: those of the other
    call, each whole at some contents (they ride through untouched), and last this call's accumulator, held as `last`
    says. -/
def scoped1 (c : Dev nD) (last : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ last)

/-- The call's invariant before position `n`: before the first point every scoped buffer that is no staging buffer
    of the call is held at some contents, beside the generator register; afterwards the accumulator is held at
    what the point before left in it. -/
def PhiS1 (c : Dev nD) : (n : ℕ) → n ≤ cfg1.N → sProp 𝕄
  | 0, _ => Pipeline.ΦA spec1 c
  | n + 1, hn => iprop(scoped1 (F := F) c (owns (c : Thread nD τ) scM1 fullShare (scrAt1 V c n hn)) ∗ (∃ r, prngReg c r))

/-- The proof data of the call on core `c`: the arrays as the call finds them; after the body each input's buffer
    at its block and the output's at the accumulator times the transposed weights (read only where the block is
    written back: the last edge tile); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scrAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (scrAt1 V c t.val t.isLt) (iblk1 V c 2 t) := by dsimp only [dat1]

/-- The accumulator after a point whose edge tile is the first: the update of zeros. -/
theorem scrAt1_first (c : Dev nD) (t : Fin cfg1.N) (h : t.val % 391 = 0) :
    scrAt1 V c t.val t.isLt = k1_pay2 (grid1.coords t) (iblk1 V c 0 t) (iblk1 V c 1 t) (k1_pay1 (F := F)) := by
  obtain ⟨n, hn⟩ := t
  cases n with
  | zero => rfl
  | succ n => exact if_pos h

/-- The accumulator after any other point: the update of what the point before left. -/
theorem scrAt1_next (c : Dev nD) (t : Fin cfg1.N) (h : ¬t.val % 391 = 0) :
    scrAt1 V c t.val t.isLt = k1_pay2 (grid1.coords t) (iblk1 V c 0 t) (iblk1 V c 1 t)
      (scrAt1 V c (t.val - 1) (Nat.lt_of_le_of_lt (Nat.sub_le _ _) t.isLt)) := by
  obtain ⟨n, hn⟩ := t
  cases n with
  | zero => exact absurd (Nat.zero_mod _) h
  | succ n => exact if_neg h

end Cert.Kernel.Scatter

end
-- ==== Proof.K.ScatterSchedule.lean ====
/-
  The scatter-and-project call's schedule in closed form.

  Point `t` of the 100 × 391 grid has slow coordinate `t / 391` and fast coordinate `t % 391`. The body clears its
  accumulator where the fast coordinate is 0 and stores the output block where it is 390; the output block's index
  is the slow coordinate, so the pipeline writes the block back exactly at the points whose fast coordinate is 390
  (the next point has another slow coordinate, or there is no next point). Each condition is a comparison of one
  coordinate's word with a literal, decided over that coordinate's 391 values; nothing here ranges over the whole grid.
-/
import proofs.«416147_j79207786873559_1_alg».proof.Proof.K.ScatterData

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The fast coordinate of point `t`. -/
theorem coords1_1 (t : Fin cfg1.N) : (grid1.coords t 1).val = t.val % 391 := by
  show t.val / grid1.stride 1 % 391 = _
  rw [show grid1.stride 1 = 1 from by decide, Nat.div_one]

/-- The slow coordinate of point `t`. -/
theorem coords1_0 (t : Fin cfg1.N) : (grid1.coords t 0).val = t.val / 391 := by
  show t.val / grid1.stride 0 % 100 = _
  rw [show grid1.stride 0 = 391 from by decide]
  have hN : cfg1.N = 39100 := N_1
  have := t.isLt
  exact Nat.mod_eq_of_lt (by omega)

/-- The condition of the body's first `scf.if` (clear the accumulator), from the grid coordinates. -/
abbrev cond1_0 (i : grid1.Coords) : Prop :=
  (Scalar.cmpi .ne (Scalar.extui (Scalar.cmpi .eq (BitVec.ofNat 32 (i 1).val) 0#32)) 0#32) = 1#1
/-- The condition of its second (store the output block). -/
abbrev cond1_1 (i : grid1.Coords) : Prop := k1_cond2 i = 1#1

theorem cond1_0_iff (i : grid1.Coords) : cond1_0 i ↔ (i 1).val = 0 :=
  (by decide +kernel : ∀ n : Fin 391, ((Scalar.cmpi .ne (Scalar.extui (Scalar.cmpi .eq (BitVec.ofNat 32 n.val) 0#32)) 0#32) = 1#1) ↔ n.val = 0) (i 1)

theorem cond1_1_iff (i : grid1.Coords) : cond1_1 i ↔ (i 1).val = 390 :=
  (by decide +kernel : ∀ n : Fin 391, ((Scalar.cmpi .ne (Scalar.extui (Scalar.cmpi .eq (BitVec.ofNat 32 n.val) 390#32)) 0#32) = 1#1) ↔ n.val = 390) (i 1)

/-- The accumulator is cleared at the points whose fast coordinate is 0. -/
theorem hcond1_0 (t : Fin cfg1.N) : cond1_0 (grid1.coords t) ↔ t.val % 391 = 0 :=
  (cond1_0_iff _).trans (by rw [coords1_1])
/-- The output block is stored at the points whose fast coordinate is 390. -/
theorem hcond1_1 (t : Fin cfg1.N) : cond1_1 (grid1.coords t) ↔ t.val % 391 = 390 :=
  (cond1_1_iff _).trans (by rw [coords1_1])

/-- The output window's block index at point `t`: the slow coordinate, then 0. -/
theorem index1_3 (t : Fin cfg1.N) : (cfg1.win 3).index t = ![t.val / 391, 0] := by
  show cc1_transform_3 (grid1.coords t) = _
  unfold cc1_transform_3
  dsimp only
  rw [coords1_0]
  have hN : cfg1.N = 39100 := N_1
  have ht := t.isLt
  have h : (BitVec.ofNat 32 (t.val / 391)).toNat = t.val / 391 := by
    rw [BitVec.toNat_ofNat]; exact Nat.mod_eq_of_lt (by omega)
  rw [h]; rfl

/-- The pipeline writes the output block back exactly at the points whose fast coordinate is 390. -/
theorem flushIff1 (t : Fin cfg1.N) : (cfg1.win 3).flush t = true ↔ t.val % 391 = 390 := by
  have hN : cfg1.N = 39100 := N_1
  have hG : grid1.N = 39100 := N_1
  have hG' : cfg1.grid.N = 39100 := N_1
  have ht := t.isLt
  -- the block index moves between `t` and `t + 1` exactly when the slow coordinate does
  have hmove : ∀ h : t.val + 1 < grid1.N,
      ((cfg1.win 3).index ⟨t.val + 1, h⟩ ≠ (cfg1.win 3).index t) ↔ (t.val + 1) / 391 ≠ t.val / 391 := by
    intro h
    have e1 : (cfg1.win 3).index ⟨t.val + 1, h⟩ = ![(t.val + 1) / 391, 0] := index1_3 ⟨t.val + 1, h⟩
    rw [e1, index1_3 t]
    constructor
    · intro hne heq; exact hne (by rw [heq])
    · intro hne heq; exact hne (by simpa using congrFun heq 0)
  unfold Window.flush
  rw [show (cfg1.win 3).isOut = true from rfl, Bool.true_and, Bool.or_eq_true, decide_eq_true_eq, decide_eq_true_eq]
  constructor
  · rintro (h | ⟨h, hne⟩)
    · omega
    · have := (hmove h).mp hne
      omega
  · intro h
    by_cases hl : t.val + 1 = grid1.N
    · exact .inl hl
    · have hlt : t.val + 1 < grid1.N := by omega
      exact .inr ⟨hlt, (hmove hlt).mpr (by omega)⟩

/-- The inputs are never idle; the output is idle exactly where the body does not store it. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem idleAt1_3 (t : Fin cfg1.N) (h : ¬cond1_1 (grid1.coords t)) : cfg1.idle 3 (grid1.coords t) = true := by
  have hb : (k1_cond2 (grid1.coords t) == 1#1) = false := by
    rw [beq_eq_false_iff_ne]; exact h
  show (!(k1_cond2 (grid1.coords t) == 1#1)) = true
  rw [hb]; rfl
theorem liveAt1_3 (t : Fin cfg1.N) (h : cond1_1 (grid1.coords t)) : cfg1.idle 3 (grid1.coords t) = false := by
  have hb : (k1_cond2 (grid1.coords t) == 1#1) = true := by
    rw [beq_iff_eq]; exact h
  show (!(k1_cond2 (grid1.coords t) == 1#1)) = false
  rw [hb]; rfl
/-- Where the body does not store the output block the pipeline does not write it back. -/
theorem noFlush1_3 (t : Fin cfg1.N) (h : ¬cond1_1 (grid1.coords t)) : (cfg1.win 3).flush t = false := by
  have := (flushIff1 t).not.mpr (fun h' => h ((hcond1_1 t).mpr h'))
  simpa using this

/-- Each window's current staging memref at point `t`, as the pipeline passes it to the body, and its wholeness. -/
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x128 .f32 := win1_3.stage (cfg1.slots t 3)
abbrev hs1_3 (t : Fin cfg1.N) : (ms1_3 t).IsWhole := hstage1_3 ((cfg1.slots t 3).cast nbuf1_3)

/-- The kernel body at point `t`, on what the pipeline calls it with. -/
abbrev bodyAt1 (t : Fin cfg1.N) : Prog (TpuEff nD τ sig (Elt F) Λ₀ .tc) PUnit :=
  cc1__scatter_linear_kernel (grid1.coords t) (ms1_0 t) (hs1_0 t) (ms1_1 t) (hs1_1 t) (ms1_2 t) (hs1_2 t) (ms1_3 t) (hs1_3 t) scM1 (Memref.isWhole_whole _)

end Cert.Kernel.Scatter

end
-- ==== Proof.K.ScatterRunA.lean ====
/-
  The scatter-and-project body at a point whose edge tile is the first (case A).

  There the body first stores zeros over its accumulator, then reads the destination indices and the message tile,
  reads the accumulator back (the zeros just stored), and stores the update: zeros plus the one-hot of node against
  destination times the message tile. It does not reach the projection (the edge tile is not the last), so the output's
  staging buffer and the weight tile are handed back as they were found. Whatever the accumulator held before is
  overwritten: the case asks nothing of it.

  The triple is found in two steps. First the body is run symbolically on whole staging memrefs; what it leaves in the
  accumulator comes out as a list of stores (last first), each a rectangle and a payload. Both stores cover the whole
  accumulator, so the list reads back as the last store's payload, and the accumulator read between the two stores is
  the first store's payload: the zeros.
-/
import proofs.«416147_j79207786873559_1_alg».proof.Proof.K.ScatterSchedule
import Idealize.ShloMosaic.Lib.Pipeline.Value

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Offsets of a whole-buffer access, one axis and two: all zero. -/
theorem hz1 : (![0] : Fin 1 → Nat) = fun _ => 0 := funext fun a => by fin_cases a <;> rfl
theorem hz2 : (![0, 0] : Fin 2 → Nat) = fun _ => 0 := funext fun a => by fin_cases a <;> rfl

set_option maxHeartbeats 1000000 in
/-- The stores case A leaves in the accumulator (last first), with the body's triple over them: from the inputs'
    memrefs at `x0`, `x1`, `x2`, the output's at `xi3` and the accumulator's at anything, the body runs to a
    continuation that holds the first four as they were and the accumulator's buffer with those stores written. -/
noncomputable def kernelRun1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32) :
    { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_linear_kernel i arg2 harg2 arg3 harg3 arg4 harg4 arg5 harg5 arg6 harg6) K } := by
  refine ⟨?_, fun xi3 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case A's stores cover the accumulator (each is a store of the whole buffer). -/
theorem scover1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32) (y : S1000x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1000x128.size (by sl_kernel_rfl) y

/-- Read back, case A's stores are the update of zeros: `k1_pay2` of the point, the destination indices, the message
    tile and the zero block `k1_pay1`. -/
theorem scanon1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32) :
    View.canon (kernelRun1_A c i arg2 harg2 arg3 harg3 arg4 harg4 arg5 harg5 arg6 harg6 hc0 hc1 x0 x1 x2).1 = k1_pay2 i x0 x1 (k1_pay1 (F := F)) := by
  unfold kernelRun1_A
  dsimp only
  sl_unfold_words
  rw [View.canon_cons_unit_zero (S := S1000x128) hz2, View.readCov_unit_zero (S := S1000x128) _ hz2]
  simp only [View.readAt_eq_ld, harg2.read_unread, harg3.read_unread, View.ld_unit_zero (S := S4096) hz1,
    View.ld_unit_zero (S := S4096x128) hz2]

/-- THE BODY IN CASE A. On whole staging memrefs — the inputs' at `x0`, `x1`, `x2`, the output's at `xi3`, the
    accumulator's at anything — the body runs to a continuation that holds the inputs' and the output's as they were
    and the accumulator at the update of zeros. -/
theorem bodyRun1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32)
    (xi3 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x1 (k1_pay1 (F := F)))) -∗ K ⟨⟩))
      ⊢ wp frame (wpE (defs₀ (F := F)) Variants.none c none) E (cc1__scatter_linear_kernel i arg2 harg2 arg3 harg3 arg4 harg4 arg5 harg5 arg6 harg6) K := by
  iintro ⟨H0, H1, H2, H3, HS0, Hk⟩
  iapply ((kernelRun1_A c i arg2 harg2 arg3 harg3 arg4 harg4 arg5 harg5 arg6 harg6 hc0 hc1 x0 x1 x2).2 xi3 E K)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  iapply Hk
  isplitl [H0]; · iexact H0
  isplitl [H1]; · iexact H1
  isplitl [H2]; · iexact H2
  isplitl [H3]; · iexact H3
  unfold owns; iexists _; isplitr
  swap; · iexact HS0
  ipureintro
  exact (View.read_writes_eq_canon _ _ _ (scover1_A c i arg2 harg2 arg3 harg3 arg4 harg4 arg5 harg5 arg6 harg6 hc0 hc1 x0 x1 x2)).trans
    (scanon1_A c i arg2 harg2 arg3 harg3 arg4 harg4 arg5 harg5 arg6 harg6 hc0 hc1 x0 x1 x2)

end Cert.Kernel.Scatter

end
-- ==== Proof.K.ScatterRunB.lean ====
/-
  The scatter-and-project body at a point whose edge tile is neither the first nor the last (case B).

  There the body reads the destination indices, the message tile and its accumulator, and stores the update: the
  carried accumulator plus the one-hot of node against destination times the message tile. Nothing is cleared and
  nothing is projected: the weight tile and the output's staging buffer are handed back as they were found.

  As in case A the body is run symbolically first; its one store covers the accumulator, so what it leaves reads back
  as that store's payload, whose loads read the whole buffers.
-/
import proofs.«416147_j79207786873559_1_alg».proof.Proof.K.ScatterRunA

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The store case B leaves in the accumulator, with the body's triple over it: from the inputs' memrefs at `x0`,
    `x1`, `x2`, the output's at `xi3` and the accumulator's at `xs`, the body runs to a continuation that holds the
    first four as they were and the accumulator's buffer with that store written. -/
noncomputable def kernelRun1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32) :
    { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_linear_kernel i arg2 harg2 arg3 harg3 arg4 harg4 arg5 harg5 arg6 harg6) K } := by
  refine ⟨?_, fun xi3 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case B's store covers the accumulator. -/
theorem scover1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32)
    (y : S1000x128.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S1000x128.size (by sl_kernel_rfl) y

/-- Read back, case B's store is the update of the carried accumulator: `k1_pay2` of the point, the destination
    indices, the message tile and `xs`. -/
theorem scanon1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32) :
    View.canon (kernelRun1_B c i arg2 harg2 arg3 harg3 arg4 harg4 arg5 harg5 arg6 harg6 hc0 hc1 x0 x1 x2 xs).1 = k1_pay2 i x0 x1 xs := by
  unfold kernelRun1_B
  dsimp only
  sl_unfold_words
  rw [View.canon_unit_zero (S := S1000x128) hz2]
  simp only [View.readAt_eq_ld, harg2.read_unread, harg3.read_unread, harg6.read_unread, View.ld_unit_zero (S := S4096) hz1,
    View.ld_unit_zero (S := S4096x128) hz2, View.ld_unit_zero (S := S1000x128) hz2]

/-- THE BODY IN CASE B. On whole staging memrefs — the inputs' at `x0`, `x1`, `x2`, the output's at `xi3`, the
    accumulator's at `xs` — the body runs to a continuation that holds the inputs' and the output's as they were and
    the accumulator at the update of `xs`. -/
theorem bodyRun1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32)
    (xi3 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x1 xs)) -∗ K ⟨⟩))
      ⊢ wp frame (wpE (defs₀ (F := F)) Variants.none c none) E (cc1__scatter_linear_kernel i arg2 harg2 arg3 harg3 arg4 harg4 arg5 harg5 arg6 harg6) K := by
  iintro ⟨H0, H1, H2, H3, HS0, Hk⟩
  iapply ((kernelRun1_B c i arg2 harg2 arg3 harg3 arg4 harg4 arg5 harg5 arg6 harg6 hc0 hc1 x0 x1 x2 xs).2 xi3 E K)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  iapply Hk
  isplitl [H0]; · iexact H0
  isplitl [H1]; · iexact H1
  isplitl [H2]; · iexact H2
  isplitl [H3]; · iexact H3
  unfold owns; iexists _; isplitr
  swap; · iexact HS0
  ipureintro
  exact (View.read_writes_eq_canon _ _ _ (scover1_B c i arg2 harg2 arg3 harg3 arg4 harg4 arg5 harg5 arg6 harg6 hc0 hc1 x0 x1 x2 xs)).trans
    (scanon1_B c i arg2 harg2 arg3 harg3 arg4 harg4 arg5 harg5 arg6 harg6 hc0 hc1 x0 x1 x2 xs)

end Cert.Kernel.Scatter

end
-- ==== Proof.K.ScatterRunC.lean ====
/-
  The scatter-and-project body at a point whose edge tile is the last (case C).

  There the body updates its accumulator as in case B — the carried accumulator plus the one-hot of node against
  destination times the message tile — and then projects: it reads the accumulator back (the update just stored) and
  the weight tile, and stores their product (`k1_pay3`: accumulator times the transposed weights) over the output's
  staging buffer, whatever that held.

  The body is run symbolically first; it leaves one store in the accumulator and one in the output's buffer, each
  covering its buffer, so each reads back as its payload. The accumulator the projection reads is a load after the
  update's store: it reads that store's payload.
-/
import proofs.«416147_j79207786873559_1_alg».proof.Proof.K.ScatterRunB

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores case C leaves in the output's staging buffer (`L3`) and in the accumulator (`LS0`), with the body's
    triple over them: from the inputs' memrefs at `x0`, `x1`, `x2`, the output's at anything and the accumulator's at
    `xs`, the body runs to a continuation that holds the inputs as they were and the two buffers with those stores
    written. -/
noncomputable def kernelRun1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32) :
    Σ' (L3 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_linear_kernel i arg2 harg2 arg3 harg3 arg4 harg4 arg5 harg5 arg6 harg6) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- Case C's store into the output's staging buffer covers it. -/
theorem cover1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32)
    (y : S1000x128.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1000x128.size (by sl_kernel_rfl) y

/-- Case C's store into the accumulator covers it. -/
theorem scover1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32)
    (y : S1000x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1000x128.size (by sl_kernel_rfl) y

/-- Read back, case C's store into the accumulator is the update of the carried accumulator. -/
theorem scanon1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32) :
    View.canon (kernelRun1_C c i arg2 harg2 arg3 harg3 arg4 harg4 arg5 harg5 arg6 harg6 hc0 hc1 x0 x1 x2 xs).2.1 = k1_pay2 i x0 x1 xs := by
  unfold kernelRun1_C
  dsimp only
  sl_unfold_words
  rw [View.canon_unit_zero (S := S1000x128) hz2]
  simp only [View.readAt_eq_ld, harg2.read_unread, harg3.read_unread, harg6.read_unread, View.ld_unit_zero (S := S4096) hz1,
    View.ld_unit_zero (S := S4096x128) hz2, View.ld_unit_zero (S := S1000x128) hz2]

/-- Read back, case C's store into the output's staging buffer is the projection of that update: `k1_pay3` of it and
    the weight tile. -/
theorem canon1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32) :
    View.canon (kernelRun1_C c i arg2 harg2 arg3 harg3 arg4 harg4 arg5 harg5 arg6 harg6 hc0 hc1 x0 x1 x2 xs).1 = k1_pay3 (k1_pay2 i x0 x1 xs) x2 := by
  unfold kernelRun1_C
  dsimp only
  sl_unfold_words
  rw [View.canon_unit_zero (S := S1000x128) hz2]
  simp only [View.readAt_eq_ld, harg2.read_unread, harg3.read_unread, harg4.read_unread, harg6.read_unread,
    View.readCov_unit_zero (S := S1000x128) _ hz2, View.ld_unit_zero (S := S4096) hz1,
    View.ld_unit_zero (S := S4096x128) hz2, View.ld_unit_zero (S := S1000x128) hz2, View.ld_unit_zero (S := S128x128) hz2]

/-- THE BODY IN CASE C. On whole staging memrefs — the inputs' at `x0`, `x1`, `x2`, the output's at anything, the
    accumulator's at `xs` — the body runs to a continuation that holds the inputs' as they were, the accumulator at the
    update of `xs`, and the output's buffer at that update times the transposed weights. -/
theorem bodyRun1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x0 x1 xs) x2)
            ∗ owns (c : Thread nD τ) arg6 fullShare (k1_pay2 i x0 x1 xs)) -∗ K ⟨⟩))
      ⊢ wp frame (wpE (defs₀ (F := F)) Variants.none c none) E (cc1__scatter_linear_kernel i arg2 harg2 arg3 harg3 arg4 harg4 arg5 harg5 arg6 harg6) K := by
  iintro ⟨H0, H1, H2, H3, HS0, Hk⟩
  iapply ((kernelRun1_C c i arg2 harg2 arg3 harg3 arg4 harg4 arg5 harg5 arg6 harg6 hc0 hc1 x0 x1 x2 xs).2.2 E K)
  isplitl [H0]; · iexact H0
  isplitl [H1]; · iexact H1
  isplitl [H2]; · iexact H2
  isplitl [H3]; · iexact H3
  isplitl [HS0]; · iexact HS0
  iintro ⟨H0, H1, H2, ⟨%e3, H3⟩, ⟨%es0, HS0⟩⟩
  iapply Hk
  isplitl [H0]; · iexact H0
  isplitl [H1]; · iexact H1
  isplitl [H2]; · iexact H2
  isplitl [H3]
  · unfold owns; iexists _; isplitr
    swap; · iexact H3
    ipureintro
    exact (View.read_writes_eq_canon _ _ _ (cover1_C c i arg2 harg2 arg3 harg3 arg4 harg4 arg5 harg5 arg6 harg6 hc0 hc1 x0 x1 x2 xs)).trans
      (canon1_C c i arg2 harg2 arg3 harg3 arg4 harg4 arg5 harg5 arg6 harg6 hc0 hc1 x0 x1 x2 xs)
  unfold owns; iexists _; isplitr
  swap; · iexact HS0
  ipureintro
  exact (View.read_writes_eq_canon _ _ _ (scover1_C c i arg2 harg2 arg3 harg3 arg4 harg4 arg5 harg5 arg6 harg6 hc0 hc1 x0 x1 x2 xs)).trans
    (scanon1_C c i arg2 harg2 arg3 harg3 arg4 harg4 arg5 harg5 arg6 harg6 hc0 hc1 x0 x1 x2 xs)

end Cert.Kernel.Scatter

end
-- ==== Proof.K.ScatterBody.lean ====
/-
  The scatter-and-project call: its body meets the pipeline's obligation at every point.

  At point `t` the pipeline hands the body the three inputs' staging buffers, each holding its block (an input's
  buffer holds its block whether or not it was fetched at this point: unfetched, the block index has not moved), the
  output's staging buffer, and the call's invariant: before the first point every scoped buffer that is no staging
  buffer of the call at some contents; afterwards the accumulator at what the point before left in it. The point's
  edge tile `t % 391` selects what the body does — clear then update (first edge tile), update only, or update then
  project (last edge tile; the first and the last edge tile are different, the grid having 391 of them) — and in
  each case the body's triple (the three case modules) gives back the inputs' buffers untouched, the accumulator at
  the point's update, and the output's buffer at the projection (last edge tile) or as it was found (elsewhere: there
  the window is idle and its block is not written back).
-/
import proofs.«416147_j79207786873559_1_alg».proof.Proof.K.ScatterRunC

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what every unscoped buffer of core `c` holds when the call is entered
variable (V : (c : Dev nD) → (b : Ref sig .tc) → Buf (Elt F) ((c : Thread nD τ).loc b))

/-! ## The invariant, with the accumulator set apart -/

/-- The other call's scoped buffers, each whole at some contents: they ride through this call untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The scoped buffers that are no staging buffer of this call: the other call's, and the accumulator. -/
theorem scoped1_eq (c : Dev nD) (last : sProp 𝕄) : scoped1 (F := F) c last = iprop(others1 (F := F) c ∗ last) := by
  have h₁ : scoped1 (F := F) c last ⊢ iprop(others1 (F := F) c ∗ last) := by
    unfold scoped1 others1
    iintro ⟨R0, R1, R2, R3, R4, R5, R6, R7, R8, HL⟩
    isplitr [HL]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    · iexact HL
  have h₂ : iprop(others1 (F := F) c ∗ last) ⊢ scoped1 (F := F) c last := by
    unfold scoped1 others1
    iintro ⟨⟨R0, R1, R2, R3, R4, R5, R6, R7, R8⟩, HL⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HL
  exact BI.equiv_iff.mp ⟨h₁, h₂⟩

/-- What the launch hands the call, with the accumulator as a memref owned at some contents. -/
theorem PhiA1_eq (c : Dev nD) :
    (Pipeline.ΦA spec1 c : sProp 𝕄)
      = iprop(scoped1 (F := F) c iprop(∃ d, owns (c : Thread nD τ) scM1 fullShare d) ∗ (∃ r, prngReg c r)) := by
  unfold Pipeline.ΦA scoped1; rw [scopedRest1_eq]; simp only [scM1, owns_whole]; rfl

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn
      = iprop(scoped1 (F := F) c (owns (c : Thread nD τ) scM1 fullShare (scrAt1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(scoped1 (F := F) c (owns (c : Thread nD τ) scM1 fullShare
          (scrAt1 V c (n - 1) (Nat.lt_of_lt_of_le (Nat.sub_lt (Nat.pos_of_ne_zero hz) Nat.one_pos) h))) ∗ (∃ r, prngReg c r)) := by
  cases n with
  | zero => exact absurd rfl hz
  | succ n => rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The inputs' buffers hold their blocks -/

/-- Each input's current staging buffer holds its block at every point, fetched there or not: the body leaves the
    block in place, the window is never idle and never cut. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's edge tile says which case the point is
    in; the invariant hands the body the accumulator at what the point before left (at anything at the first point) and
    takes it back at this point's update; the output's buffer comes back at the projection where the edge tile is the
    last, and as it was found elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 39100 := lt_of_lt_of_eq t.isLt (show cfg1.N = 39100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 391 = 0
  · by_cases h1 : t.val % 391 = 390
    · exfalso; omega
    · -- the first edge tile: clear, then update
      rw [Dat.leavesExact_idle (dat1 V c) 3 t (idleAt1_3 t (fun h => h1 ((hcond1_1 t).mp h))) (noFlush1_3 t (fun h => h1 ((hcond1_1 t).mp h)))]
      rw [scrAt1_first V c t h0]
      by_cases hz : t.val = 0
      · rw [PhiS1_castSucc V c t, PhiS1_zero V c _ _ hz, PhiA1_eq]
        simp only [scoped1_eq]
        iintro ⟨⟨⟨HR, HS0⟩, Hg⟩, Ho, ⟨%d0, H0⟩, ⟨%d1, H1⟩, ⟨%d2, H2⟩, ⟨%d3, H3⟩⟩
        iapply (bodyRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HR HS0 Hg]
        · isplitl [HR HS0]
          · isplitl [HR]; · iexact HR
            iexact HS0
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        simp only [scoped1_eq]
        iintro ⟨⟨⟨HR, HS0⟩, Hg⟩, Ho, ⟨%d0, H0⟩, ⟨%d1, H1⟩, ⟨%d2, H2⟩, ⟨%d3, H3⟩⟩
        iapply (bodyRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexists _; iexact HS0
        iintro ⟨H0, H1, H2, H3, HS0⟩
        isplitl [HR HS0 Hg]
        · isplitl [HR HS0]
          · isplitl [HR]; · iexact HR
            iexact HS0
          iexact Hg
        isplitl [Ho]; · iexact Ho
        isplitl [H0]; · iexact H0
        isplitl [H1]; · iexact H1
        isplitl [H2]; · iexact H2
        iexists _; iexact H3
  · have hz : t.val ≠ 0 := fun e => h0 (by omega)
    by_cases h1 : t.val % 391 = 390
    · -- the last edge tile: update, then project
      rw [show (dat1 V c).leavesExact 3 t = owns (c : Thread nD τ) (ms1_3 t) fullShare ((dat1 V c).after 3 t) from by
        unfold Dat.leavesExact; rw [liveAt1_3 t ((hcond1_1 t).mpr h1)], after1_3]
      rw [scrAt1_next V c t h0]
      rw [PhiS1_castSucc V c t, PhiS1_pos V c _ _ hz]
      simp only [scoped1_eq]
      iintro ⟨⟨⟨HR, HS0⟩, Hg⟩, Ho, ⟨%d0, H0⟩, ⟨%d1, H1⟩, ⟨%d2, H2⟩, ⟨%d3, H3⟩⟩
      iapply (bodyRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      iexact H3
    · -- any other edge tile: update only
      rw [Dat.leavesExact_idle (dat1 V c) 3 t (idleAt1_3 t (fun h => h1 ((hcond1_1 t).mp h))) (noFlush1_3 t (fun h => h1 ((hcond1_1 t).mp h)))]
      rw [scrAt1_next V c t h0]
      rw [PhiS1_castSucc V c t, PhiS1_pos V c _ _ hz]
      simp only [scoped1_eq]
      iintro ⟨⟨⟨HR, HS0⟩, Hg⟩, Ho, ⟨%d0, H0⟩, ⟨%d1, H1⟩, ⟨%d2, H2⟩, ⟨%d3, H3⟩⟩
      iapply (bodyRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  simp only [scoped1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 39100 := N_1; omega)

end Cert.Kernel.Scatter

end
-- ==== Proof.K.Whole.lean ====
/-
  The whole program: @main as nine segments — six host stretches (three constants, three zero-paddings), the gather
  call, one host stretch (the weight matrix transposed), the scatter-and-project call — and what every unscoped
  buffer holds at each boundary. A host stretch changes the buffers by its operations' fold; a call changes only
  its output array, to what its pipeline's write-backs leave (the proof data's `arrAt` at the last point), and hands
  every other buffer back as it found it. So after the last segment every argument still holds its launch contents
  (no stretch and no call writes one) and the result buffer holds what the second call's write-backs leave.
-/
import proofs.«416147_j79207786873559_1_alg».proof.Proof.K.GatherBody
import proofs.«416147_j79207786873559_1_alg».proof.Proof.K.ScatterBody
import proofs.«416147_j79207786873559_1_alg».proof.Proof.Gen.Kernel.Regions
import Idealize.ShloMosaic.Lib.Pipeline.Frame
import Idealize.ShloMosaic.Lib.Pipeline.Regions
import Idealize.ShloMosaic.Lib.Pipeline.RegionsLoop

set_option maxRecDepth 16384

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers at each boundary from the gather call on -/

/-- The gather call's entry contents (after the six host stretches), read at the core's references. -/
abbrev E0 : (c : Dev nD) → (b : Ref sig .tc) → Buf (Elt F) ((c : Thread nD τ).loc b) := fun c b => V6 m c b

/-- At the gather call's exit: its arrays at what the pipeline leaves, every other buffer as entered. -/
def X1 (c : Dev nD) : Valuation τ sig (Elt F) :=
  Pipeline.withArrays spec0 c (V6 m c) fun w => (Gather.dat0 (E0 m) c).arrAt w cfg0.N
theorem X1_arr (c : Dev nD) (w : Fin cfg0.W) :
    X1 m c (Proc.devRef .tc (Pipeline.arrRef spec0 w)) = (Gather.dat0 (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = V6 m c (Proc.devRef .tc b) := by
  unfold X1; exact Pipeline.withArrays_of_ne spec0 c _ _ b hb
abbrev E1 : (c : Dev nD) → (b : Ref sig .tc) → Buf (Elt F) ((c : Thread nD τ).loc b) := fun c b => X1 m c b
theorem hF0 (c : Dev nD) (w : Fin cfg0.W) : (Gather.dat0 (E0 m) c).arrAt w cfg0.N = E1 m c (Pipeline.arrRef spec0 w) :=
  (X1_arr m c w).symm
theorem hrest0 (c : Dev nD) : ∀ b, b ∉ Finset.univ.image (Pipeline.arrRef spec0) → E1 m c b = E0 m c b :=
  fun b hb => X1_of_ne m c b fun w e => hb (Finset.mem_image.mpr ⟨w, Finset.mem_univ _, e⟩)

/-- After the transposition (the scatter call's entry). -/
abbrev X2 : Dev nD → Valuation τ sig (Elt F) := fun c => StableHlo.after hostOps1 (X1 m c)
abbrev E2 : (c : Dev nD) → (b : Ref sig .tc) → Buf (Elt F) ((c : Thread nD τ).loc b) := fun c b => X2 m c b

/-- At the scatter call's exit: its arrays at what the pipeline leaves, every other buffer as entered. -/
def X3 (c : Dev nD) : Valuation τ sig (Elt F) :=
  Pipeline.withArrays spec1 c (X2 m c) fun w => (Scatter.dat1 (E2 m) c).arrAt w cfg1.N
theorem X3_arr (c : Dev nD) (w : Fin cfg1.W) :
    X3 m c (Proc.devRef .tc (Pipeline.arrRef spec1 w)) = (Scatter.dat1 (E2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
abbrev E3 : (c : Dev nD) → (b : Ref sig .tc) → Buf (Elt F) ((c : Thread nD τ).loc b) := fun c b => X3 m c b
theorem hF1 (c : Dev nD) (w : Fin cfg1.W) : (Scatter.dat1 (E2 m) c).arrAt w cfg1.N = E3 m c (Pipeline.arrRef spec1 w) :=
  (X3_arr m c w).symm
theorem hrest1 (c : Dev nD) : ∀ b, b ∉ Finset.univ.image (Pipeline.arrRef spec1) → E3 m c b = E2 m c b :=
  fun b hb => X3_of_ne m c b fun w e => hb (Finset.mem_image.mpr ⟨w, Finset.mem_univ _, e⟩)

/-! ## No segment writes an argument -/

/-- An argument the gather call does not stage reaches the gather call's exit as launched. -/
theorem X1_arg (c : Dev nD) (r : Ref sig .tc) (hne : ∀ w, Pipeline.arrRef spec0 w ≠ r)
    (h5 : r ∉ hostOps0_5_W) (h4 : r ∉ hostOps0_4_W) (h3 : r ∉ hostOps0_3_W) (h2 : r ∉ hostOps0_2_W) (h1 : r ∉ hostOps0_1_W) (h0 : r ∉ hostOps0_W) :
    X1 m c (Proc.devRef .tc r) = m ((c : Thread nD τ).loc r) :=
  (X1_of_ne m c r hne).trans <| (V6_of m c r h5).trans <| (V5_of m c r h4).trans <| (V4_of m c r h3).trans <| (V3_of m c r h2).trans <| (V2_of m c r h1).trans <| (V1_of m c r h0).trans rfl

/-- The node table is staged by the gather call as an input and comes back as entered. -/
theorem X1_main_arg0 (c : Dev nD) : X1 m c (Proc.devRef .tc main_arg0) = m ((c : Thread nD τ).loc main_arg0) :=
  (X1_arr m c 2).trans <| ((Gather.dat0 (E0 m) c).arrAt_in 2 rfl _).trans <| (Gather.A_eq0 (E0 m) c 2).trans <|
    (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

/-- From the gather call's exit to the end nothing writes a buffer that is neither the transposed matrix nor an array
    of the scatter call. -/
theorem X3_of_X1 (c : Dev nD) (r : Ref sig .tc) (hne : ∀ w, Pipeline.arrRef spec1 w ≠ r) (h : r ∉ hostOps1_W) :
    X3 m c (Proc.devRef .tc r) = X1 m c (Proc.devRef .tc r) :=
  (X3_of_ne m c r hne).trans (StableHlo.after_of_writes_sub hostOps1 _ hostOps1_writes h)

theorem X3_main_arg0 (c : Dev nD) : X3 m c (Proc.devRef .tc main_arg0) = m ((c : Thread nD τ).loc main_arg0) :=
  (X3_of_X1 m c main_arg0 (by decide) (by decide)).trans (X1_main_arg0 m c)
theorem X3_main_arg1 (c : Dev nD) : X3 m c (Proc.devRef .tc main_arg1) = m ((c : Thread nD τ).loc main_arg1) :=
  (X3_of_X1 m c main_arg1 (by decide) (by decide)).trans (X1_arg m c main_arg1 (by decide) (by decide) (by decide) (by decide) (by decide) (by decide) (by decide))
theorem X3_main_arg2 (c : Dev nD) : X3 m c (Proc.devRef .tc main_arg2) = m ((c : Thread nD τ).loc main_arg2) :=
  (X3_of_X1 m c main_arg2 (by decide) (by decide)).trans (X1_arg m c main_arg2 (by decide) (by decide) (by decide) (by decide) (by decide) (by decide) (by decide))
theorem X3_main_arg3 (c : Dev nD) : X3 m c (Proc.devRef .tc main_arg3) = m ((c : Thread nD τ).loc main_arg3) :=
  (X3_of_X1 m c main_arg3 (by decide) (by decide)).trans (X1_arg m c main_arg3 (by decide) (by decide) (by decide) (by decide) (by decide) (by decide) (by decide))
theorem X3_main_arg4 (c : Dev nD) : X3 m c (Proc.devRef .tc main_arg4) = m ((c : Thread nD τ).loc main_arg4) :=
  (X3_of_X1 m c main_arg4 (by decide) (by decide)).trans (X1_arg m c main_arg4 (by decide) (by decide) (by decide) (by decide) (by decide) (by decide) (by decide))

/-- The result buffer ends at what the scatter call's write-backs leave. -/
theorem X3_main_v5 (c : Dev nD) : X3 m c (Proc.devRef .tc main_v5) = (Scatter.dat1 (E2 m) c).arrAt 3 cfg1.N :=
  X3_arr m c 3

/-! ## The proof data family and the thread state -/

/-- Both pipelines' proof data, each at its call's entry contents. -/
def pdats : (p : Fin 2) → (c : Dev nD) → Dat τ (Elt F) Unit ℕ (UR sig nD τ) ℕ (cfgs p) c
  | ⟨0, _⟩ => fun c => Gather.dat0 (E0 m) c
  | ⟨1, _⟩ => fun c => Scatter.dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R (F := F) c

/-- The transposition as a segment, from the gather call's exit contents. -/
abbrev segT : HostSeg (Name := ℕ) (U := UR sig nD τ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X1 m) (R (F := F))

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owing: every unscoped buffer at the last boundary's contents. -/
abbrev Tₙ (c : Dev nD) : sProp 𝕄 := iprop(StableHlo.held (c : Thread nD τ) (Pipeline.ucRefs τ sig) (X3 m c) ∗ ∃ r, prngReg c r)

/-! ## The calls as segments -/

set_option backward.isDefEq.respectTransparency.types false in
/-- The gather call over the thread state: entered from every unscoped buffer after the host stretches, left with
    its arrays at the pipeline's final contents. Its arrays are split out of the unscoped buffers and put back at the
    exit contents; the generator register goes into the invariant and comes out; nothing is owed; the kernel has no
    semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gather.body_obligation0 (E0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gather.hin0 (E0 m) c)
    unfold Pipeline.ΦA
    iintro ⟨Hp, -, Hr⟩
    isplitl [Hr]; · iexact Hr
    iexact Hp
  hout c := by
    rw [Pipeline.ownSems0_none]
    refine BIBase.Entails.trans (Gather.hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter-and-project call over the thread state: entered from every unscoped buffer after the transposition,
    left with its arrays at the pipeline's final contents, which is what the launch reads at the end. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scatter.body_obligation1 (E2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Scatter.hin1 (E2 m) c)
    unfold Pipeline.ΦA
    iintro ⟨Hp, -, Hr⟩
    isplitl [Hr]; · iexact Hr
    iexact Hp
  hout c := by
    rw [Pipeline.ownSems0_none]
    refine BIBase.Entails.trans (Scatter.hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order. -/
abbrev segsW (_ : Dev nD) : List (Seg (pcfgs (F := F)) adm (pdats m) () defs₀ 𝒱₀ L lv) :=
  [ .host (seg0 m 𝒱₀ L lv ER), .host (seg1 m 𝒱₀ L lv ER), .host (seg2 m 𝒱₀ L lv ER), .host (seg3 m 𝒱₀ L lv ER),
    .host (seg4 m 𝒱₀ L lv ER), .host (seg5 m 𝒱₀ L lv ER), .region (reg0 m), .host (segT m), .region (reg1 m) ]

set_option backward.isDefEq.respectTransparency.types false in
/-- THE RUN. At the compiled mesh, at any instance, from any memory with zero counters: every weakly fair execution
    of @main terminates, nothing faulting, and every final memory holds every unscoped buffer at the last boundary's
    contents. -/
theorem run_whole (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = X3 m c b) :=
  Pipeline.θ_run_regions_kit_dev (pcfgs (F := F)) adm (pdats m) () cellOf_inj emb₁ defs₀ 𝒱₀ L lv m ρ main (segsW m)
    (fun c Q => by
      rewrite [main_chain c, Seg.run_eq_chain,
        show (segsW m c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()) ] from rfl]
      exact .rfl)
    (fun c => by simp only [segsW, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun _ h => h)

/-- THE FRAME AND THE RESULT: the run's post read at the five arguments and at the result buffer. -/
theorem run_result (ρ : Dev nD → PrngReg) :
    θ_run defs (onTc (τ := τ) (main (F := F))) ⟨m, fun _ => 0, ρ⟩ (fun r => ∀ c : Dev nD,
      r.2.mem ((c.tc : Thread nD τ).loc main_v5) = (Scatter.dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (X3_main_v5 m c),
     (h c _ (mem_uc main_arg0 (by decide))).trans (X3_main_arg0 m c),
     (h c _ (mem_uc main_arg1 (by decide))).trans (X3_main_arg1 m c),
     (h c _ (mem_uc main_arg2 (by decide))).trans (X3_main_arg2 m c),
     (h c _ (mem_uc main_arg3 (by decide))).trans (X3_main_arg3 m c),
     (h c _ (mem_uc main_arg4 (by decide))).trans (X3_main_arg4 m c)⟩) (run_whole m ρ)

/-- The frame alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Whole

end
-- ==== Proof.KI.GatherData.lean ====
/-
  The gather call: what its scratch accumulator and its windows hold, point by point.

  The grid has 391 edge tiles by 100 node tiles, the node tile running fastest: point `t` is edge tile `t / 100` and
  node tile `t % 100`. The body adds, into a scratch accumulator of one edge tile's 4096 rows, the rows the one-hot of
  the tile's source indices picks out of the current 1000-row node tile, each scaled by its edge weight. The accumulator
  is cleared at node tile 0 and copied to the output block at node tile 99; in between it is carried from point to
  point. So the scratch after point `n` is the body's update of: zeros at the first node tile of an edge tile, and what
  point `n - 1` left otherwise. The three inputs are never written; the output block's buffer holds, after the body at
  the last node tile, the accumulator.
-/
import proofs.«416147_j79207786873559_1_alg».proof.Proof.Gen.KernelIdeal.Launch
import proofs.«416147_j79207786873559_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what every unscoped buffer of core `c` holds when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, a whole scoped buffer of the call's own. -/
abbrev scM0 : Memref sig .tc .vmem S4096x128 .f32 := Memref.whole cc0_scratch0

/-- The accumulator after the body at point `n`: the body's update (`k0_pay2`: the carried value plus the gathered
    rows times the weights) of zeros (`k0_pay1`) where the node tile is the first, and of what the point before left
    elsewhere. -/
def scrAt0 (c : Dev nD) : (n : ℕ) → n < cfg0.N → Vec F S4096x128 .f32
  | 0, hn => k0_pay2 (grid0.coords ⟨0, hn⟩) (iblk0 V c 0 ⟨0, hn⟩) (iblk0 V c 2 ⟨0, hn⟩) (k0_pay1 (F := F)) (iblk0 V c 1 ⟨0, hn⟩)
  | n + 1, hn =>
    if (n + 1) % 100 = 0 then
      k0_pay2 (grid0.coords ⟨n + 1, hn⟩) (iblk0 V c 0 ⟨n + 1, hn⟩) (iblk0 V c 2 ⟨n + 1, hn⟩) (k0_pay1 (F := F)) (iblk0 V c 1 ⟨n + 1, hn⟩)
    else
      k0_pay2 (grid0.coords ⟨n + 1, hn⟩) (iblk0 V c 0 ⟨n + 1, hn⟩) (iblk0 V c 2 ⟨n + 1, hn⟩) (scrAt0 c n (Nat.lt_of_succ_lt hn)) (iblk0 V c 1 ⟨n + 1, hn⟩)

/-- The scoped buffers that belong to the other call, each whole at some contents: they ride through this call
    untouched. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The call's invariant before position `n`: before the first point every scoped buffer that is no staging buffer
    of the call is held at some contents, beside the generator register; afterwards the accumulator is held at
    what the point before left in it. -/
def PhiS0 (c : Dev nD) : (n : ℕ) → n ≤ cfg0.N → sProp 𝕄
  | 0, _ => Pipeline.ΦA spec0 c
  | n + 1, hn => iprop(iprop(owns (c : Thread nD τ) scM0 fullShare (scrAt0 V c n hn) ∗ otherScoped0 (F := F) c) ∗ (∃ r, prngReg c r))

/-- The proof data of the call on core `c`: the arrays as the call finds them; after the body each input's buffer
    at its block and the output's at the accumulator (read only where the block is written back: the last node tile);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => scrAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = scrAt0 V c t.val t.isLt := by dsimp only [dat0]

/-- The accumulator after a point whose node tile is the first: the update of zeros. -/
theorem scrAt0_first (c : Dev nD) (t : Fin cfg0.N) (h : t.val % 100 = 0) :
    scrAt0 V c t.val t.isLt = k0_pay2 (grid0.coords t) (iblk0 V c 0 t) (iblk0 V c 2 t) (k0_pay1 (F := F)) (iblk0 V c 1 t) := by
  obtain ⟨n, hn⟩ := t
  cases n with
  | zero => rfl
  | succ n => exact if_pos h

/-- The accumulator after any other point: the update of what the point before left. -/
theorem scrAt0_next (c : Dev nD) (t : Fin cfg0.N) (h : ¬t.val % 100 = 0) :
    scrAt0 V c t.val t.isLt = k0_pay2 (grid0.coords t) (iblk0 V c 0 t) (iblk0 V c 2 t)
      (scrAt0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

end Cert.KernelIdeal.Gather

end
-- ==== Proof.KI.GatherSchedule.lean ====
/-
  The gather call's schedule in closed form.

  Point `t` of the 391 × 100 grid has slow coordinate `t / 100` and fast coordinate `t % 100`. The body clears its
  accumulator where the fast coordinate is 0 and stores the output block where it is 99; the output block's index
  is the slow coordinate, so the pipeline writes the block back exactly at the points whose fast coordinate is 99
  (the next point has another slow coordinate, or there is no next point). Each condition is a comparison of one
  coordinate's word with a literal, decided over that coordinate's 100 values; nothing here ranges over the whole grid.
-/
import proofs.«416147_j79207786873559_1_alg».proof.Proof.KI.GatherData

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The fast coordinate of point `t`. -/
theorem coords0_1 (t : Fin cfg0.N) : (grid0.coords t 1).val = t.val % 100 := by
  show t.val / grid0.stride 1 % 100 = _
  rw [show grid0.stride 1 = 1 from by decide, Nat.div_one]

/-- The slow coordinate of point `t`. -/
theorem coords0_0 (t : Fin cfg0.N) : (grid0.coords t 0).val = t.val / 100 := by
  show t.val / grid0.stride 0 % 391 = _
  rw [show grid0.stride 0 = 100 from by decide]
  have hN : cfg0.N = 39100 := N_0
  have := t.isLt
  exact Nat.mod_eq_of_lt (by omega)

/-- The condition of the body's first `scf.if` (clear the accumulator), from the grid coordinates. -/
abbrev cond0_0 (i : grid0.Coords) : Prop :=
  (Scalar.cmpi .ne (Scalar.extui (Scalar.cmpi .eq (BitVec.ofNat 32 (i 1).val) 0#32)) 0#32) = 1#1
/-- The condition of its second (store the output block). -/
abbrev cond0_1 (i : grid0.Coords) : Prop := k0_cond2 i = 1#1

theorem cond0_0_iff (i : grid0.Coords) : cond0_0 i ↔ (i 1).val = 0 :=
  (by decide +kernel : ∀ n : Fin 100, ((Scalar.cmpi .ne (Scalar.extui (Scalar.cmpi .eq (BitVec.ofNat 32 n.val) 0#32)) 0#32) = 1#1) ↔ n.val = 0) (i 1)

theorem cond0_1_iff (i : grid0.Coords) : cond0_1 i ↔ (i 1).val = 99 :=
  (by decide +kernel : ∀ n : Fin 100, ((Scalar.cmpi .ne (Scalar.extui (Scalar.cmpi .eq (BitVec.ofNat 32 n.val) 99#32)) 0#32) = 1#1) ↔ n.val = 99) (i 1)

/-- The accumulator is cleared at the points whose fast coordinate is 0. -/
theorem hcond0_0 (t : Fin cfg0.N) : cond0_0 (grid0.coords t) ↔ t.val % 100 = 0 :=
  (cond0_0_iff _).trans (by rw [coords0_1])
/-- The output block is stored at the points whose fast coordinate is 99. -/
theorem hcond0_1 (t : Fin cfg0.N) : cond0_1 (grid0.coords t) ↔ t.val % 100 = 99 :=
  (cond0_1_iff _).trans (by rw [coords0_1])

/-- The output window's block index at point `t`: the slow coordinate, then 0. -/
theorem index0_3 (t : Fin cfg0.N) : (cfg0.win 3).index t = ![t.val / 100, 0] := by
  have hN : cfg0.N = 39100 := N_0
  have ht := t.isLt
  have e0 : (BitVec.ofNat 32 (grid0.coords t 0).val).toNat = t.val / 100 := by
    rw [BitVec.toNat_ofNat, coords0_0]
    exact Nat.mod_eq_of_lt (by omega)
  show ![(BitVec.ofNat 32 (grid0.coords t 0).val).toNat, (0#32).toNat] = _
  rw [e0]
  rfl

/-- The pipeline writes the output block back exactly at the points whose fast coordinate is 99. -/
theorem flushIff0 (t : Fin cfg0.N) : (cfg0.win 3).flush t = true ↔ t.val % 100 = 99 := by
  have hN : grid0.N = 39100 := N_0
  have ht : t.val < grid0.N := t.isLt
  refine ((cfg0.win 3).flush_out rfl t).trans ⟨?_, fun h => ?_⟩
  · rintro (h | ⟨h, hne⟩)
    · have h' : t.val + 1 = grid0.N := h
      omega
    · by_contra hc
      apply hne
      rw [index0_3, index0_3]
      have e : (t.val + 1) / 100 = t.val / 100 := by omega
      show ![(t.val + 1) / 100, 0] = ![t.val / 100, 0]
      rw [e]
  · by_cases hl : t.val + 1 = grid0.N
    · exact .inl hl
    · have hlt : t.val + 1 < grid0.N := by omega
      refine .inr ⟨hlt, ?_⟩
      rw [index0_3, index0_3]
      intro he
      have e : (t.val + 1) / 100 = t.val / 100 := congrFun he 0
      omega

/-- The inputs are never idle; the output is idle exactly where the body does not store it. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem idleAt0_3 (t : Fin cfg0.N) (h : ¬cond0_1 (grid0.coords t)) : cfg0.idle 3 (grid0.coords t) = true := by
  show (!(k0_cond2 (grid0.coords t) == 1#1)) = true
  rw [Bool.not_eq_true', beq_eq_false_iff_ne]
  exact h
theorem liveAt0_3 (t : Fin cfg0.N) (h : cond0_1 (grid0.coords t)) : cfg0.idle 3 (grid0.coords t) = false := by
  show (!(k0_cond2 (grid0.coords t) == 1#1)) = false
  rw [Bool.not_eq_false', beq_iff_eq]
  exact h
/-- Where the body does not store the output block the pipeline does not write it back. -/
theorem noFlush0_3 (t : Fin cfg0.N) (h : ¬cond0_1 (grid0.coords t)) : (cfg0.win 3).flush t = false := by
  have := (flushIff0 t).not.mpr (fun h' => h ((hcond0_1 t).mpr h'))
  simpa using this

/-- Each window's current staging memref at point `t`, as the pipeline passes it to the body, and its wholeness. -/
abbrev ms0_0 (t : Fin cfg0.N) : Memref sig .tc .vmem S4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)

/-- The kernel body at point `t`, on what the pipeline calls it with. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) (ms0_3 t) (hs0_3 t) scM0 (Memref.isWhole_whole _)

end Cert.KernelIdeal.Gather

end
-- ==== Proof.KI.GatherRunA.lean ====
/-
  The gather body at a point whose node tile is the first (and not the last).

  The first conditional is taken, the second is not: the body clears the accumulator, then adds to the cleared
  accumulator the rows the one-hot of the source indices picks out of the node tile, scaled by the edge weights. On
  whole staging memrefs holding the three input blocks, whatever the accumulator held, it ends with the inputs as they
  were, the output block's buffer untouched, and the accumulator at the update of zeros.
-/
import proofs.«416147_j79207786873559_1_alg».proof.Proof.KI.GatherSchedule
import Idealize.ShloMosaic.Lib.Pipeline.Value

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-block access of rank 2, however spelt, are zero. -/
theorem hz2 : (![0, 0] : Fin 2 → Nat) = fun _ => 0 := by
  funext a; fin_cases a <;> rfl

/-- The offsets of a whole-block access of rank 1 are zero. -/
theorem hz1 : (![0] : Fin 1 → Nat) = fun _ => 0 := by
  funext a; fin_cases a; rfl

set_option maxHeartbeats 1000000 in
/-- The body where the accumulator is cleared and the output block is not stored: from the inputs' buffers at
    `x0`, `x1`, `x2`, the output's at `xi` and the accumulator's at anything, to the same with the accumulator at the
    update of zeros. -/
theorem run0_A (c : Dev nD) (i : grid0.Coords)
    (arg2 : Memref sig .tc .vmem S4096 .i32) (harg2 : arg2.IsWhole) (arg3 : Memref sig .tc .vmem S4096 .f32) (harg3 : arg3.IsWhole)
    (arg4 : Memref sig .tc .vmem S1000x128 .f32) (harg4 : arg4.IsWhole) (arg5 : Memref sig .tc .vmem S4096x128 .f32) (harg5 : arg5.IsWhole)
    (arg6 : Memref sig .tc .vmem S4096x128 .f32) (harg6 : arg6.IsWhole)
    (hc0 : cond0_0 i) (hc1 : ¬cond0_1 i)
    (x0 : Vec F S4096 .i32) (x1 : Vec F S4096 .f32) (x2 : Vec F S1000x128 .f32) (xi : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi
            ∗ owns (c : Thread nD τ) arg6 fullShare (k0_pay2 i x0 x2 (k0_pay1 (F := F)) x1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  sl_unfold_words
  rw [View.read_writes_eq_canon _ _ _ (fun y => ⟨_, List.mem_cons_self, View.mem_set_unit_zero hz2 Facts₀.inb_S4096x128_S4096x128_0_0 y⟩), View.canon_cons_unit_zero (S := S4096x128) hz2,
    View.readCov_unit_zero (S := S4096x128) _ hz2]
  simp only [View.readAt_eq_ld, harg2.read_unread, harg3.read_unread, harg4.read_unread,
    View.ld_unit_zero (S := S4096) hz1, View.ld_unit_zero (S := S1000x128) hz2]

end Cert.KernelIdeal.Gather

end
-- ==== Proof.KI.GatherRunB.lean ====
/-
  The gather body at a point whose node tile is neither the first nor the last.

  Neither conditional is taken: the body adds to the accumulator the rows the one-hot of the source indices picks out
  of the node tile, scaled by the edge weights. On whole staging memrefs holding the three input blocks and the
  accumulator at what the point before left, it ends with the inputs as they were, the output block's buffer
  untouched, and the accumulator at the update of what it held.
-/
import proofs.«416147_j79207786873559_1_alg».proof.Proof.KI.GatherRunA

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where the accumulator is carried and the output block is not stored: from the inputs' buffers at `x0`, `x1`, `x2`, the output's at `xi` and the accumulator's at `xs`, to the same with the accumulator at the update of `xs`. -/
theorem run0_B (c : Dev nD) (i : grid0.Coords)
    (arg2 : Memref sig .tc .vmem S4096 .i32) (harg2 : arg2.IsWhole) (arg3 : Memref sig .tc .vmem S4096 .f32) (harg3 : arg3.IsWhole)
    (arg4 : Memref sig .tc .vmem S1000x128 .f32) (harg4 : arg4.IsWhole) (arg5 : Memref sig .tc .vmem S4096x128 .f32) (harg5 : arg5.IsWhole)
    (arg6 : Memref sig .tc .vmem S4096x128 .f32) (harg6 : arg6.IsWhole)
    (hc0 : ¬cond0_0 i) (hc1 : ¬cond0_1 i)
    (x0 : Vec F S4096 .i32) (x1 : Vec F S4096 .f32) (x2 : Vec F S1000x128 .f32) (xi : Vec F S4096x128 .f32) (xs : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi
            ∗ owns (c : Thread nD τ) arg6 fullShare (k0_pay2 i x0 x2 xs x1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  rw [View.read_writes_eq_canon _ _ _ (fun y => ⟨_, List.mem_singleton_self _, View.mem_set_unit_zero hz2 Facts₀.inb_S4096x128_S4096x128_0_0 y⟩), View.canon_unit_zero hz2]
  simp only [View.readAt_eq_ld, harg2.read_unread, harg3.read_unread, harg4.read_unread, harg6.read_unread,
    View.ld_unit_zero (S := S4096) hz1, View.ld_unit_zero (S := S1000x128) hz2, View.ld_unit_zero (S := S4096x128) hz2]

end Cert.KernelIdeal.Gather

end
-- ==== Proof.KI.GatherRunC.lean ====
/-
  The gather body at a point whose node tile is the last (and not the first).

  The second conditional is taken, the first is not: the body adds to the accumulator as at every point, then reads
  the accumulator back and stores it as the output block. On whole staging memrefs holding the three input blocks and
  the accumulator at what the point before left, whatever the output's buffer held, it ends with the inputs as they
  were and both the accumulator and the output's buffer at the update of what the accumulator held.
-/
import proofs.«416147_j79207786873559_1_alg».proof.Proof.KI.GatherRunB

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body where the accumulator is carried and the output block is stored: from the inputs' buffers at `x0`, `x1`, `x2`, the output's at anything and the accumulator's at `xs`, to the inputs as they were and both the accumulator and the output's buffer at the update of `xs`. -/
theorem run0_C (c : Dev nD) (i : grid0.Coords)
    (arg2 : Memref sig .tc .vmem S4096 .i32) (harg2 : arg2.IsWhole) (arg3 : Memref sig .tc .vmem S4096 .f32) (harg3 : arg3.IsWhole)
    (arg4 : Memref sig .tc .vmem S1000x128 .f32) (harg4 : arg4.IsWhole) (arg5 : Memref sig .tc .vmem S4096x128 .f32) (harg5 : arg5.IsWhole)
    (arg6 : Memref sig .tc .vmem S4096x128 .f32) (harg6 : arg6.IsWhole)
    (hc0 : ¬cond0_0 i) (hc1 : cond0_1 i)
    (x0 : Vec F S4096 .i32) (x1 : Vec F S4096 .f32) (x2 : Vec F S1000x128 .f32) (xs : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 i x0 x2 xs x1)
            ∗ owns (c : Thread nD τ) arg6 fullShare (k0_pay2 i x0 x2 xs x1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_singleton_self _, View.mem_set_unit_zero hz2 Facts₀.inb_S4096x128_S4096x128_0_0 y⟩), View.canon_unit_zero hz2,
      View.readCov_unit_zero (S := S4096x128) _ hz2]
    simp only [View.readAt_eq_ld, harg2.read_unread, harg3.read_unread, harg4.read_unread, harg6.read_unread,
      View.ld_unit_zero (S := S4096) hz1, View.ld_unit_zero (S := S1000x128) hz2, View.ld_unit_zero (S := S4096x128) hz2]
  iexists _; isplitr
  swap; · iexact HS
  ipureintro
  sl_unfold_words
  rw [View.read_writes_eq_canon _ _ _ (fun y => ⟨_, List.mem_singleton_self _, View.mem_set_unit_zero hz2 Facts₀.inb_S4096x128_S4096x128_0_0 y⟩), View.canon_unit_zero hz2]
  simp only [View.readAt_eq_ld, harg2.read_unread, harg3.read_unread, harg4.read_unread, harg6.read_unread,
    View.ld_unit_zero (S := S4096) hz1, View.ld_unit_zero (S := S1000x128) hz2, View.ld_unit_zero (S := S4096x128) hz2]

end Cert.KernelIdeal.Gather

end
-- ==== Proof.KI.GatherBody.lean ====
/-
  The gather call's body obligation.

  At every grid point the body, called with the invariant and each window's current staging buffer at what it then
  holds, runs to the invariant at the next position and each buffer at what the proof data says the body leaves. The
  three control cases of the body (clear then update; update; update then store the output block) are told apart by
  the point's node tile; the case where the accumulator is both cleared and stored does not occur, the node tile
  being 0 in the one and 99 in the other.
-/
import proofs.«416147_j79207786873559_1_alg».proof.Proof.KI.GatherRunC

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- What every unscoped buffer of core `c` holds when the call is entered.
variable (V : (c : Dev nD) → (b : Ref sig .tc) → Buf (Elt F) ((c : Thread nD τ).loc b))

/-! ## The invariant, position by position -/

/-- What the launch hands the call: the accumulator and the other call's scoped buffers at some contents each, and
    the generator register at some state. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; rfl

/-- Before the first point the invariant is what the launch hands the call. -/
theorem PhiS0_zero (c : Dev nD) (n : ℕ) (h : n ≤ cfg0.N) (hz : n = 0) : PhiS0 V c n h = Pipeline.ΦA spec0 c := by
  subst hz; rfl

/-- After point `n`: the accumulator at what that point left. -/
theorem PhiS0_succ (c : Dev nD) (n : ℕ) (hn : n < cfg0.N) :
    PhiS0 V c (n + 1) hn = iprop(iprop(owns (c : Thread nD τ) scM0 fullShare (scrAt0 V c n hn) ∗ otherScoped0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (scrAt0 V c (n - 1) (by omega)) ∗ otherScoped0 (F := F) c) ∗ (∃ r, prngReg c r)) := by
  cases n with
  | zero => exact absurd rfl hz
  | succ n => rfl

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The inputs' buffers hold their blocks at every point -/

/-- Window 0's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Window 1's likewise. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Window 2's likewise. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- The inputs are never idle: after the body each one's buffer holds its block still. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

/-! ## The body obligation, at a generic point -/

/-- What the body is called with at point `t`: the invariant, what the core owes, and each window's current buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it returns: the invariant at the next position, the same owed, and each window's buffer at what the body
    leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's node tile says which control case it
    is in. At the first node tile the accumulator is cleared, so what it held does not matter (at the very first
    point it is at anything; later at what the edge tile before left) and it ends at the update of zeros; elsewhere
    it enters at what the point before left and ends at the update of that. The output's buffer is stored only at the
    last node tile, where it ends at the accumulator; elsewhere it is handed back as found, and the pipeline does not
    write it back there. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 39100 := lt_of_lt_of_eq t.isLt (show cfg0.N = 39100 from N_0)
  by_cases h0 : t.val % 100 = 0
  · by_cases h1 : t.val % 100 = 99
    · exfalso; omega
    · rw [Dat.leavesExact_idle (dat0 V c) 3 t (idleAt0_3 t (fun h => h1 ((hcond0_1 t).mp h))) (noFlush0_3 t (fun h => h1 ((hcond0_1 t).mp h)))]
      rw [scrAt0_first V c t h0]
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h)) (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h)) (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
  · have hz : t.val ≠ 0 := by omega
    by_cases h1 : t.val % 100 = 99
    · rw [show (dat0 V c).leavesExact 3 t = owns (c : Thread nD τ) (ms0_3 t) fullShare ((dat0 V c).after 3 t) from by
        unfold Dat.leavesExact; rw [liveAt0_3 t ((hcond0_1 t).mpr h1)], after0_3]
      rw [scrAt0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1) (iblk0 V c 0 t) (iblk0 V c 1 t) (iblk0 V c 2 t) (scrAt0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      rw [scrAt0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h)) (iblk0 V c 0 t) (iblk0 V c 1 t) (iblk0 V c 2 t) _ (scrAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The body obligation, at every point: the windows conjoined one by one, it is `sound_body0`. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed the call: the accumulator's named contents
    are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 39100 := N_0; omega), PhiA0_eq]
  iintro ⟨⟨HS, Hr⟩, Hg⟩
  isplitl [HS Hr]
  · isplitl [HS]
    · iexists _; iexact HS
    iexact Hr
  iexact Hg

end Cert.KernelIdeal.Gather

end
-- ==== Proof.KI.ScatterData.lean ====
/-
  The scatter-and-project call: what its scratch accumulator and its windows hold, point by point.

  The grid has 100 node tiles by 391 edge tiles, the edge tile running fastest: point `t` is node tile `t / 391` and
  edge tile `t % 391`. The body adds, into a scratch accumulator of one node tile's 1000 rows, for every row the sum of
  the message rows of the current 4096-edge tile whose destination index is that row (a one-hot of node against
  destination, times the message tile). The accumulator is cleared at edge tile 0 and carried from point to point;
  at edge tile 390 the output block receives the accumulator times the transposed weight matrix. The three inputs
  are never written.
-/
import proofs.«416147_j79207786873559_1_alg».proof.Proof.Gen.KernelIdeal.Launch
import proofs.«416147_j79207786873559_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what every unscoped buffer of core `c` holds when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the call's own. -/
abbrev scM1 : Memref sig .tc .vmem S1000x128 .f32 := Memref.whole cc1_scratch0

/-- The accumulator after the body at point `n`: the body's update (`k1_pay2`: the carried value plus the one-hot of
    node against destination times the message tile) of zeros (`k1_pay1`) where the edge tile is the first, and of what
    the point before left elsewhere. -/
def scrAt1 (c : Dev nD) : (n : ℕ) → n < cfg1.N → Vec F S1000x128 .f32
  | 0, hn => k1_pay2 (grid1.coords ⟨0, hn⟩) (iblk1 V c 0 ⟨0, hn⟩) (iblk1 V c 1 ⟨0, hn⟩) (k1_pay1 (F := F))
  | n + 1, hn =>
    if (n + 1) % 391 = 0 then
      k1_pay2 (grid1.coords ⟨n + 1, hn⟩) (iblk1 V c 0 ⟨n + 1, hn⟩) (iblk1 V c 1 ⟨n + 1, hn⟩) (k1_pay1 (F := F))
    else
      k1_pay2 (grid1.coords ⟨n + 1, hn⟩) (iblk1 V c 0 ⟨n + 1, hn⟩) (iblk1 V c 1 ⟨n + 1, hn⟩) (scrAt1 c n (Nat.lt_of_succ_lt hn))

/-- The scoped buffers that are no staging buffer of this call, in the order the launch lists them: those of the other
    call, each whole at some contents (they ride through untouched), and last this call's accumulator, held as `last`
    says. -/
def scoped1 (c : Dev nD) (last : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ last)

/-- The call's invariant before position `n`: before the first point every scoped buffer that is no staging buffer
    of the call is held at some contents, beside the generator register; afterwards the accumulator is held at
    what the point before left in it. -/
def PhiS1 (c : Dev nD) : (n : ℕ) → n ≤ cfg1.N → sProp 𝕄
  | 0, _ => Pipeline.ΦA spec1 c
  | n + 1, hn => iprop(scoped1 (F := F) c (owns (c : Thread nD τ) scM1 fullShare (scrAt1 V c n hn)) ∗ (∃ r, prngReg c r))

/-- The proof data of the call on core `c`: the arrays as the call finds them; after the body each input's buffer
    at its block and the output's at the accumulator times the transposed weights (read only where the block is
    written back: the last edge tile); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scrAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (scrAt1 V c t.val t.isLt) (iblk1 V c 2 t) := by dsimp only [dat1]

/-- The accumulator after a point whose edge tile is the first: the update of zeros. -/
theorem scrAt1_first (c : Dev nD) (t : Fin cfg1.N) (h : t.val % 391 = 0) :
    scrAt1 V c t.val t.isLt = k1_pay2 (grid1.coords t) (iblk1 V c 0 t) (iblk1 V c 1 t) (k1_pay1 (F := F)) := by
  obtain ⟨n, hn⟩ := t
  cases n with
  | zero => rfl
  | succ n => exact if_pos h

/-- The accumulator after any other point: the update of what the point before left. -/
theorem scrAt1_next (c : Dev nD) (t : Fin cfg1.N) (h : ¬t.val % 391 = 0) :
    scrAt1 V c t.val t.isLt = k1_pay2 (grid1.coords t) (iblk1 V c 0 t) (iblk1 V c 1 t)
      (scrAt1 V c (t.val - 1) (Nat.lt_of_le_of_lt (Nat.sub_le _ _) t.isLt)) := by
  obtain ⟨n, hn⟩ := t
  cases n with
  | zero => exact absurd (Nat.zero_mod _) h
  | succ n => exact if_neg h

end Cert.KernelIdeal.Scatter

end
-- ==== Proof.KI.ScatterSchedule.lean ====
/-
  The scatter-and-project call's schedule in closed form.

  Point `t` of the 100 × 391 grid has slow coordinate `t / 391` and fast coordinate `t % 391`. The body clears its
  accumulator where the fast coordinate is 0 and stores the output block where it is 390; the output block's index
  is the slow coordinate, so the pipeline writes the block back exactly at the points whose fast coordinate is 390
  (the next point has another slow coordinate, or there is no next point). Each condition is a comparison of one
  coordinate's word with a literal, decided over that coordinate's 391 values; nothing here ranges over the whole grid.
-/
import proofs.«416147_j79207786873559_1_alg».proof.Proof.KI.ScatterData

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The fast coordinate of point `t`. -/
theorem coords1_1 (t : Fin cfg1.N) : (grid1.coords t 1).val = t.val % 391 := by
  show t.val / grid1.stride 1 % 391 = _
  rw [show grid1.stride 1 = 1 from by decide, Nat.div_one]

/-- The slow coordinate of point `t`. -/
theorem coords1_0 (t : Fin cfg1.N) : (grid1.coords t 0).val = t.val / 391 := by
  show t.val / grid1.stride 0 % 100 = _
  rw [show grid1.stride 0 = 391 from by decide]
  have hN : cfg1.N = 39100 := N_1
  have := t.isLt
  exact Nat.mod_eq_of_lt (by omega)

/-- The condition of the body's first `scf.if` (clear the accumulator), from the grid coordinates. -/
abbrev cond1_0 (i : grid1.Coords) : Prop :=
  (Scalar.cmpi .ne (Scalar.extui (Scalar.cmpi .eq (BitVec.ofNat 32 (i 1).val) 0#32)) 0#32) = 1#1
/-- The condition of its second (store the output block). -/
abbrev cond1_1 (i : grid1.Coords) : Prop := k1_cond2 i = 1#1

theorem cond1_0_iff (i : grid1.Coords) : cond1_0 i ↔ (i 1).val = 0 :=
  (by decide +kernel : ∀ n : Fin 391, ((Scalar.cmpi .ne (Scalar.extui (Scalar.cmpi .eq (BitVec.ofNat 32 n.val) 0#32)) 0#32) = 1#1) ↔ n.val = 0) (i 1)

theorem cond1_1_iff (i : grid1.Coords) : cond1_1 i ↔ (i 1).val = 390 :=
  (by decide +kernel : ∀ n : Fin 391, ((Scalar.cmpi .ne (Scalar.extui (Scalar.cmpi .eq (BitVec.ofNat 32 n.val) 390#32)) 0#32) = 1#1) ↔ n.val = 390) (i 1)

/-- The accumulator is cleared at the points whose fast coordinate is 0. -/
theorem hcond1_0 (t : Fin cfg1.N) : cond1_0 (grid1.coords t) ↔ t.val % 391 = 0 :=
  (cond1_0_iff _).trans (by rw [coords1_1])
/-- The output block is stored at the points whose fast coordinate is 390. -/
theorem hcond1_1 (t : Fin cfg1.N) : cond1_1 (grid1.coords t) ↔ t.val % 391 = 390 :=
  (cond1_1_iff _).trans (by rw [coords1_1])

/-- The output window's block index at point `t`: the slow coordinate, then 0. -/
theorem index1_3 (t : Fin cfg1.N) : (cfg1.win 3).index t = ![t.val / 391, 0] := by
  show cc1_transform_3 (grid1.coords t) = _
  unfold cc1_transform_3
  dsimp only
  rw [coords1_0]
  have hN : cfg1.N = 39100 := N_1
  have ht := t.isLt
  have h : (BitVec.ofNat 32 (t.val / 391)).toNat = t.val / 391 := by
    rw [BitVec.toNat_ofNat]; exact Nat.mod_eq_of_lt (by omega)
  rw [h]; rfl

/-- The pipeline writes the output block back exactly at the points whose fast coordinate is 390. -/
theorem flushIff1 (t : Fin cfg1.N) : (cfg1.win 3).flush t = true ↔ t.val % 391 = 390 := by
  have hN : cfg1.N = 39100 := N_1
  have hG : grid1.N = 39100 := N_1
  have hG' : cfg1.grid.N = 39100 := N_1
  have ht := t.isLt
  -- the block index moves between `t` and `t + 1` exactly when the slow coordinate does
  have hmove : ∀ h : t.val + 1 < grid1.N,
      ((cfg1.win 3).index ⟨t.val + 1, h⟩ ≠ (cfg1.win 3).index t) ↔ (t.val + 1) / 391 ≠ t.val / 391 := by
    intro h
    have e1 : (cfg1.win 3).index ⟨t.val + 1, h⟩ = ![(t.val + 1) / 391, 0] := index1_3 ⟨t.val + 1, h⟩
    rw [e1, index1_3 t]
    constructor
    · intro hne heq; exact hne (by rw [heq])
    · intro hne heq; exact hne (by simpa using congrFun heq 0)
  unfold Window.flush
  rw [show (cfg1.win 3).isOut = true from rfl, Bool.true_and, Bool.or_eq_true, decide_eq_true_eq, decide_eq_true_eq]
  constructor
  · rintro (h | ⟨h, hne⟩)
    · omega
    · have := (hmove h).mp hne
      omega
  · intro h
    by_cases hl : t.val + 1 = grid1.N
    · exact .inl hl
    · have hlt : t.val + 1 < grid1.N := by omega
      exact .inr ⟨hlt, (hmove hlt).mpr (by omega)⟩

/-- The inputs are never idle; the output is idle exactly where the body does not store it. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem idleAt1_3 (t : Fin cfg1.N) (h : ¬cond1_1 (grid1.coords t)) : cfg1.idle 3 (grid1.coords t) = true := by
  have hb : (k1_cond2 (grid1.coords t) == 1#1) = false := by
    rw [beq_eq_false_iff_ne]; exact h
  show (!(k1_cond2 (grid1.coords t) == 1#1)) = true
  rw [hb]; rfl
theorem liveAt1_3 (t : Fin cfg1.N) (h : cond1_1 (grid1.coords t)) : cfg1.idle 3 (grid1.coords t) = false := by
  have hb : (k1_cond2 (grid1.coords t) == 1#1) = true := by
    rw [beq_iff_eq]; exact h
  show (!(k1_cond2 (grid1.coords t) == 1#1)) = false
  rw [hb]; rfl
/-- Where the body does not store the output block the pipeline does not write it back. -/
theorem noFlush1_3 (t : Fin cfg1.N) (h : ¬cond1_1 (grid1.coords t)) : (cfg1.win 3).flush t = false := by
  have := (flushIff1 t).not.mpr (fun h' => h ((hcond1_1 t).mpr h'))
  simpa using this

/-- Each window's current staging memref at point `t`, as the pipeline passes it to the body, and its wholeness. -/
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x128 .f32 := win1_3.stage (cfg1.slots t 3)
abbrev hs1_3 (t : Fin cfg1.N) : (ms1_3 t).IsWhole := hstage1_3 ((cfg1.slots t 3).cast nbuf1_3)

/-- The kernel body at point `t`, on what the pipeline calls it with. -/
abbrev bodyAt1 (t : Fin cfg1.N) : Prog (TpuEff nD τ sig (Elt F) Λ₀ .tc) PUnit :=
  cc1__scatter_linear_kernel (grid1.coords t) (ms1_0 t) (hs1_0 t) (ms1_1 t) (hs1_1 t) (ms1_2 t) (hs1_2 t) (ms1_3 t) (hs1_3 t) scM1 (Memref.isWhole_whole _)

end Cert.KernelIdeal.Scatter

end
-- ==== Proof.KI.ScatterRunA.lean ====
/-
  The scatter-and-project body at a point whose edge tile is the first (case A).

  There the body first stores zeros over its accumulator, then reads the destination indices and the message tile,
  reads the accumulator back (the zeros just stored), and stores the update: zeros plus the one-hot of node against
  destination times the message tile. It does not reach the projection (the edge tile is not the last), so the output's
  staging buffer and the weight tile are handed back as they were found. Whatever the accumulator held before is
  overwritten: the case asks nothing of it.

  The triple is found in two steps. First the body is run symbolically on whole staging memrefs; what it leaves in the
  accumulator comes out as a list of stores (last first), each a rectangle and a payload. Both stores cover the whole
  accumulator, so the list reads back as the last store's payload, and the accumulator read between the two stores is
  the first store's payload: the zeros.
-/
import proofs.«416147_j79207786873559_1_alg».proof.Proof.KI.ScatterSchedule
import Idealize.ShloMosaic.Lib.Pipeline.Value

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Offsets of a whole-buffer access, one axis and two: all zero. -/
theorem hz1 : (![0] : Fin 1 → Nat) = fun _ => 0 := funext fun a => by fin_cases a <;> rfl
theorem hz2 : (![0, 0] : Fin 2 → Nat) = fun _ => 0 := funext fun a => by fin_cases a <;> rfl

set_option maxHeartbeats 1000000 in
/-- The stores case A leaves in the accumulator (last first), with the body's triple over them: from the inputs'
    memrefs at `x0`, `x1`, `x2`, the output's at `xi3` and the accumulator's at anything, the body runs to a
    continuation that holds the first four as they were and the accumulator's buffer with those stores written. -/
noncomputable def kernelRun1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32) :
    { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_linear_kernel i arg2 harg2 arg3 harg3 arg4 harg4 arg5 harg5 arg6 harg6) K } := by
  refine ⟨?_, fun xi3 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case A's stores cover the accumulator (each is a store of the whole buffer). -/
theorem scover1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32) (y : S1000x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1000x128.size (by sl_kernel_rfl) y

/-- Read back, case A's stores are the update of zeros: `k1_pay2` of the point, the destination indices, the message
    tile and the zero block `k1_pay1`. -/
theorem scanon1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32) :
    View.canon (kernelRun1_A c i arg2 harg2 arg3 harg3 arg4 harg4 arg5 harg5 arg6 harg6 hc0 hc1 x0 x1 x2).1 = k1_pay2 i x0 x1 (k1_pay1 (F := F)) := by
  unfold kernelRun1_A
  dsimp only
  sl_unfold_words
  rw [View.canon_cons_unit_zero (S := S1000x128) hz2, View.readCov_unit_zero (S := S1000x128) _ hz2]
  simp only [View.readAt_eq_ld, harg2.read_unread, harg3.read_unread, View.ld_unit_zero (S := S4096) hz1,
    View.ld_unit_zero (S := S4096x128) hz2]

/-- THE BODY IN CASE A. On whole staging memrefs — the inputs' at `x0`, `x1`, `x2`, the output's at `xi3`, the
    accumulator's at anything — the body runs to a continuation that holds the inputs' and the output's as they were
    and the accumulator at the update of zeros. -/
theorem bodyRun1_A (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : cond1_0 i) (hc1 : ¬cond1_1 i)
    (x0 : Vec F S4096 .i32) (x1 : Vec F S4096x128 .f32) (x2 : Vec F S128x128 .f32)
    (xi3 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x1 (k1_pay1 (F := F)))) -∗ K ⟨⟩))
      ⊢ wp frame (wpE (defs₀ (F := F)) Variants.none c none) E (cc1__scatter_linear_kernel i arg2 harg2 arg3 harg3 arg4 harg4 arg5 harg5 arg6 harg6) K := by
  iintro ⟨H0, H1, H2, H3, HS0, Hk⟩
  iapply ((kernelRun1_A c i arg2 harg2 arg3 harg3 arg4 harg4 arg5 harg5 arg6 harg6 hc0 hc1 x0 x1 x2).2 xi3 E K)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  iapply Hk
  isplitl [H0]; · iexact H0
  isplitl [H1]; · iexact H1
  isplitl [H2]; · iexact H2
  isplitl [H3]; · iexact H3
  unfold owns; iexists _; isplitr
  swap; · iexact HS0
  ipureintro
  exact (View.read_writes_eq_canon _ _ _ (scover1_A c i arg2 harg2 arg3 harg3 arg4 harg4 arg5 harg5 arg6 harg6 hc0 hc1 x0 x1 x2)).trans
    (scanon1_A c i arg2 harg2 arg3 harg3 arg4 harg4 arg5 harg5 arg6 harg6 hc0 hc1 x0 x1 x2)

end Cert.KernelIdeal.Scatter

end
-- ==== Proof.KI.ScatterRunB.lean ====
/-
  The scatter-and-project body at a point whose edge tile is neither the first nor the last (case B).

  There the body reads the destination indices, the message tile and its accumulator, and stores the update: the
  carried accumulator plus the one-hot of node against destination times the message tile. Nothing is cleared and
  nothing is projected: the weight tile and the output's staging buffer are handed back as they were found.

  As in case A the body is run symbolically first; its one store covers the accumulator, so what it leaves reads back
  as that store's payload, whose loads read the whole buffers.
-/
import proofs.«416147_j79207786873559_1_alg».proof.Proof.KI.ScatterRunA

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The store case B leaves in the accumulator, with the body's triple over it: from the inputs' memrefs at `x0`,
    `x1`, `x2`, the output's at `xi3` and the accumulator's at `xs`, the body runs to a continuation that holds the
    first four as they were and the accumulator's buffer with that store written. -/
noncomputable def kernelRun1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32) :
    { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_linear_kernel i arg2 harg2 arg3 harg3 arg4 harg4 arg5 harg5 arg6 harg6) K } := by
  refine ⟨?_, fun xi3 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Case B's store covers the accumulator. -/
theorem scover1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32)
    (y : S1000x128.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S1000x128.size (by sl_kernel_rfl) y

/-- Read back, case B's store is the update of the carried accumulator: `k1_pay2` of the point, the destination
    indices, the message tile and `xs`. -/
theorem scanon1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32) :
    View.canon (kernelRun1_B c i arg2 harg2 arg3 harg3 arg4 harg4 arg5 harg5 arg6 harg6 hc0 hc1 x0 x1 x2 xs).1 = k1_pay2 i x0 x1 xs := by
  unfold kernelRun1_B
  dsimp only
  sl_unfold_words
  rw [View.canon_unit_zero (S := S1000x128) hz2]
  simp only [View.readAt_eq_ld, harg2.read_unread, harg3.read_unread, harg6.read_unread, View.ld_unit_zero (S := S4096) hz1,
    View.ld_unit_zero (S := S4096x128) hz2, View.ld_unit_zero (S := S1000x128) hz2]

/-- THE BODY IN CASE B. On whole staging memrefs — the inputs' at `x0`, `x1`, `x2`, the output's at `xi3`, the
    accumulator's at `xs` — the body runs to a continuation that holds the inputs' and the output's as they were and
    the accumulator at the update of `xs`. -/
theorem bodyRun1_B (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : ¬cond1_1 i)
    (x0 : Vec F S4096 .i32) (x1 : Vec F S4096x128 .f32) (x2 : Vec F S128x128 .f32) (xs : Vec F S1000x128 .f32)
    (xi3 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x1 xs)) -∗ K ⟨⟩))
      ⊢ wp frame (wpE (defs₀ (F := F)) Variants.none c none) E (cc1__scatter_linear_kernel i arg2 harg2 arg3 harg3 arg4 harg4 arg5 harg5 arg6 harg6) K := by
  iintro ⟨H0, H1, H2, H3, HS0, Hk⟩
  iapply ((kernelRun1_B c i arg2 harg2 arg3 harg3 arg4 harg4 arg5 harg5 arg6 harg6 hc0 hc1 x0 x1 x2 xs).2 xi3 E K)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  iapply Hk
  isplitl [H0]; · iexact H0
  isplitl [H1]; · iexact H1
  isplitl [H2]; · iexact H2
  isplitl [H3]; · iexact H3
  unfold owns; iexists _; isplitr
  swap; · iexact HS0
  ipureintro
  exact (View.read_writes_eq_canon _ _ _ (scover1_B c i arg2 harg2 arg3 harg3 arg4 harg4 arg5 harg5 arg6 harg6 hc0 hc1 x0 x1 x2 xs)).trans
    (scanon1_B c i arg2 harg2 arg3 harg3 arg4 harg4 arg5 harg5 arg6 harg6 hc0 hc1 x0 x1 x2 xs)

end Cert.KernelIdeal.Scatter

end
-- ==== Proof.KI.ScatterRunC.lean ====
/-
  The scatter-and-project body at a point whose edge tile is the last (case C).

  There the body updates its accumulator as in case B — the carried accumulator plus the one-hot of node against
  destination times the message tile — and then projects: it reads the accumulator back (the update just stored) and
  the weight tile, and stores their product (`k1_pay3`: accumulator times the transposed weights) over the output's
  staging buffer, whatever that held.

  The body is run symbolically first; it leaves one store in the accumulator and one in the output's buffer, each
  covering its buffer, so each reads back as its payload. The accumulator the projection reads is a load after the
  update's store: it reads that store's payload.
-/
import proofs.«416147_j79207786873559_1_alg».proof.Proof.KI.ScatterRunB

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores case C leaves in the output's staging buffer (`L3`) and in the accumulator (`LS0`), with the body's
    triple over them: from the inputs' memrefs at `x0`, `x1`, `x2`, the output's at anything and the accumulator's at
    `xs`, the body runs to a continuation that holds the inputs as they were and the two buffers with those stores
    written. -/
noncomputable def kernelRun1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32) :
    Σ' (L3 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_linear_kernel i arg2 harg2 arg3 harg3 arg4 harg4 arg5 harg5 arg6 harg6) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- Case C's store into the output's staging buffer covers it. -/
theorem cover1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32)
    (y : S1000x128.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1000x128.size (by sl_kernel_rfl) y

/-- Case C's store into the accumulator covers it. -/
theorem scover1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32)
    (y : S1000x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1000x128.size (by sl_kernel_rfl) y

/-- Read back, case C's store into the accumulator is the update of the carried accumulator. -/
theorem scanon1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32) :
    View.canon (kernelRun1_C c i arg2 harg2 arg3 harg3 arg4 harg4 arg5 harg5 arg6 harg6 hc0 hc1 x0 x1 x2 xs).2.1 = k1_pay2 i x0 x1 xs := by
  unfold kernelRun1_C
  dsimp only
  sl_unfold_words
  rw [View.canon_unit_zero (S := S1000x128) hz2]
  simp only [View.readAt_eq_ld, harg2.read_unread, harg3.read_unread, harg6.read_unread, View.ld_unit_zero (S := S4096) hz1,
    View.ld_unit_zero (S := S4096x128) hz2, View.ld_unit_zero (S := S1000x128) hz2]

/-- Read back, case C's store into the output's staging buffer is the projection of that update: `k1_pay3` of it and
    the weight tile. -/
theorem canon1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32) :
    View.canon (kernelRun1_C c i arg2 harg2 arg3 harg3 arg4 harg4 arg5 harg5 arg6 harg6 hc0 hc1 x0 x1 x2 xs).1 = k1_pay3 (k1_pay2 i x0 x1 xs) x2 := by
  unfold kernelRun1_C
  dsimp only
  sl_unfold_words
  rw [View.canon_unit_zero (S := S1000x128) hz2]
  simp only [View.readAt_eq_ld, harg2.read_unread, harg3.read_unread, harg4.read_unread, harg6.read_unread,
    View.readCov_unit_zero (S := S1000x128) _ hz2, View.ld_unit_zero (S := S4096) hz1,
    View.ld_unit_zero (S := S4096x128) hz2, View.ld_unit_zero (S := S1000x128) hz2, View.ld_unit_zero (S := S128x128) hz2]

/-- THE BODY IN CASE C. On whole staging memrefs — the inputs' at `x0`, `x1`, `x2`, the output's at anything, the
    accumulator's at `xs` — the body runs to a continuation that holds the inputs' as they were, the accumulator at the
    update of `xs`, and the output's buffer at that update times the transposed weights. -/
theorem bodyRun1_C (c : Dev nD) (i : grid1.Coords)
    (arg2 : Memref sig .tc .vmem S4096 .i32) (harg2 : arg2.IsWhole)
    (arg3 : Memref sig .tc .vmem S4096x128 .f32) (harg3 : arg3.IsWhole)
    (arg4 : Memref sig .tc .vmem S128x128 .f32) (harg4 : arg4.IsWhole)
    (arg5 : Memref sig .tc .vmem S1000x128 .f32) (harg5 : arg5.IsWhole)
    (arg6 : Memref sig .tc .vmem S1000x128 .f32) (harg6 : arg6.IsWhole)
    (hc0 : ¬cond1_0 i) (hc1 : cond1_1 i)
    (x0 : Vec F S4096 .i32) (x1 : Vec F S4096x128 .f32) (x2 : Vec F S128x128 .f32) (xs : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x0 x1 xs) x2)
            ∗ owns (c : Thread nD τ) arg6 fullShare (k1_pay2 i x0 x1 xs)) -∗ K ⟨⟩))
      ⊢ wp frame (wpE (defs₀ (F := F)) Variants.none c none) E (cc1__scatter_linear_kernel i arg2 harg2 arg3 harg3 arg4 harg4 arg5 harg5 arg6 harg6) K := by
  iintro ⟨H0, H1, H2, H3, HS0, Hk⟩
  iapply ((kernelRun1_C c i arg2 harg2 arg3 harg3 arg4 harg4 arg5 harg5 arg6 harg6 hc0 hc1 x0 x1 x2 xs).2.2 E K)
  isplitl [H0]; · iexact H0
  isplitl [H1]; · iexact H1
  isplitl [H2]; · iexact H2
  isplitl [H3]; · iexact H3
  isplitl [HS0]; · iexact HS0
  iintro ⟨H0, H1, H2, ⟨%e3, H3⟩, ⟨%es0, HS0⟩⟩
  iapply Hk
  isplitl [H0]; · iexact H0
  isplitl [H1]; · iexact H1
  isplitl [H2]; · iexact H2
  isplitl [H3]
  · unfold owns; iexists _; isplitr
    swap; · iexact H3
    ipureintro
    exact (View.read_writes_eq_canon _ _ _ (cover1_C c i arg2 harg2 arg3 harg3 arg4 harg4 arg5 harg5 arg6 harg6 hc0 hc1 x0 x1 x2 xs)).trans
      (canon1_C c i arg2 harg2 arg3 harg3 arg4 harg4 arg5 harg5 arg6 harg6 hc0 hc1 x0 x1 x2 xs)
  unfold owns; iexists _; isplitr
  swap; · iexact HS0
  ipureintro
  exact (View.read_writes_eq_canon _ _ _ (scover1_C c i arg2 harg2 arg3 harg3 arg4 harg4 arg5 harg5 arg6 harg6 hc0 hc1 x0 x1 x2 xs)).trans
    (scanon1_C c i arg2 harg2 arg3 harg3 arg4 harg4 arg5 harg5 arg6 harg6 hc0 hc1 x0 x1 x2 xs)

end Cert.KernelIdeal.Scatter

end
-- ==== Proof.KI.ScatterBody.lean ====
/-
  The scatter-and-project call: its body meets the pipeline's obligation at every point.

  At point `t` the pipeline hands the body the three inputs' staging buffers, each holding its block (an input's
  buffer holds its block whether or not it was fetched at this point: unfetched, the block index has not moved), the
  output's staging buffer, and the call's invariant: before the first point every scoped buffer that is no staging
  buffer of the call at some contents; afterwards the accumulator at what the point before left in it. The point's
  edge tile `t % 391` selects what the body does — clear then update (first edge tile), update only, or update then
  project (last edge tile; the first and the last edge tile are different, the grid having 391 of them) — and in
  each case the body's triple (the three case modules) gives back the inputs' buffers untouched, the accumulator at
  the point's update, and the output's buffer at the projection (last edge tile) or as it was found (elsewhere: there
  the window is idle and its block is not written back).
-/
import proofs.«416147_j79207786873559_1_alg».proof.Proof.KI.ScatterRunC

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what every unscoped buffer of core `c` holds when the call is entered
variable (V : (c : Dev nD) → (b : Ref sig .tc) → Buf (Elt F) ((c : Thread nD τ).loc b))

/-! ## The invariant, with the accumulator set apart -/

/-- The other call's scoped buffers, each whole at some contents: they ride through this call untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The scoped buffers that are no staging buffer of this call: the other call's, and the accumulator. -/
theorem scoped1_eq (c : Dev nD) (last : sProp 𝕄) : scoped1 (F := F) c last = iprop(others1 (F := F) c ∗ last) := by
  have h₁ : scoped1 (F := F) c last ⊢ iprop(others1 (F := F) c ∗ last) := by
    unfold scoped1 others1
    iintro ⟨R0, R1, R2, R3, R4, R5, R6, R7, R8, HL⟩
    isplitr [HL]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    · iexact HL
  have h₂ : iprop(others1 (F := F) c ∗ last) ⊢ scoped1 (F := F) c last := by
    unfold scoped1 others1
    iintro ⟨⟨R0, R1, R2, R3, R4, R5, R6, R7, R8⟩, HL⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HL
  exact BI.equiv_iff.mp ⟨h₁, h₂⟩

/-- What the launch hands the call, with the accumulator as a memref owned at some contents. -/
theorem PhiA1_eq (c : Dev nD) :
    (Pipeline.ΦA spec1 c : sProp 𝕄)
      = iprop(scoped1 (F := F) c iprop(∃ d, owns (c : Thread nD τ) scM1 fullShare d) ∗ (∃ r, prngReg c r)) := by
  unfold Pipeline.ΦA scoped1; rw [scopedRest1_eq]; simp only [scM1, owns_whole]; rfl

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn
      = iprop(scoped1 (F := F) c (owns (c : Thread nD τ) scM1 fullShare (scrAt1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(scoped1 (F := F) c (owns (c : Thread nD τ) scM1 fullShare
          (scrAt1 V c (n - 1) (Nat.lt_of_lt_of_le (Nat.sub_lt (Nat.pos_of_ne_zero hz) Nat.one_pos) h))) ∗ (∃ r, prngReg c r)) := by
  cases n with
  | zero => exact absurd rfl hz
  | succ n => rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The inputs' buffers hold their blocks -/

/-- Each input's current staging buffer holds its block at every point, fetched there or not: the body leaves the
    block in place, the window is never idle and never cut. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's edge tile says which case the point is
    in; the invariant hands the body the accumulator at what the point before left (at anything at the first point) and
    takes it back at this point's update; the output's buffer comes back at the projection where the edge tile is the
    last, and as it was found elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 39100 := lt_of_lt_of_eq t.isLt (show cfg1.N = 39100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 391 = 0
  · by_cases h1 : t.val % 391 = 390
    · exfalso; omega
    · -- the first edge tile: clear, then update
      rw [Dat.leavesExact_idle (dat1 V c) 3 t (idleAt1_3 t (fun h => h1 ((hcond1_1 t).mp h))) (noFlush1_3 t (fun h => h1 ((hcond1_1 t).mp h)))]
      rw [scrAt1_first V c t h0]
      by_cases hz : t.val = 0
      · rw [PhiS1_castSucc V c t, PhiS1_zero V c _ _ hz, PhiA1_eq]
        simp only [scoped1_eq]
        iintro ⟨⟨⟨HR, HS0⟩, Hg⟩, Ho, ⟨%d0, H0⟩, ⟨%d1, H1⟩, ⟨%d2, H2⟩, ⟨%d3, H3⟩⟩
        iapply (bodyRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HR HS0 Hg]
        · isplitl [HR HS0]
          · isplitl [HR]; · iexact HR
            iexact HS0
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        simp only [scoped1_eq]
        iintro ⟨⟨⟨HR, HS0⟩, Hg⟩, Ho, ⟨%d0, H0⟩, ⟨%d1, H1⟩, ⟨%d2, H2⟩, ⟨%d3, H3⟩⟩
        iapply (bodyRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexists _; iexact HS0
        iintro ⟨H0, H1, H2, H3, HS0⟩
        isplitl [HR HS0 Hg]
        · isplitl [HR HS0]
          · isplitl [HR]; · iexact HR
            iexact HS0
          iexact Hg
        isplitl [Ho]; · iexact Ho
        isplitl [H0]; · iexact H0
        isplitl [H1]; · iexact H1
        isplitl [H2]; · iexact H2
        iexists _; iexact H3
  · have hz : t.val ≠ 0 := fun e => h0 (by omega)
    by_cases h1 : t.val % 391 = 390
    · -- the last edge tile: update, then project
      rw [show (dat1 V c).leavesExact 3 t = owns (c : Thread nD τ) (ms1_3 t) fullShare ((dat1 V c).after 3 t) from by
        unfold Dat.leavesExact; rw [liveAt1_3 t ((hcond1_1 t).mpr h1)], after1_3]
      rw [scrAt1_next V c t h0]
      rw [PhiS1_castSucc V c t, PhiS1_pos V c _ _ hz]
      simp only [scoped1_eq]
      iintro ⟨⟨⟨HR, HS0⟩, Hg⟩, Ho, ⟨%d0, H0⟩, ⟨%d1, H1⟩, ⟨%d2, H2⟩, ⟨%d3, H3⟩⟩
      iapply (bodyRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      iexact H3
    · -- any other edge tile: update only
      rw [Dat.leavesExact_idle (dat1 V c) 3 t (idleAt1_3 t (fun h => h1 ((hcond1_1 t).mp h))) (noFlush1_3 t (fun h => h1 ((hcond1_1 t).mp h)))]
      rw [scrAt1_next V c t h0]
      rw [PhiS1_castSucc V c t, PhiS1_pos V c _ _ hz]
      simp only [scoped1_eq]
      iintro ⟨⟨⟨HR, HS0⟩, Hg⟩, Ho, ⟨%d0, H0⟩, ⟨%d1, H1⟩, ⟨%d2, H2⟩, ⟨%d3, H3⟩⟩
      iapply (bodyRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  simp only [scoped1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 39100 := N_1; omega)

end Cert.KernelIdeal.Scatter

end
-- ==== Proof.KI.Whole.lean ====
/-
  The whole program: @main as nine segments — six host stretches (three constants, three zero-paddings), the gather
  call, one host stretch (the weight matrix transposed), the scatter-and-project call — and what every unscoped
  buffer holds at each boundary. A host stretch changes the buffers by its operations' fold; a call changes only
  its output array, to what its pipeline's write-backs leave (the proof data's `arrAt` at the last point), and hands
  every other buffer back as it found it. So after the last segment every argument still holds its launch contents
  (no stretch and no call writes one) and the result buffer holds what the second call's write-backs leave.
-/
import proofs.«416147_j79207786873559_1_alg».proof.Proof.KI.GatherBody
import proofs.«416147_j79207786873559_1_alg».proof.Proof.KI.ScatterBody
import proofs.«416147_j79207786873559_1_alg».proof.Proof.Gen.KernelIdeal.Regions
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers at each boundary from the gather call on -/

/-- The gather call's entry contents (after the six host stretches), read at the core's references. -/
abbrev E0 : (c : Dev nD) → (b : Ref sig .tc) → Buf (Elt F) ((c : Thread nD τ).loc b) := fun c b => V6 m c b

/-- At the gather call's exit: its arrays at what the pipeline leaves, every other buffer as entered. -/
def X1 (c : Dev nD) : Valuation τ sig (Elt F) :=
  Pipeline.withArrays spec0 c (V6 m c) fun w => (Gather.dat0 (E0 m) c).arrAt w cfg0.N
theorem X1_arr (c : Dev nD) (w : Fin cfg0.W) :
    X1 m c (Proc.devRef .tc (Pipeline.arrRef spec0 w)) = (Gather.dat0 (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = V6 m c (Proc.devRef .tc b) := by
  unfold X1; exact Pipeline.withArrays_of_ne spec0 c _ _ b hb
abbrev E1 : (c : Dev nD) → (b : Ref sig .tc) → Buf (Elt F) ((c : Thread nD τ).loc b) := fun c b => X1 m c b
theorem hF0 (c : Dev nD) (w : Fin cfg0.W) : (Gather.dat0 (E0 m) c).arrAt w cfg0.N = E1 m c (Pipeline.arrRef spec0 w) :=
  (X1_arr m c w).symm
theorem hrest0 (c : Dev nD) : ∀ b, b ∉ Finset.univ.image (Pipeline.arrRef spec0) → E1 m c b = E0 m c b :=
  fun b hb => X1_of_ne m c b fun w e => hb (Finset.mem_image.mpr ⟨w, Finset.mem_univ _, e⟩)

/-- After the transposition (the scatter call's entry). -/
abbrev X2 : Dev nD → Valuation τ sig (Elt F) := fun c => StableHlo.after hostOps1 (X1 m c)
abbrev E2 : (c : Dev nD) → (b : Ref sig .tc) → Buf (Elt F) ((c : Thread nD τ).loc b) := fun c b => X2 m c b

/-- At the scatter call's exit: its arrays at what the pipeline leaves, every other buffer as entered. -/
def X3 (c : Dev nD) : Valuation τ sig (Elt F) :=
  Pipeline.withArrays spec1 c (X2 m c) fun w => (Scatter.dat1 (E2 m) c).arrAt w cfg1.N
theorem X3_arr (c : Dev nD) (w : Fin cfg1.W) :
    X3 m c (Proc.devRef .tc (Pipeline.arrRef spec1 w)) = (Scatter.dat1 (E2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
abbrev E3 : (c : Dev nD) → (b : Ref sig .tc) → Buf (Elt F) ((c : Thread nD τ).loc b) := fun c b => X3 m c b
theorem hF1 (c : Dev nD) (w : Fin cfg1.W) : (Scatter.dat1 (E2 m) c).arrAt w cfg1.N = E3 m c (Pipeline.arrRef spec1 w) :=
  (X3_arr m c w).symm
theorem hrest1 (c : Dev nD) : ∀ b, b ∉ Finset.univ.image (Pipeline.arrRef spec1) → E3 m c b = E2 m c b :=
  fun b hb => X3_of_ne m c b fun w e => hb (Finset.mem_image.mpr ⟨w, Finset.mem_univ _, e⟩)

/-! ## No segment writes an argument -/

/-- An argument the gather call does not stage reaches the gather call's exit as launched. -/
theorem X1_arg (c : Dev nD) (r : Ref sig .tc) (hne : ∀ w, Pipeline.arrRef spec0 w ≠ r)
    (h5 : r ∉ hostOps0_5_W) (h4 : r ∉ hostOps0_4_W) (h3 : r ∉ hostOps0_3_W) (h2 : r ∉ hostOps0_2_W) (h1 : r ∉ hostOps0_1_W) (h0 : r ∉ hostOps0_W) :
    X1 m c (Proc.devRef .tc r) = m ((c : Thread nD τ).loc r) :=
  (X1_of_ne m c r hne).trans <| (V6_of m c r h5).trans <| (V5_of m c r h4).trans <| (V4_of m c r h3).trans <| (V3_of m c r h2).trans <| (V2_of m c r h1).trans <| (V1_of m c r h0).trans rfl

/-- The node table is staged by the gather call as an input and comes back as entered. -/
theorem X1_main_arg0 (c : Dev nD) : X1 m c (Proc.devRef .tc main_arg0) = m ((c : Thread nD τ).loc main_arg0) :=
  (X1_arr m c 2).trans <| ((Gather.dat0 (E0 m) c).arrAt_in 2 rfl _).trans <| (Gather.A_eq0 (E0 m) c 2).trans <|
    (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

/-- From the gather call's exit to the end nothing writes a buffer that is neither the transposed matrix nor an array
    of the scatter call. -/
theorem X3_of_X1 (c : Dev nD) (r : Ref sig .tc) (hne : ∀ w, Pipeline.arrRef spec1 w ≠ r) (h : r ∉ hostOps1_W) :
    X3 m c (Proc.devRef .tc r) = X1 m c (Proc.devRef .tc r) :=
  (X3_of_ne m c r hne).trans (StableHlo.after_of_writes_sub hostOps1 _ hostOps1_writes h)

theorem X3_main_arg0 (c : Dev nD) : X3 m c (Proc.devRef .tc main_arg0) = m ((c : Thread nD τ).loc main_arg0) :=
  (X3_of_X1 m c main_arg0 (by decide) (by decide)).trans (X1_main_arg0 m c)
theorem X3_main_arg1 (c : Dev nD) : X3 m c (Proc.devRef .tc main_arg1) = m ((c : Thread nD τ).loc main_arg1) :=
  (X3_of_X1 m c main_arg1 (by decide) (by decide)).trans (X1_arg m c main_arg1 (by decide) (by decide) (by decide) (by decide) (by decide) (by decide) (by decide))
theorem X3_main_arg2 (c : Dev nD) : X3 m c (Proc.devRef .tc main_arg2) = m ((c : Thread nD τ).loc main_arg2) :=
  (X3_of_X1 m c main_arg2 (by decide) (by decide)).trans (X1_arg m c main_arg2 (by decide) (by decide) (by decide) (by decide) (by decide) (by decide) (by decide))
theorem X3_main_arg3 (c : Dev nD) : X3 m c (Proc.devRef .tc main_arg3) = m ((c : Thread nD τ).loc main_arg3) :=
  (X3_of_X1 m c main_arg3 (by decide) (by decide)).trans (X1_arg m c main_arg3 (by decide) (by decide) (by decide) (by decide) (by decide) (by decide) (by decide))
theorem X3_main_arg4 (c : Dev nD) : X3 m c (Proc.devRef .tc main_arg4) = m ((c : Thread nD τ).loc main_arg4) :=
  (X3_of_X1 m c main_arg4 (by decide) (by decide)).trans (X1_arg m c main_arg4 (by decide) (by decide) (by decide) (by decide) (by decide) (by decide) (by decide))

/-- The result buffer ends at what the scatter call's write-backs leave. -/
theorem X3_main_v5 (c : Dev nD) : X3 m c (Proc.devRef .tc main_v5) = (Scatter.dat1 (E2 m) c).arrAt 3 cfg1.N :=
  X3_arr m c 3

/-! ## The proof data family and the thread state -/

/-- Both pipelines' proof data, each at its call's entry contents. -/
def pdats : (p : Fin 2) → (c : Dev nD) → Dat τ (Elt F) Unit ℕ (UR sig nD τ) ℕ (cfgs p) c
  | ⟨0, _⟩ => fun c => Gather.dat0 (E0 m) c
  | ⟨1, _⟩ => fun c => Scatter.dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R (F := F) c

/-- The transposition as a segment, from the gather call's exit contents. -/
abbrev segT : HostSeg (Name := ℕ) (U := UR sig nD τ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X1 m) (R (F := F))

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owing: every unscoped buffer at the last boundary's contents. -/
abbrev Tₙ (c : Dev nD) : sProp 𝕄 := iprop(StableHlo.held (c : Thread nD τ) (Pipeline.ucRefs τ sig) (X3 m c) ∗ ∃ r, prngReg c r)

/-! ## The calls as segments -/

set_option backward.isDefEq.respectTransparency.types false in
/-- The gather call over the thread state: entered from every unscoped buffer after the host stretches, left with
    its arrays at the pipeline's final contents. Its arrays are split out of the unscoped buffers and put back at the
    exit contents; the generator register goes into the invariant and comes out; nothing is owed; the kernel has no
    semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gather.body_obligation0 (E0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gather.hin0 (E0 m) c)
    unfold Pipeline.ΦA
    iintro ⟨Hp, -, Hr⟩
    isplitl [Hr]; · iexact Hr
    iexact Hp
  hout c := by
    rw [Pipeline.ownSems0_none]
    refine BIBase.Entails.trans (Gather.hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter-and-project call over the thread state: entered from every unscoped buffer after the transposition,
    left with its arrays at the pipeline's final contents, which is what the launch reads at the end. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scatter.body_obligation1 (E2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Scatter.hin1 (E2 m) c)
    unfold Pipeline.ΦA
    iintro ⟨Hp, -, Hr⟩
    isplitl [Hr]; · iexact Hr
    iexact Hp
  hout c := by
    rw [Pipeline.ownSems0_none]
    refine BIBase.Entails.trans (Scatter.hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order. -/
abbrev segsW (_ : Dev nD) : List (Seg (pcfgs (F := F)) adm (pdats m) () defs₀ 𝒱₀ L lv) :=
  [ .host (seg0 m 𝒱₀ L lv ER), .host (seg1 m 𝒱₀ L lv ER), .host (seg2 m 𝒱₀ L lv ER), .host (seg3 m 𝒱₀ L lv ER),
    .host (seg4 m 𝒱₀ L lv ER), .host (seg5 m 𝒱₀ L lv ER), .region (reg0 m), .host (segT m), .region (reg1 m) ]

set_option backward.isDefEq.respectTransparency.types false in
/-- THE RUN. At the compiled mesh, at any instance, from any memory with zero counters: every weakly fair execution
    of @main terminates, nothing faulting, and every final memory holds every unscoped buffer at the last boundary's
    contents. -/
theorem run_whole (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = X3 m c b) :=
  Pipeline.θ_run_regions_kit_dev (pcfgs (F := F)) adm (pdats m) () cellOf_inj emb₁ defs₀ 𝒱₀ L lv m ρ main (segsW m)
    (fun c Q => by
      rewrite [main_chain c, Seg.run_eq_chain,
        show (segsW m c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()) ] from rfl]
      exact .rfl)
    (fun c => by simp only [segsW, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun _ h => h)

/-- THE FRAME AND THE RESULT: the run's post read at the five arguments and at the result buffer. -/
theorem run_result (ρ : Dev nD → PrngReg) :
    θ_run defs (onTc (τ := τ) (main (F := F))) ⟨m, fun _ => 0, ρ⟩ (fun r => ∀ c : Dev nD,
      r.2.mem ((c.tc : Thread nD τ).loc main_v5) = (Scatter.dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (X3_main_v5 m c),
     (h c _ (mem_uc main_arg0 (by decide))).trans (X3_main_arg0 m c),
     (h c _ (mem_uc main_arg1 (by decide))).trans (X3_main_arg1 m c),
     (h c _ (mem_uc main_arg2 (by decide))).trans (X3_main_arg2 m c),
     (h c _ (mem_uc main_arg3 (by decide))).trans (X3_main_arg3 m c),
     (h c _ (mem_uc main_arg4 (by decide))).trans (X3_main_arg4 m c)⟩) (run_whole m ρ)

/-- The frame alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Whole

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibOneHot.lean ====
/-
  Picking one entry with a one-hot row, and the layout steps around it.

  A sum over a finite index weighted by the indicator of one index `a0` is the term at `a0`: on the extended reals
  `0 · x = 0` and `1 · x = x` for every `x`, infinite ones included, so nothing need be finite. Hence a matrix product
  of a one-hot row with a table is the table's row the one sits on, and a masked sum along the last axis is the entry
  on the mask's lane. With them the casts and broadcasts such a gather is written with — an `[a, b]` array given a
  unit middle axis, that axis spread over `c` copies — and the sums along the last axis of a rank-2 and a rank-3
  array, each read at an entry.
-/
import Idealize.ShloMosaic.PureOps.Ideal.Laws
import Idealize.ShloMosaic.Lib.ValueIdx
import Idealize.ShloMosaic.Lib.ValueLayout
import Idealize.ShloMosaic.Lib.Pipeline.Value
import proofs.«416147_j79207786873559_1_alg».proof.Proof.LibPlainDot

noncomputable section

open scoped BigOperators

namespace Cert.LibOneHot

open Idealize.ShloMosaic Idealize.ShloMosaic.ValueIdx Cert

/-- A sum weighted on the left by the indicator of one index is the term at that index. -/
theorem sum_onehot_mul {n : Nat} (f : Fin n → EReal) (a0 : Fin n) :
    ∑ a : Fin n, (if a = a0 then (1 : EReal) else 0) * f a = f a0 := by
  rw [Finset.sum_eq_single a0]
  · rw [if_pos rfl, one_mul]
  · intro a _ hne
    rw [if_neg hne, zero_mul]
  · intro h
    exact absurd (Finset.mem_univ a0) h

/-- A sum weighted on the right by the indicator of one index is the term at that index. -/
theorem sum_mul_onehot {n : Nat} (f : Fin n → EReal) (b0 : Fin n) :
    ∑ b : Fin n, f b * (if b = b0 then (1 : EReal) else 0) = f b0 := by
  rw [Finset.sum_eq_single b0]
  · rw [if_pos rfl, mul_one]
  · intro b _ hne
    rw [if_neg hne, mul_zero]
  · intro h
    exact absurd (Finset.mem_univ b0) h

/-- A one-hot row times a table, into the zero accumulator, is the table's row the one sits on. -/
theorem onehot_matmul_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![M, K]⟩ φ₁) (t : FVec Ideal ⟨2, ![K, N]⟩ φ₂) (r : Fin M) (a0 : Fin K)
    (hA : ∀ a : Fin K, A (ix2 r a) = if a = a0 then (1 : EReal) else 0) (j : Fin N) :
    FloatOps.matmul d prec A t (constant (F := Ideal) ⟨2, ![M, N]⟩ .f32 0x00000000#32) (ix2 r j) = t (ix2 a0 j) := by
  refine (LibPlainDot.matmul_zero_apply d hlc hrc hln hrn hlb hrb prec A t r j).trans ?_
  refine (Finset.sum_congr rfl fun a _ => congrArg (· * t (ix2 a j)) (hA a)).trans ?_
  exact sum_onehot_mul (fun a => t (ix2 a j)) a0

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array spread over `c` copies of its middle axis reads, at `(i, k, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The sum over the last axis of a rank-3 array, at `(i, k)`: the sum over `j` of the entries `(i, k, j)`. -/
theorem sumLast3_apply {a c b : ℕ} {φ : FTy} (src : FVec Ideal ⟨3, ![a, c, b]⟩ φ) (acc : BitVec φ.bits)
    (h : (⟨3, ![a, c, b]⟩ : Shape).Reduces [2] ⟨2, ![a, c]⟩) (hφ : FKind.Formats φ)
    (hacc : acc = FKind.add.neutral φ hφ) (i : Fin a) (k : Fin c) :
    multiReduction (F := Ideal) .add [2] ⟨2, ![a, c]⟩ src acc h hφ hacc (ix2 i k) = ∑ j : Fin b, src (ix3 i k j) := by
  refine (Ideal.multiReduction_add_single src acc h hφ hacc (ix2 i k)).trans ?_
  refine Finset.sum_congr rfl fun j _ => congrArg src ?_
  funext ax
  refine Fin.ext ?_
  match ax with
  | ⟨0, _⟩ => rfl
  | ⟨1, _⟩ => rfl
  | ⟨2, _⟩ => rfl

/-- The sum over the last axis of a matrix, at row `i`: the sum over `j` of the entries `(i, j)`. -/
theorem sumLast2_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction (F := Ideal) .add [1] ⟨1, ![a]⟩ src acc h hφ hacc (ix1 i) = ∑ j : Fin b, src (ix2 i j) := by
  refine (Ideal.multiReduction_add_single src acc h hφ hacc (ix1 i)).trans ?_
  refine Finset.sum_congr rfl fun j _ => congrArg src ?_
  funext ax
  refine Fin.ext ?_
  match ax with
  | ⟨0, _⟩ => rfl
  | ⟨1, _⟩ => rfl

end Cert.LibOneHot

end
-- ==== Proof.KI.GatherPayload.lean ====
/-
  The gather call's payloads read at an entry, at the extended reals.

  The body's update of the accumulator is, at row `p` and feature `q`,

      acc (p, q) + (Σ_{k < 1000} [src p = 1000 n + k] · tile (k, q)) · w p

  where `n` is the node tile, `src p` the row's source word, `tile` the current 1000-row block of the node table and
  `w p` the row's weight: the matrix product of a one-hot row with the tile, into a zero accumulator, scaled by the
  weight and added to what the accumulator held. The one-hot entry is the comparison bit of the source word with the
  node word `n · 1000 + k`, widened to 32 bits and read as a signed integer: 1 where the words agree, 0 elsewhere
  (rounding to bf16 does nothing at the extended reals). For a tile `n < 100` and a lane `k < 1000` the node word is
  the word of the number `1000 n + k`, which is below 2³², so the words agree exactly when the source word's value
  is that number. Hence, for a source value `s < 100000`, the sum over a tile's lanes is the table's row `s` when
  `s / 1000 = n` and zero otherwise: on the extended reals `0 · x = 0` and `1 · x = x` for every `x`, so nothing
  need be finite. The layout steps are a vector made a column (`[a] → [a, 1]`) and a column spread over the lanes
  (`[a, 1] → [a, b]`), read at an entry.
-/
import proofs.«416147_j79207786873559_1_alg».proof.Proof.Gen.KernelIdeal.Skeleton
import proofs.«416147_j79207786873559_1_alg».proof.Proof.LibOneHot
import proofs.«416147_j79207786873559_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Gather

open Idealize.ShloMosaic Idealize.ShloMosaic.ValueIdx
open Cert.KernelIdeal Cert.KernelIdeal.Gen

/-! ## A vector made a column, and a column spread over the lanes -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column and spread over `b` lanes reads, at `(p, c)`, the vector at `p`. -/
theorem column_apply {a b : ℕ} (x : (⟨1, ![a]⟩ : Shape).Idx → α) (h0 : (⟨1, ![a]⟩ : Shape).ShapeCasts ⟨1, ![a]⟩)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ (shapeCast ⟨1, ![a]⟩ x h0) h1) h2 (ix2 p c) = x (ix1 p) := by
  refine (broadcastTo_a1_ab_apply _ h2 p c).trans ?_
  refine (shapeCast_a_a1_apply _ h1 p 0).trans ?_
  rw [shapeCast_self]

end Layout

/-! ## The node words and the one-hot entry -/

/-- A number below 100000 is below 2³². -/
theorem lt_two32 {m : ℕ} (h : m < 100000) : m < 2 ^ 32 := lt_of_lt_of_le h (by norm_num)

/-- The node word the body forms for lane `k` of tile `n` (the tile's offset `n · 1000` plus the lane) is the word of
    `1000 n + k`. -/
theorem nodeWord_eq (n k : ℕ) :
    IntOp.addi (Scalar.muli (BitVec.ofNat 32 n) 1000#32) (BitVec.ofNat 32 k) = BitVec.ofNat 32 (1000 * n + k) := by
  show BitVec.ofNat 32 n * BitVec.ofNat 32 1000 + BitVec.ofNat 32 k = _
  rw [BitVec.ofNat_mul_ofNat, BitVec.ofNat_add_ofNat, Nat.mul_comm]

/-- A word is the word of a number below 2³² exactly when that number is its value. -/
theorem eq_ofNat_iff (s : BitVec 32) (m : ℕ) (hm : m < 2 ^ 32) : s = BitVec.ofNat 32 m ↔ s.toNat = m := by
  rw [BitVec.toNat_eq, BitVec.toNat_ofNat, Nat.mod_eq_of_lt hm]

/-- Tile `n`'s node words, spread over the rows: lane `k` of every row holds the word of `1000 n + k`. -/
theorem nodeIds_apply (n : ℕ) (hi : S1x1000.Iotas .tc 32 [1]) (hb : S1x1000.Broadcasts S4096x1000) (p : Fin 4096) (k : Fin 1000) :
    broadcastTo S4096x1000 (addi (broadcast S1x1000 (Scalar.muli (BitVec.ofNat 32 n) 1000#32)) (iota .tc S1x1000 32 [1] hi)) hb (ix2 p k)
      = BitVec.ofNat 32 (1000 * n + k.val) := by
  refine (broadcastTo_1b_ab_apply _ hb p k).trans ?_
  show IntOp.addi (Scalar.muli (BitVec.ofNat 32 n) 1000#32) (iota .tc S1x1000 32 [1] hi (ix2 (0 : Fin 1) k)) = _
  rw [iota_single_apply]
  exact nodeWord_eq n k.val

/-- The comparison bit of two words, widened to 32 bits and read as a signed integer: 1 where they agree, 0 elsewhere. -/
theorem onehot_entry (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · subst h
    rw [if_pos rfl]
    have e : IntOp.cmpi .eq x x = 1#1 := by simp [IntOp.cmpi]
    have e2 : ((1#1 : BitVec 1).setWidth 32).toInt = 1 := by decide
    rw [e, e2, Int.cast_one, EReal.coe_one]
  · rw [if_neg h]
    have e : IntOp.cmpi .eq x y = 0#1 := by
      show BitVec.ofBool (x == y) = 0#1
      rw [beq_eq_false_iff_ne.mpr h]
      rfl
    have e2 : ((0#1 : BitVec 1).setWidth 32).toInt = 0 := by decide
    rw [e, e2, Int.cast_zero, EReal.coe_zero]

/-- The one-hot matrix at an entry: 1 where the two integer arrays agree there, 0 elsewhere. -/
theorem onehot_apply {s : Shape} (a b : IVec s 32) (h : 1 < 32) (h' : FTy.bits .bf16 < FTy.bits .f32) (j : s.Idx) :
    (truncf .bf16 (sitofp (F := Ideal) .f32 (extui 32 (cmpi .eq a b) h)) h' : FVec Ideal s .bf16) j
      = if a j = b j then (1 : EReal) else 0 :=
  onehot_entry (a j) (b j)

/-! ## A tile's lanes against one source value -/

/-- Row `k` of node tile `n`, as a row of the table. -/
abbrev tileRow (n : Fin 100) (k : Fin 1000) : Fin 100000 :=
  ⟨1000 * n.val + k.val, by have := n.isLt; have := k.isLt; omega⟩

/-- The sum over a tile's lanes weighted by "the source word is this lane's node": the table's row the source names
    when it lies in this tile, zero otherwise. -/
theorem sum_tile (s : BitVec 32) (hs : s.toNat < 100000) (n : Fin 100) (g : Fin 100000 → EReal) :
    ∑ k : Fin 1000, (if s = BitVec.ofNat 32 (1000 * n.val + k.val) then (1 : EReal) else 0) * g (tileRow n k)
      = if s.toNat / 1000 = n.val then g ⟨s.toNat, hs⟩ else 0 := by
  have hn := n.isLt
  have hw : ∀ k : Fin 1000, (s = BitVec.ofNat 32 (1000 * n.val + k.val)) ↔ s.toNat = 1000 * n.val + k.val := fun k =>
    eq_ofNat_iff s _ (lt_two32 (by have := k.isLt; omega))
  by_cases h : s.toNat / 1000 = n.val
  · rw [if_pos h]
    have hk : s.toNat % 1000 < 1000 := Nat.mod_lt _ (by decide)
    have e : ∀ k : Fin 1000, (s = BitVec.ofNat 32 (1000 * n.val + k.val)) ↔ k = ⟨s.toNat % 1000, hk⟩ := fun k => by
      have hkl := k.isLt
      rw [hw k, Fin.ext_iff]
      show s.toNat = 1000 * n.val + k.val ↔ k.val = s.toNat % 1000
      omega
    refine (Finset.sum_congr rfl fun k _ => congrArg (· * g (tileRow n k)) (if_congr (e k) rfl rfl)).trans ?_
    refine (LibOneHot.sum_onehot_mul (fun k => g (tileRow n k)) ⟨s.toNat % 1000, hk⟩).trans ?_
    exact congrArg g (Fin.ext (by show 1000 * n.val + s.toNat % 1000 = s.toNat; omega))
  · rw [if_neg h]
    refine Finset.sum_eq_zero fun k _ => ?_
    have hne : ¬s = BitVec.ofNat 32 (1000 * n.val + k.val) := fun hk => by
      have := (hw k).mp hk
      have := k.isLt
      omega
    rw [if_neg hne, zero_mul]

/-! ## The two payloads at an entry -/

/-- What the clearing store writes: zero everywhere. -/
theorem pay1_apply (j : S4096x128.Idx) : (k0_pay1 (F := Ideal)) j = (0 : EReal) := by
  unfold k0_pay1
  rw [shapeCast_self]
  exact Ideal.ofBits_zero_f32

/-- The body's update at entry `(p, q)`, from what its blocks hold there: the source word `s` of row `p`, the weight `w`
    of row `p`, and feature `q` of the node tile's rows `f`. -/
theorem pay2_entry (i : grid0.Coords) (v7 : IVec S4096 32) (v16 : FVec Ideal S1000x128 .f32) (v19 : FVec Ideal S4096x128 .f32)
    (v20 : FVec Ideal S4096 .f32) (p : Fin 4096) (q : Fin 128) (n : ℕ) (s : BitVec 32) (w : EReal) (f : Fin 1000 → EReal)
    (hn : (i 1).val = n) (hs : v7 (ix1 p) = s) (hw : v20 (ix1 p) = w) (hf : ∀ k : Fin 1000, v16 (ix2 k q) = f k) :
    k0_pay2 (F := Ideal) i v7 v16 v19 v20 (ix2 p q)
      = v19 (ix2 p q) + (∑ k : Fin 1000, (if s = BitVec.ofNat 32 (1000 * n + k.val) then (1 : EReal) else 0) * f k) * w := by
  subst hn hs hw
  unfold k0_pay2
  dsimp only
  refine (congrFun (shapeCast_self _ _) (ix2 p q)).trans ?_
  refine (addf_apply _ _ _).trans ?_
  refine congrArg (v19 (ix2 p q) + ·) ?_
  refine (mulf_apply _ _ _).trans ?_
  refine congrArg₂ (· * ·) ?_ ?_
  · refine (LibPlainDot.matmul_zero_apply (M := 4096) (K := 1000) (N := 128) dot_S4096x1000_S1000x128_S4096x128_1_0_0_1_n_n
      rfl rfl rfl rfl rfl rfl none _ _ p q).trans ?_
    refine Finset.sum_congr rfl fun k _ => ?_
    refine congrArg₂ (· * ·) ?_ (hf k)
    refine (onehot_apply _ _ _ _ (ix2 p k)).trans ?_
    rw [column_apply (a := 4096) (b := 1000) v7 _ _ _ p k, nodeIds_apply]
  · exact column_apply (a := 4096) (b := 128) v20 _ _ _ p q

end Cert.KernelIdeal.Gather

end
-- ==== Proof.Spec.lean ====
/-
  What the layer computes, as plain sums over the extended reals.

  One edge `e` sends the message `node_emb[src e, :] · edge_weight e`; node `i` collects the sum of the messages of the
  edges whose destination is `i`; the result row `i` is that sum times the transposed weight matrix:
  `out (i, j) = Σ_k (Σ_e [dst e = i] · node_emb[src e, k] · edge_weight e) · W (j, k)`.
  A source word names its row by its value (taken modulo the table's height, so that the function is total; on the
  domain where every source index is a row of the table this is the index itself).
-/
import Idealize.ShloMosaic.PureOps.Ideal
import Idealize.ShloMosaic.Lib.ValueIdx

noncomputable section

open scoped BigOperators

namespace Cert.Spec

open Idealize.ShloMosaic Idealize.ShloMosaic.ValueIdx

/-- The row of the node table a source word names. -/
abbrev rowOf (v : BitVec 32) : Fin 100000 := ⟨v.toNat % 100000, Nat.mod_lt _ (by decide)⟩

/-- Edge `e`'s message at feature `k`: the named row of the table times the edge's weight. -/
def msg (ne : (⟨2, ![100000, 128]⟩ : Shape).Idx → EReal) (ew : (⟨1, ![1600000]⟩ : Shape).Idx → EReal)
    (src : IVec ⟨1, ![1600000]⟩ 32) (e : Fin 1600000) (k : Fin 128) : EReal :=
  ne (ix2 (rowOf (src (ix1 e))) k) * ew (ix1 e)

/-- Node `i`'s aggregate at feature `k`: the sum of the messages of the edges whose destination word, read as a signed
    integer, is `i`. -/
def agg (ne : (⟨2, ![100000, 128]⟩ : Shape).Idx → EReal) (ew : (⟨1, ![1600000]⟩ : Shape).Idx → EReal)
    (src dst : IVec ⟨1, ![1600000]⟩ 32) (i : Fin 100000) (k : Fin 128) : EReal :=
  ∑ e : Fin 1600000, if (dst (ix1 e)).toInt = (i.val : Int) then msg ne ew src e k else 0

/-- The layer's result: each node's aggregate times the transposed weight matrix. -/
def out (ne : (⟨2, ![100000, 128]⟩ : Shape).Idx → EReal) (ew : (⟨1, ![1600000]⟩ : Shape).Idx → EReal)
    (src dst : IVec ⟨1, ![1600000]⟩ 32) (W : (⟨2, ![128, 128]⟩ : Shape).Idx → EReal) :
    (⟨2, ![100000, 128]⟩ : Shape).Idx → EReal :=
  fun y => ∑ k : Fin 128, agg ne ew src dst (y 0) k * W (ix2 (y 1) k)

end Cert.Spec

end
-- ==== Proof.KI.GatherValue.lean ====
/-
  The gather call's value: what the message array holds after the call.

  Row `e` of the message array is the row of the node table that edge `e`'s source word names, times edge `e`'s
  weight. Point `t` of the grid works on edge tile `t / 100` and node tile `t % 100`: row `p` of its blocks is edge
  `4096 (t / 100) + p`, and row `k` of its table block is node `1000 (t % 100) + k`. The body adds to the accumulator's
  row `p` the table's row that the edge's source names when that row lies in the current node tile, and zero otherwise,
  times the edge's weight. So, by induction along an edge tile, after node tile `n` the accumulator's row `p` holds
  the edge's message when its source lies in a tile up to `n`, and zero before that (it starts from zero, and
  `0 + x = x`, `0 · x = 0` on the extended reals for every `x`). A source below 100000 lies in one of the 100 tiles, so
  after the last node tile the accumulator holds the messages of the edge tile; that is the block the call writes back,
  and the 391 blocks written back tile the array.
-/
import proofs.«416147_j79207786873559_1_alg».proof.Proof.KI.GatherSchedule
import proofs.«416147_j79207786873559_1_alg».proof.Proof.KI.GatherPayload
import proofs.«416147_j79207786873559_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Gather

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- what every unscoped buffer of core `c` holds when the call is entered, at the extended reals
variable (V : (c : Dev nD) → (b : Ref sig .tc) → Buf (Elt Ideal) ((c : Thread nD τ).loc b))

/-! ## The arrays the call reads, and the messages -/

/-- The padded source words as the call finds them. -/
abbrev srcArr (c : Dev nD) : IVec S1601536 32 := V c main_v0
/-- The padded weights as the call finds them. -/
abbrev wArr (c : Dev nD) : FVec Ideal S1601536 .f32 := V c main_v2
/-- The node table as the call finds it. -/
abbrev tblArr (c : Dev nD) : FVec Ideal S100000x128 .f32 := V c main_arg0

/-- The value of edge `e`'s source word. -/
abbrev srcVal (c : Dev nD) (e : Fin 1601536) : ℕ := (srcArr V c (ix1 e)).toNat
/-- The table's row that edge `e`'s source word names, at feature `d`. -/
abbrev rowAt (c : Dev nD) (e : Fin 1601536) (d : Fin 128) : EReal :=
  tblArr V c (ix2 (Cert.Spec.rowOf (srcArr V c (ix1 e))) d)
/-- Edge `e`'s message at feature `d`: that row times the edge's weight. -/
abbrev msgAt (c : Dev nD) (e : Fin 1601536) (d : Fin 128) : EReal := rowAt V c e d * wArr V c (ix1 e)
/-- The messages as one array: row `e` is edge `e`'s message. -/
abbrev msgArr (c : Dev nD) : FVec Ideal S1601536x128 .f32 := fun y => msgAt V c (y 0) (y 1)

/-- The node tile of point `t`. -/
abbrev tileOf (t : Fin cfg0.N) : Fin 100 := ⟨t.val % 100, Nat.mod_lt _ (by decide)⟩

/-! ## The windows' block indices at a point -/

/-- The source window's block index is the edge tile. -/
theorem idx0_0 (t : Fin cfg0.N) : win0_0.index t (0 : Fin 1) = t.val / 100 := by
  have hN : cfg0.N = 39100 := N_0
  have ht := t.isLt
  show (BitVec.ofNat 32 (grid0.coords t 0).val).toNat = _
  rw [coords0_0, BitVec.toNat_ofNat]
  exact Nat.mod_eq_of_lt (lt_two32 (by omega))

/-- The weight window's block index is the edge tile. -/
theorem idx1_0 (t : Fin cfg0.N) : win0_1.index t (0 : Fin 1) = t.val / 100 := by
  have hN : cfg0.N = 39100 := N_0
  have ht := t.isLt
  show (BitVec.ofNat 32 (grid0.coords t 0).val).toNat = _
  rw [coords0_0, BitVec.toNat_ofNat]
  exact Nat.mod_eq_of_lt (lt_two32 (by omega))

/-- The table window's block index is the node tile, then 0. -/
theorem idx2_0 (t : Fin cfg0.N) : win0_2.index t (0 : Fin 2) = t.val % 100 := by
  have ht : t.val % 100 < 100 := Nat.mod_lt _ (by decide)
  show (BitVec.ofNat 32 (grid0.coords t 1).val).toNat = _
  rw [coords0_1, BitVec.toNat_ofNat]
  exact Nat.mod_eq_of_lt (lt_two32 (by omega))
theorem idx2_1 (t : Fin cfg0.N) : win0_2.index t (1 : Fin 2) = 0 := by
  show (0#32 : BitVec 32).toNat = 0
  rfl

/-- The message window's block index is the edge tile, then 0. -/
theorem idx3_0 (t : Fin cfg0.N) : win0_3.index t (0 : Fin 2) = t.val / 100 := by
  have hN : cfg0.N = 39100 := N_0
  have ht := t.isLt
  show (BitVec.ofNat 32 (grid0.coords t 0).val).toNat = _
  rw [coords0_0, BitVec.toNat_ofNat]
  exact Nat.mod_eq_of_lt (lt_two32 (by omega))
theorem idx3_1 (t : Fin cfg0.N) : win0_3.index t (1 : Fin 2) = 0 := by
  show (0#32 : BitVec 32).toNat = 0
  rfl

/-! ## Each input block read at an entry of its array -/

/-- Row `p` of the source block at point `t` is the source word of edge `4096 (t / 100) + p`. -/
theorem srcBlk_apply (c : Dev nD) (t : Fin cfg0.N) (p : Fin 4096) (e : Fin 1601536)
    (he : e.val = 4096 * (t.val / 100) + p.val) :
    (iblk0 V c 0 t : IVec S4096 32) (ix1 p) = srcArr V c (ix1 e) := by
  unfold iblk0
  rw [View.read_apply]
  show V c main_v0 _ = V c main_v0 _
  congr 1
  funext a
  apply Fin.ext
  match a with
  | ⟨0, _⟩ =>
    show win0_0.index t (0 : Fin 1) * 4096 + 1 * p.val = e.val
    rw [idx0_0 t, he]
    omega

/-- Row `p` of the weight block at point `t` is the weight of edge `4096 (t / 100) + p`. -/
theorem wBlk_apply (c : Dev nD) (t : Fin cfg0.N) (p : Fin 4096) (e : Fin 1601536)
    (he : e.val = 4096 * (t.val / 100) + p.val) :
    (iblk0 V c 1 t : FVec Ideal S4096 .f32) (ix1 p) = wArr V c (ix1 e) := by
  unfold iblk0
  rw [View.read_apply]
  show V c main_v2 _ = V c main_v2 _
  congr 1
  funext a
  apply Fin.ext
  match a with
  | ⟨0, _⟩ =>
    show win0_1.index t (0 : Fin 1) * 4096 + 1 * p.val = e.val
    rw [idx1_0 t, he]
    omega

/-- Row `k` of the table block at point `t` is row `k` of node tile `t % 100` of the table. -/
theorem tblBlk_apply (c : Dev nD) (t : Fin cfg0.N) (k : Fin 1000) (q : Fin 128) :
    (iblk0 V c 2 t : FVec Ideal S1000x128 .f32) (ix2 k q) = tblArr V c (ix2 (tileRow (tileOf t) k) q) := by
  unfold iblk0
  rw [View.read_apply]
  show V c main_arg0 _ = V c main_arg0 _
  congr 1
  funext a
  apply Fin.ext
  match a with
  | ⟨0, _⟩ =>
    show win0_2.index t (0 : Fin 2) * 1000 + 1 * k.val = 1000 * (t.val % 100) + k.val
    rw [idx2_0 t]
    omega
  | ⟨1, _⟩ =>
    show win0_2.index t (1 : Fin 2) * 128 + 1 * q.val = q.val
    rw [idx2_1 t]
    omega

/-! ## One point's update, in terms of the arrays -/

/-- At point `t` the body leaves at `(p, q)` what the accumulator held there plus, when edge `4096 (t / 100) + p`'s
    source lies in node tile `t % 100`, the table's row it names, times the edge's weight. -/
theorem pay_at (c : Dev nD) (hr : ∀ e : Fin 1601536, srcVal V c e < 100000) (t : Fin cfg0.N)
    (acc : FVec Ideal S4096x128 .f32) (p : Fin 4096) (q : Fin 128) (e : Fin 1601536)
    (he : e.val = 4096 * (t.val / 100) + p.val) :
    k0_pay2 (F := Ideal) (grid0.coords t) (iblk0 V c 0 t) (iblk0 V c 2 t) acc (iblk0 V c 1 t) (ix2 p q)
      = acc (ix2 p q) + (if srcVal V c e / 1000 = t.val % 100 then rowAt V c e q else 0) * wArr V c (ix1 e) := by
  refine (pay2_entry (grid0.coords t) (iblk0 V c 0 t) (iblk0 V c 2 t) acc (iblk0 V c 1 t) p q (t.val % 100)
    (srcArr V c (ix1 e)) (wArr V c (ix1 e)) (fun k => tblArr V c (ix2 (tileRow (tileOf t) k) q))
    (coords0_1 t) (srcBlk_apply V c t p e he) (wBlk_apply V c t p e he) (fun k => tblBlk_apply V c t k q)).trans ?_
  refine congrArg (fun x : EReal => acc (ix2 p q) + x * wArr V c (ix1 e)) ?_
  refine (sum_tile (srcArr V c (ix1 e)) (hr e) (tileOf t) (fun r => tblArr V c (ix2 r q))).trans ?_
  refine if_congr Iff.rfl (congrArg (fun r => tblArr V c (ix2 r q)) (Fin.ext ?_)) rfl
  show (srcArr V c (ix1 e)).toNat = (srcArr V c (ix1 e)).toNat % 100000
  exact (Nat.mod_eq_of_lt (hr e)).symm

/-! ## The accumulator along an edge tile -/

/-- After point `n` the accumulator's row `p` holds the message of edge `4096 (n / 100) + p` when the edge's source lies
    in a node tile up to `n % 100`, and zero otherwise. -/
theorem acc_inv (c : Dev nD) (hr : ∀ e : Fin 1601536, srcVal V c e < 100000) (n : ℕ) :
    ∀ (hn : n < cfg0.N) (p : Fin 4096) (q : Fin 128) (e : Fin 1601536), e.val = 4096 * (n / 100) + p.val →
      (scrAt0 V c n hn : FVec Ideal S4096x128 .f32) (ix2 p q)
        = if srcVal V c e / 1000 ≤ n % 100 then msgAt V c e q else 0 := by
  induction n using Nat.strong_induction_on with
  | _ n ih =>
    intro hn p q e he
    have hN : cfg0.N = 39100 := N_0
    by_cases h0 : n % 100 = 0
    · refine (congrFun (scrAt0_first V c ⟨n, hn⟩ h0) (ix2 p q)).trans ?_
      refine (pay_at V c hr ⟨n, hn⟩ (k0_pay1 (F := Ideal)) p q e he).trans ?_
      show (k0_pay1 (F := Ideal)) (ix2 p q) + (if srcVal V c e / 1000 = n % 100 then rowAt V c e q else 0) * wArr V c (ix1 e)
        = if srcVal V c e / 1000 ≤ n % 100 then msgAt V c e q else 0
      rw [pay1_apply, zero_add]
      by_cases h : srcVal V c e / 1000 = n % 100
      · rw [if_pos h, if_pos (le_of_eq h)]
      · have h' : ¬srcVal V c e / 1000 ≤ n % 100 := by omega
        rw [if_neg h, if_neg h', zero_mul]
    · have hn' : n - 1 < cfg0.N := by omega
      have hlt : n - 1 < n := by omega
      have he' : e.val = 4096 * ((n - 1) / 100) + p.val := by omega
      refine (congrFun (scrAt0_next V c ⟨n, hn⟩ h0) (ix2 p q)).trans ?_
      refine (pay_at V c hr ⟨n, hn⟩ (scrAt0 V c (n - 1) hn') p q e he).trans ?_
      show (scrAt0 V c (n - 1) hn' : FVec Ideal S4096x128 .f32) (ix2 p q)
          + (if srcVal V c e / 1000 = n % 100 then rowAt V c e q else 0) * wArr V c (ix1 e)
        = if srcVal V c e / 1000 ≤ n % 100 then msgAt V c e q else 0
      rw [ih (n - 1) hlt hn' p q e he']
      by_cases h1 : srcVal V c e / 1000 ≤ (n - 1) % 100
      · have h2 : ¬srcVal V c e / 1000 = n % 100 := by omega
        have h3 : srcVal V c e / 1000 ≤ n % 100 := by omega
        rw [if_pos h1, if_neg h2, if_pos h3, zero_mul, add_zero]
      · by_cases h2 : srcVal V c e / 1000 = n % 100
        · rw [if_neg h1, if_pos h2, if_pos (le_of_eq h2), zero_add]
        · have h3 : ¬srcVal V c e / 1000 ≤ n % 100 := by omega
          rw [if_neg h1, if_neg h2, if_neg h3, zero_mul, add_zero]

/-! ## What a flushing point writes back, and the cover -/

/-- A point that writes the message block back writes the messages of its edge tile: its block of `msgArr`. -/
theorem flushed_eq (c : Dev nD) (hr : ∀ e : Fin 1601536, srcVal V c e < 100000) (t : Fin cfg0.N)
    (hf : (cfg0.win 3).flush t = true) :
    (dat0 V c).flushed 3 t = ((cfg0.win 3).blk t).view.read (Elt Ideal) (msgArr V c) := by
  have hN : cfg0.N = 39100 := N_0
  have ht := t.isLt
  have h99 : t.val % 100 = 99 := (flushIff0 t).mp hf
  show (cfg0.win 3).cut (grid0.coords t) ((dat0 V c).after 3 t) = _
  rw [after0_3]
  funext y
  rw [View.read_apply]
  have hy0 : (y 0).val < 4096 := (y 0).isLt
  have hy1 : (y 1).val < 128 := (y 1).isLt
  have hx : ((cfg0.win 3).xinj (grid0.coords t) y : S4096x128.Idx) = ix2 (⟨(y 0).val, hy0⟩ : Fin 4096) (⟨(y 1).val, hy1⟩ : Fin 128) :=
    funext fun a => Fin.ext (by match a with | ⟨0, _⟩ => rfl | ⟨1, _⟩ => rfl)
  have hemb : (((cfg0.win 3).blk t).view.emb y : S1601536x128.Idx)
      = ix2 (⟨4096 * (t.val / 100) + (y 0).val, by omega⟩ : Fin 1601536) (⟨(y 1).val, hy1⟩ : Fin 128) := by
    funext a
    apply Fin.ext
    match a with
    | ⟨0, _⟩ =>
      show win0_3.index t (0 : Fin 2) * 4096 + 1 * (y 0).val = 4096 * (t.val / 100) + (y 0).val
      rw [idx3_0 t]
      omega
    | ⟨1, _⟩ =>
      show win0_3.index t (1 : Fin 2) * 128 + 1 * (y 1).val = (y 1).val
      rw [idx3_1 t]
      omega
  show (scrAt0 V c t.val t.isLt : FVec Ideal S4096x128 .f32) ((cfg0.win 3).xinj (grid0.coords t) y)
    = msgArr V c (((cfg0.win 3).blk t).view.emb y)
  rw [hx, hemb]
  refine (acc_inv V c hr t.val t.isLt ⟨(y 0).val, hy0⟩ ⟨(y 1).val, hy1⟩ ⟨4096 * (t.val / 100) + (y 0).val, by omega⟩ rfl).trans ?_
  refine if_pos ?_
  have := hr ⟨4096 * (t.val / 100) + (y 0).val, by omega⟩
  omega

/-- Every entry of the message array lies in the block of the last point of its edge tile. -/
theorem cover (i : S1601536x128.Idx) :
    ∃ t : Fin cfg0.N, (cfg0.win 3).flush t = true ∧ i ∈ ((cfg0.win 3).blk t).view.set := by
  have hN : cfg0.N = 39100 := N_0
  have h0 : (i 0).val < 1601536 := (i 0).isLt
  have h1 : (i 1).val < 128 := (i 1).isLt
  have hlt : 100 * ((i 0).val / 4096) + 99 < cfg0.N := by omega
  refine ⟨⟨100 * ((i 0).val / 4096) + 99, hlt⟩, (flushIff0 _).mpr ?_, ?_⟩
  · show (100 * ((i 0).val / 4096) + 99) % 100 = 99
    omega
  · show i ∈ ((View.whole main_v3).slice (win0_3.rect ⟨100 * ((i 0).val / 4096) + 99, hlt⟩)).set
    rw [View.set_slice_whole, Rect.mem_set_unit]
    intro a
    match a with
    | ⟨0, _⟩ =>
      show win0_3.index ⟨100 * ((i 0).val / 4096) + 99, hlt⟩ (0 : Fin 2) * 4096 ≤ (i 0).val
        ∧ (i 0).val < win0_3.index ⟨100 * ((i 0).val / 4096) + 99, hlt⟩ (0 : Fin 2) * 4096 + 4096
      rw [idx3_0]
      show (100 * ((i 0).val / 4096) + 99) / 100 * 4096 ≤ (i 0).val
        ∧ (i 0).val < (100 * ((i 0).val / 4096) + 99) / 100 * 4096 + 4096
      omega
    | ⟨1, _⟩ =>
      show win0_3.index ⟨100 * ((i 0).val / 4096) + 99, hlt⟩ (1 : Fin 2) * 128 ≤ (i 1).val
        ∧ (i 1).val < win0_3.index ⟨100 * ((i 0).val / 4096) + 99, hlt⟩ (1 : Fin 2) * 128 + 128
      rw [idx3_1]
      omega

/-! ## The array after the call -/

/-- After the call the message array holds the messages. -/
theorem gather_msgs (c : Dev nD) (hr : ∀ e : Fin 1601536, srcVal V c e < 100000) :
    (dat0 V c).arrAt 3 cfg0.N = msgArr V c :=
  (dat0 V c).arrAt_eq_of_cover 3 (msgArr V c) (fun t hf => flushed_eq V c hr t hf) cover

/-- The same with the message written out: row `e` of the message array is the row of the node table (`tblArr`, the
    table argument) that the padded source word (`srcArr`) of edge `e` names, times the padded weight (`wArr`) of
    edge `e`. -/
theorem gather_value (c : Dev nD) (hr : ∀ e : Fin 1601536, (srcArr V c (ix1 e)).toNat < 100000) :
    (dat0 V c).arrAt 3 cfg0.N
      = fun y : S1601536x128.Idx =>
          tblArr V c (ix2 (Cert.Spec.rowOf (srcArr V c (ix1 (y 0)))) (y 1)) * wArr V c (ix1 (y 0)) :=
  gather_msgs V c hr

end Cert.KernelIdeal.Gather

end
-- ==== Proof.KI.ScatterPayload.lean ====
/-
  The scatter-and-project call's three computed values, each read at an entry, over the extended reals.

  The accumulator's reset value is zero at every entry. The accumulator's update at row `p` and feature `k` is the
  carried entry plus the sum, over the 4096 edges `r` of the current tile, of the indicator that the row's node word
  equals the edge's destination word, times the edge's message at `k`. The indicator is the comparison's bit, widened
  and read as a number: 1 where the two words are equal and 0 elsewhere. The changes of float format are the identity
  on the extended reals, and the product of the indicator matrix with the message tile into a zero accumulator is the
  plain sum over the contraction index. The node word of row `p` in node tile `a` is the word of `1000 a + p`:
  taking a number's word commutes with sums and products, so no bound on `a` is needed. The output block at row `p`
  and column `j` is the sum over `k` of the accumulator at `(p, k)` times the weight block at `(k, j)`.
-/
import proofs.«416147_j79207786873559_1_alg».proof.Proof.Gen.KernelIdeal.Skeleton
import proofs.«416147_j79207786873559_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Scatter

open Idealize.ShloMosaic Idealize.ShloMosaic.ValueIdx
open Cert Cert.KernelIdeal Cert.KernelIdeal.Gen

variable {α : Type}

/-! ## A column spread over many columns -/

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The indicator and the node word -/

/-- The comparison of two words, widened and read as a number at the ideal values: 1 where they are equal, else 0. -/
theorem onehot_word (x y : BitVec 32) :
    FloatOps.sitofp (F := Ideal) .f32 ((IntOp.cmpi .eq x y).setWidth 32) = if x = y then (1 : EReal) else 0 := by
  show ((((BitVec.ofBool (x == y)).setWidth 32).toInt : ℝ) : EReal) = _
  by_cases h : x = y
  · rw [if_pos h, show (x == y) = true from beq_iff_eq.mpr h,
      show ((BitVec.ofBool true).setWidth 32).toInt = 1 from by decide]
    norm_num
  · rw [if_neg h, show (x == y) = false from beq_eq_false_iff_ne.mpr h,
      show ((BitVec.ofBool false).setWidth 32).toInt = 0 from by decide]
    norm_num

/-- The word of `1000 a + p`: the word of `a` times the word of 1000, plus the word of `p`. -/
theorem node_word (a p : ℕ) :
    IntOp.addi (IntOp.muli (BitVec.ofNat 32 a) 1000#32) (BitVec.ofNat 32 p) = BitVec.ofNat 32 (1000 * a + p) := by
  show BitVec.ofNat 32 a * 1000#32 + BitVec.ofNat 32 p = _
  rw [BitVec.ofNat_add, BitVec.ofNat_mul, BitVec.mul_comm]

/-- The node words of node tile `a`: the column `1000 a + p` of words, spread over the 4096 edges of a tile. -/
abbrev nodeIds (a : ℕ) : IVec S1000x4096 32 :=
  broadcastTo S1000x4096
    (addi (broadcast S1000x1 (Scalar.muli (BitVec.ofNat 32 a) 1000#32)) (iota .tc S1000x1 32 [0] iota_S1000x1_d0_w32))
    broadcasts_S1000x1_S1000x4096

/-- The destination words of a tile, laid as one row and spread over the 1000 rows. -/
abbrev dstRow (v7 : IVec S4096 32) : IVec S1000x4096 32 :=
  broadcastTo S1000x4096 (shapeCast S1x4096 v7 shapeCasts_S4096_S1x4096) broadcasts_S1x4096_S1000x4096

/-- At `(p, r)` the node words read the word of `1000 a + p`. -/
theorem nodeIds_apply (a : ℕ) (p : Fin 1000) (r : Fin 4096) :
    nodeIds a (ix2 p r) = BitVec.ofNat 32 (1000 * a + p.val) := by
  refine (broadcastTo_a1_ab_apply (a := 1000) (b := 4096) _ broadcasts_S1000x1_S1000x4096 p r).trans ?_
  refine Eq.trans ?_ (node_word a p.val)
  exact congrArg (IntOp.addi (IntOp.muli (BitVec.ofNat 32 a) 1000#32))
    (iota_single_apply .tc S1000x1 32 _ iota_S1000x1_d0_w32 (ix2 p (0 : Fin 1)))

/-- At `(p, r)` the destination row reads edge `r`'s word. -/
theorem dstRow_apply (v7 : IVec S4096 32) (p : Fin 1000) (r : Fin 4096) : dstRow v7 (ix2 p r) = v7 (ix1 r) :=
  (broadcastTo_1b_ab_apply (a := 1000) (b := 4096) _ broadcasts_S1x4096_S1000x4096 p r).trans
    (shapeCast_a_1a_apply (a := 4096) v7 shapeCasts_S4096_S1x4096 (0 : Fin 1) r)

/-! ## The three computed values -/

/-- The reset value is zero at every entry. -/
theorem pay1_apply (y : S1000x128.Idx) : (k1_pay1 (F := Ideal)) y = 0 := by
  unfold k1_pay1
  rw [shapeCast_self]
  exact Ideal.ofBits_zero_f32

/-- The accumulator's update at `(p, k)`: the carried entry plus the sum over the tile's edges of the indicator that
    the node word of row `p` is the edge's destination word, times the edge's message at `k`. -/
theorem pay2_apply (i : grid1.Coords) (v7 : Vec Ideal S4096 .i32) (v16 : Vec Ideal S4096x128 .f32)
    (v20 : Vec Ideal S1000x128 .f32) (p : Fin 1000) (k : Fin 128) :
    k1_pay2 i v7 v16 v20 (ix2 p k)
      = v20 (ix2 p k)
        + ∑ r : Fin 4096, (if BitVec.ofNat 32 (1000 * (i 0).val + p.val) = v7 (ix1 r) then (1 : EReal) else 0) * v16 (ix2 r k) := by
  unfold k1_pay2
  dsimp only
  simp only [shapeCast_self]
  rw [addf_apply]
  refine congrArg (v20 (ix2 p k) + ·) ?_
  refine (LibPlainDot.matmul_zero_apply (M := 1000) (K := 4096) (N := 128)
    dot_S1000x4096_S4096x128_S1000x128_1_0_0_1_n_n rfl rfl rfl rfl rfl rfl none _ _ p k).trans ?_
  refine Finset.sum_congr rfl fun r _ => ?_
  refine congrArg (· * v16 (ix2 r k)) ?_
  show FloatOps.sitofp (F := Ideal) .f32
      ((IntOp.cmpi .eq (nodeIds (i 0).val (ix2 p r)) (dstRow v7 (ix2 p r))).setWidth 32) = _
  rw [onehot_word, nodeIds_apply, dstRow_apply]

/-- The output block at `(p, j)`: the sum over `k` of the accumulator at `(p, k)` times the weight block at `(k, j)`. -/
theorem pay3_apply (v28 : Vec Ideal S1000x128 .f32) (v30 : Vec Ideal S128x128 .f32) (p : Fin 1000) (j : Fin 128) :
    k1_pay3 v28 v30 (ix2 p j) = ∑ k : Fin 128, v28 (ix2 p k) * v30 (ix2 k j) := by
  unfold k1_pay3
  simp only [shapeCast_self]
  refine (LibPlainDot.matmul_zero_apply (M := 1000) (K := 128) (N := 128)
    dot_S1000x128_S128x128_S1000x128_1_0_0_1_n_n rfl rfl rfl rfl rfl rfl none _ _ p j).trans ?_
  rfl

end Cert.KernelIdeal.Scatter

end
-- ==== Proof.KI.ScatterValue.lean ====
/-
  What the scatter-and-project call leaves in its output array, as one function of the arrays it reads.

  Row `i`, column `j` of the output: the sum over the features `k` of (the sum of the messages `(e, k)` of the padded
  edges `e` whose destination word is the word of `i`) times the transposed weight matrix at `(k, j)`.

  Point `t` of the grid is node tile `t / 391` and edge tile `t % 391`. The blocks the body reads at `t` are the edges
  `4096 (t % 391) + r` of the destination words and of the messages, and the whole weight matrix. Each point adds to the
  accumulator, at row `p` and feature `k`, the messages of its tile's edges whose destination word is the word of node
  `1000 (t / 391) + p`. The accumulator starts from zero at edge tile 0 and is carried along a node tile, so after edge
  tile 390 it holds the sum over all 391 · 4096 = 1601536 padded edges; the sum over tiles and edges within a tile is
  the sum over the edges `e = 4096 s + r`. At edge tile 390 the output block is the accumulator times the weight
  matrix, and it is written back there and nowhere else. The output blocks of the 100 points with edge tile 390 tile
  the array: row `i` lies in the block of node tile `i / 1000`. Nothing here needs a finite value: on the extended
  reals `0 · x = 0` and `1 · x = x` for every `x`.
-/
import proofs.«416147_j79207786873559_1_alg».proof.Proof.KI.ScatterSchedule
import proofs.«416147_j79207786873559_1_alg».proof.Proof.KI.ScatterPayload
import Idealize.ShloMosaic.Lib.ValueIdx
import Idealize.ShloMosaic.Lib.Pipeline.Value
import Mathlib.Algebra.BigOperators.Fin
import Mathlib.Algebra.BigOperators.Group.Finset.Defs
import Mathlib.Data.Fintype.BigOperators
import Mathlib.Logic.Equiv.Fin.Basic

set_option maxRecDepth 16384

noncomputable section

open scoped BigOperators

namespace Cert.KernelIdeal.Scatter

open Idealize.ShloMosaic Idealize.ShloMosaic.TcCoe Idealize.ShloMosaic.ValueIdx
open Idealize.ShloMosaic.Pipeline (Dat Cfg Window)
open Cert Cert.KernelIdeal Cert.KernelIdeal.Gen

/- What every unscoped buffer of core `c` holds when the call is entered, at the ideal values. -/
variable (V : (c : Dev nD) → (b : Ref sig .tc) → Buf (Elt Ideal) ((c : Thread nD τ).loc b))

/-! ## The arrays the call reads, and its result -/

/-- The padded destination word of edge `e`. -/
abbrev dstOf (c : Dev nD) (e : Fin 1601536) : BitVec 32 := V c main_v1 (ix1 e)
/-- The padded message of edge `e` at feature `k`. -/
abbrev msgOf (c : Dev nD) (e : Fin 1601536) (k : Fin 128) : EReal := V c main_v3 (ix2 e k)
/-- The transposed weight matrix at `(k, j)`. -/
abbrev wtOf (c : Dev nD) (k j : Fin 128) : EReal := V c main_v4 (ix2 k j)

/-- The call's result: row `y 0`, column `y 1`. -/
def scatterOut (c : Dev nD) : S100000x128.Idx → EReal := fun y =>
  ∑ k : Fin 128, (∑ e : Fin 1601536, if dstOf V c e = BitVec.ofNat 32 (y 0).val then msgOf V c e k else 0) * wtOf V c k (y 1)

/-- Edge `r` of the edge tile of point `n`, as a padded edge: `4096 (n % 391) + r`. -/
def edgeOf (n : ℕ) (r : Fin 4096) : Fin 1601536 :=
  ⟨4096 * (n % 391) + r.val, by have := Nat.mod_lt n (show 0 < 391 by decide); have := r.isLt; omega⟩

/-- What point `n` adds to the accumulator at `y`: the messages, at feature `y 1`, of its tile's edges whose
    destination word is the word of node `1000 (n / 391) + y 0`. -/
def addend (c : Dev nD) (n : ℕ) : S1000x128.Idx → EReal := fun y =>
  ∑ r : Fin 4096, (if BitVec.ofNat 32 (1000 * (n / 391) + (y 0).val) = dstOf V c (edgeOf n r) then (1 : EReal) else 0)
    * msgOf V c (edgeOf n r) (y 1)

/-! ## Sums -/

/-- A sum over 391 tiles of 4096 entries each is the sum over the 1601536 entries `4096 s + r`. -/
theorem sum_tiles {M : Type*} [AddCommMonoid M] (f : Fin 1601536 → M) :
    ∑ s : Fin 391, ∑ r : Fin 4096, f ⟨4096 * s.val + r.val, by have := s.isLt; have := r.isLt; omega⟩ = ∑ e : Fin 1601536, f e := by
  rw [← Fintype.sum_prod_type']
  refine Fintype.sum_equiv (finProdFinEquiv (m := 391) (n := 4096)) _ _ fun x => ?_
  refine congrArg f (Fin.ext ?_)
  show 4096 * x.1.val + x.2.val = x.2.val + 4096 * x.1.val
  omega

/-- An indicator times a value is the value where the indicator's condition holds and zero elsewhere. -/
theorem ind_mul (P Q : Prop) [Decidable P] [Decidable Q] (h : P ↔ Q) (x : EReal) :
    (if P then (1 : EReal) else 0) * x = if Q then x else 0 := by
  by_cases hp : P
  · rw [if_pos hp, if_pos (h.mp hp), one_mul]
  · rw [if_neg hp, if_neg (fun hq => hp (h.mpr hq)), zero_mul]

/-! ## The block indices at a point -/

/-- A number below `2 ^ 32` is the value of its word. -/
theorem toNat_word (n : ℕ) (h : n < 4294967296) : (BitVec.ofNat 32 n).toNat = n := by
  rw [BitVec.toNat_ofNat]
  exact Nat.mod_eq_of_lt (by omega)

/-- The destination window's block index: the edge tile. -/
theorem blockIdx1_0 (t : Fin cfg1.N) : win1_0.index t (0 : Fin 1) = t.val % 391 := by
  have hm := Nat.mod_lt t.val (show 0 < 391 by decide)
  show (BitVec.ofNat 32 (grid1.coords t 1).val).toNat = _
  rw [coords1_1, toNat_word (t.val % 391) (by omega)]

/-- The message window's block index: the edge tile, then 0. -/
theorem blockIdx1_1 (t : Fin cfg1.N) : win1_1.index t (0 : Fin 2) = t.val % 391 ∧ win1_1.index t (1 : Fin 2) = 0 := by
  have hm := Nat.mod_lt t.val (show 0 < 391 by decide)
  refine ⟨?_, rfl⟩
  show (BitVec.ofNat 32 (grid1.coords t 1).val).toNat = _
  rw [coords1_1, toNat_word (t.val % 391) (by omega)]

/-- The weight window's block index: 0 on both axes. -/
theorem blockIdx1_2 (t : Fin cfg1.N) : win1_2.index t (0 : Fin 2) = 0 ∧ win1_2.index t (1 : Fin 2) = 0 := ⟨rfl, rfl⟩

/-- The output window's block index: the node tile, then 0. -/
theorem blockIdx1_3 (t : Fin cfg1.N) : win1_3.index t (0 : Fin 2) = t.val / 391 ∧ win1_3.index t (1 : Fin 2) = 0 := by
  have hN : cfg1.N = 39100 := N_1
  have ht := t.isLt
  refine ⟨?_, rfl⟩
  show (BitVec.ofNat 32 (grid1.coords t 0).val).toNat = _
  rw [coords1_0, toNat_word (t.val / 391) (by omega)]

/-! ## The input blocks, read off their arrays -/

/-- The destination block at point `t`, edge `r`: the padded destination word of edge `4096 (t % 391) + r`. -/
theorem iblk1_0_apply (c : Dev nD) (t : Fin cfg1.N) (r : Fin 4096) :
    (iblk1 V c 0 t : Vec Ideal S4096 .i32) (ix1 r) = dstOf V c (edgeOf t.val r) := by
  show V c main_v1 (((cfg1.win 0).blk t).view.emb (ix1 r)) = V c main_v1 (ix1 (edgeOf t.val r))
  refine congrArg (V c main_v1) (funext fun a => Fin.ext ?_)
  match a with
  | ⟨0, _⟩ =>
    show win1_0.index t (0 : Fin 1) * 4096 + 1 * r.val = 4096 * (t.val % 391) + r.val
    rw [blockIdx1_0]; omega

/-- The message block at point `t`, edge `r`, feature `k`: the padded message of edge `4096 (t % 391) + r` at `k`. -/
theorem iblk1_1_apply (c : Dev nD) (t : Fin cfg1.N) (r : Fin 4096) (k : Fin 128) :
    (iblk1 V c 1 t : Vec Ideal S4096x128 .f32) (ix2 r k) = msgOf V c (edgeOf t.val r) k := by
  show V c main_v3 (((cfg1.win 1).blk t).view.emb (ix2 r k)) = V c main_v3 (ix2 (edgeOf t.val r) k)
  refine congrArg (V c main_v3) (funext fun a => Fin.ext ?_)
  match a with
  | ⟨0, _⟩ =>
    show win1_1.index t (0 : Fin 2) * 4096 + 1 * r.val = 4096 * (t.val % 391) + r.val
    rw [(blockIdx1_1 t).1]; omega
  | ⟨1, _⟩ =>
    show win1_1.index t (1 : Fin 2) * 128 + 1 * k.val = k.val
    rw [(blockIdx1_1 t).2]; omega

/-- The weight block at any point is the whole transposed weight matrix. -/
theorem iblk1_2_apply (c : Dev nD) (t : Fin cfg1.N) (k j : Fin 128) :
    (iblk1 V c 2 t : Vec Ideal S128x128 .f32) (ix2 k j) = wtOf V c k j := by
  show V c main_v4 (((cfg1.win 2).blk t).view.emb (ix2 k j)) = V c main_v4 (ix2 k j)
  refine congrArg (V c main_v4) (funext fun a => Fin.ext ?_)
  match a with
  | ⟨0, _⟩ =>
    show win1_2.index t (0 : Fin 2) * 128 + 1 * k.val = k.val
    rw [(blockIdx1_2 t).1]; omega
  | ⟨1, _⟩ =>
    show win1_2.index t (1 : Fin 2) * 128 + 1 * j.val = j.val
    rw [(blockIdx1_2 t).2]; omega

/-! ## The accumulator along a node tile -/

/-- Point `n`'s update of an accumulator: the body's update on the blocks of point `n`. -/
def stepAt (c : Dev nD) (n : ℕ) (h : n < cfg1.N) (acc : S1000x128.Idx → EReal) : S1000x128.Idx → EReal :=
  k1_pay2 (grid1.coords ⟨n, h⟩) (iblk1 V c 0 ⟨n, h⟩) (iblk1 V c 1 ⟨n, h⟩) acc

/-- What point `n` leaves where the accumulator is cleared first: its update of zeros. -/
def resetAt (c : Dev nD) (n : ℕ) (h : n < cfg1.N) : S1000x128.Idx → EReal :=
  stepAt V c n h (k1_pay1 (F := Ideal))

/-- One point's update of an accumulator `acc`, at an entry: `acc` plus the point's addend. -/
theorem step_apply (c : Dev nD) (n : ℕ) (h : n < cfg1.N) (acc : S1000x128.Idx → EReal) (y : S1000x128.Idx) :
    stepAt V c n h acc y = acc y + addend V c n y := by
  obtain ⟨p, k, rfl⟩ : ∃ (p : Fin 1000) (k : Fin 128), y = ix2 p k := ⟨y 0, y 1, eq_ix2 y⟩
  refine (pay2_apply (grid1.coords ⟨n, h⟩) (iblk1 V c 0 ⟨n, h⟩) (iblk1 V c 1 ⟨n, h⟩) acc p k).trans ?_
  refine congrArg (acc (ix2 p k) + ·) ?_
  refine Finset.sum_congr rfl fun r _ => ?_
  refine congrArg₂ (· * ·) (if_congr ?_ rfl rfl) (iblk1_1_apply V c ⟨n, h⟩ r k)
  exact Eq.to_iff (congrArg₂ (· = ·)
    (congrArg (fun q => BitVec.ofNat 32 (1000 * q + p.val)) (coords1_0 ⟨n, h⟩))
    (iblk1_0_apply V c ⟨n, h⟩ r))

/-- The reset value at an entry: zero plus the point's addend. -/
theorem reset_apply (c : Dev nD) (n : ℕ) (h : n < cfg1.N) (y : S1000x128.Idx) :
    resetAt V c n h y = 0 + addend V c n y :=
  (step_apply V c n h (k1_pay1 (F := Ideal)) y).trans (congrArg (· + addend V c n y) (pay1_apply y))

/-- The accumulator after point `t`, at an entry: the addends of the points of `t`'s node tile up to `t`. -/
theorem scrAt1_apply (c : Dev nD) (t : Fin cfg1.N) (y : S1000x128.Idx) :
    scrAt1 V c t.val t.isLt y
      = 0 + ∑ s ∈ Finset.range (t.val % 391 + 1), addend V c (391 * (t.val / 391) + s) y := by
  have hb : 391 * (t.val / 391) + t.val % 391 < cfg1.N := by rw [Nat.div_add_mod]; exact t.isLt
  have hm := Nat.mod_lt t.val (show 0 < 391 by decide)
  have e1 := Pipeline.eq_accAt_of_mod (α := S1000x128.Idx → EReal) (scrAt1 V c) 391 (resetAt V c) (stepAt V c)
    (fun n h e => scrAt1_first V c ⟨n, h⟩ e)
    (fun n h e => scrAt1_next V c ⟨n + 1, h⟩ e)
    (by decide) t.val t.isLt hb
  refine (congrFun e1 y).trans ?_
  exact Pipeline.accAt_add_apply (ι := S1000x128.Idx) (β := EReal) (resetAt V c) (stepAt V c) (fun _ => 0) (addend V c)
    (391 * (t.val / 391)) 390
    (fun h i => reset_apply V c _ h i)
    (fun n h acc i _ _ => step_apply V c n h acc i)
    (t.val % 391) (by omega) hb y

/-- The addends of a whole node tile `q`, at `(p, k)`: the messages at `k` of all the padded edges whose destination
    word is the word of node `1000 q + p`. -/
theorem sum_addend (c : Dev nD) (q : ℕ) (p : Fin 1000) (k : Fin 128) :
    ∑ s ∈ Finset.range 391, addend V c (391 * q + s) (ix2 p k)
      = ∑ e : Fin 1601536, (if BitVec.ofNat 32 (1000 * q + p.val) = dstOf V c e then (1 : EReal) else 0) * msgOf V c e k := by
  refine Eq.trans (Finset.sum_range _) (Eq.trans ?_
    (sum_tiles (fun e => (if BitVec.ofNat 32 (1000 * q + p.val) = dstOf V c e then (1 : EReal) else 0) * msgOf V c e k)))
  refine Finset.sum_congr rfl fun s _ => Finset.sum_congr rfl fun r _ => ?_
  have hs := s.isLt
  have hq : (391 * q + s.val) / 391 = q := by omega
  have he : edgeOf (391 * q + s.val) r = ⟨4096 * s.val + r.val, by have := r.isLt; omega⟩ :=
    Fin.ext (by show 4096 * ((391 * q + s.val) % 391) + r.val = 4096 * s.val + r.val; omega)
  show (if BitVec.ofNat 32 (1000 * ((391 * q + s.val) / 391) + p.val) = dstOf V c (edgeOf (391 * q + s.val) r) then (1 : EReal) else 0)
      * msgOf V c (edgeOf (391 * q + s.val) r) k = _
  rw [hq, he]

/-! ## The output block at a point that writes it back -/

/-- At a point of edge tile 390 the output block, at local row `p` and column `j`, is the call's result at the row
    `1000 (t / 391) + p`. -/
theorem block_value (c : Dev nD) (t : Fin cfg1.N) (h390 : t.val % 391 = 390) (p : Fin 1000) (j : Fin 128)
    (a : Fin 100000) (ha : a.val = 1000 * (t.val / 391) + p.val) :
    k1_pay3 (scrAt1 V c t.val t.isLt) (iblk1 V c 2 t) (ix2 p j) = scatterOut V c (ix2 a j) := by
  refine (pay3_apply (scrAt1 V c t.val t.isLt) (iblk1 V c 2 t) p j).trans ?_
  show _ = ∑ k : Fin 128, (∑ e : Fin 1601536, if dstOf V c e = BitVec.ofNat 32 a.val then msgOf V c e k else 0) * wtOf V c k j
  refine Finset.sum_congr rfl fun k _ => ?_
  refine congrArg₂ (· * ·) ?_ (iblk1_2_apply V c t k j)
  refine (scrAt1_apply V c t (ix2 p k)).trans ?_
  rw [h390, zero_add, ha]
  refine (sum_addend V c (t.val / 391) p k).trans ?_
  exact Finset.sum_congr rfl fun e _ => ind_mul _ _ eq_comm (msgOf V c e k)

/-- The same, for an entry of the block and an entry of the array given by their coordinates: the array's row is the
    block index times 1000 plus the block's row, the column is the block's. -/
theorem out_entry (c : Dev nD) (t : Fin cfg1.N) (h390 : t.val % 391 = 390) (y' : S1000x128.Idx) (z : S100000x128.Idx)
    (h0 : (z 0).val = win1_3.index t (0 : Fin 2) * 1000 + 1 * (y' 0).val)
    (h1 : (z 1).val = win1_3.index t (1 : Fin 2) * 128 + 1 * (y' 1).val) :
    k1_pay3 (scrAt1 V c t.val t.isLt) (iblk1 V c 2 t) y' = scatterOut V c z := by
  obtain ⟨e0, e1⟩ := blockIdx1_3 t
  rw [e0] at h0
  rw [e1] at h1
  obtain ⟨p, j, rfl⟩ : ∃ (p : Fin 1000) (j : Fin 128), y' = ix2 p j := ⟨y' 0, y' 1, eq_ix2 y'⟩
  obtain ⟨a, b, rfl⟩ : ∃ (a : Fin 100000) (b : Fin 128), z = ix2 a b := ⟨z 0, z 1, eq_ix2 z⟩
  have ha : a.val = 1000 * (t.val / 391) + p.val := by
    have : a.val = t.val / 391 * 1000 + 1 * p.val := h0
    omega
  have hb : b = j := Fin.ext (by have : b.val = 0 * 128 + 1 * j.val := h1; omega)
  subst hb
  exact block_value V c t h390 p b a ha

/-- A block's contents `X` are the output window's block, at point `t`, of array contents `G` once they agree entry by
    entry: the array's row is the block index times 1000 plus the block's row, the column is the block's. This holds
    of any `X` and `G`. -/
theorem cut_eq_read (t : Fin cfg1.N) (X : S1000x128.Idx → EReal) (G : S100000x128.Idx → EReal)
    (h : ∀ (y' : S1000x128.Idx) (z : S100000x128.Idx),
      (z 0).val = win1_3.index t (0 : Fin 2) * 1000 + 1 * (y' 0).val →
      (z 1).val = win1_3.index t (1 : Fin 2) * 128 + 1 * (y' 1).val → X y' = G z) :
    (cfg1.win 3).cut (grid1.coords t) X = ((cfg1.win 3).blk t).view.read (Elt Ideal) G := by
  funext y
  exact h ((cfg1.win 3).xinj (grid1.coords t) y) (((cfg1.win 3).blk t).view.emb y) rfl rfl

/-- What a point that writes the output block back writes: its block of the call's result. -/
theorem flushed1_3 (c : Dev nD) (t : Fin cfg1.N) (hf : (cfg1.win 3).flush t = true) :
    (dat1 V c).flushed 3 t = ((cfg1.win 3).blk t).view.read (Elt Ideal) (scatterOut V c) := by
  have h390 : t.val % 391 = 390 := (flushIff1 t).mp hf
  show (cfg1.win 3).cut (grid1.coords t) ((dat1 V c).after 3 t) = _
  rw [after1_3]
  exact cut_eq_read t _ _ fun y' z h0 h1 => out_entry V c t h390 y' z h0 h1

/-! ## The blocks tile the array -/

/-- Every entry of the output array lies in the block of the point of its node tile and edge tile 390. -/
theorem cover1_3 (c : Dev nD) (i : S100000x128.Idx) :
    ∃ t : Fin cfg1.N, (cfg1.win 3).flush t = true ∧ i ∈ ((cfg1.win 3).blk t).view.set := by
  have hN : cfg1.N = 39100 := N_1
  have hi0 : (i 0).val < 100000 := (i 0).isLt
  have hi1 : (i 1).val < 128 := (i 1).isLt
  obtain ⟨t, htv⟩ : ∃ t : Fin cfg1.N, t.val = 391 * ((i 0).val / 1000) + 390 := ⟨⟨_, by omega⟩, rfl⟩
  refine ⟨t, (flushIff1 t).mpr (by omega), ?_⟩
  obtain ⟨e0, e1⟩ := blockIdx1_3 t
  show i ∈ ((View.whole main_v5).slice (win1_3.rect t)).set
  rw [View.set_slice_whole, Rect.mem_set_unit]
  intro a
  match a with
  | ⟨0, _⟩ =>
    show win1_3.index t (0 : Fin 2) * 1000 ≤ (i 0).val ∧ (i 0).val < win1_3.index t (0 : Fin 2) * 1000 + 1000
    rw [e0]; omega
  | ⟨1, _⟩ =>
    show win1_3.index t (1 : Fin 2) * 128 ≤ (i 1).val ∧ (i 1).val < win1_3.index t (1 : Fin 2) * 128 + 128
    rw [e1]; omega

/-! ## The output array after the call -/

/-- THE OUTPUT ARRAY after the call: row `i`, column `j` is the sum over the features `k` of (the sum of the messages
    `(e, k)` of the padded edges whose destination word is the word of `i`) times the transposed weights at `(k, j)`. -/
theorem scatter_value (c : Dev nD) :
    (dat1 (F := Ideal) V c).arrAt 3 cfg1.N
      = fun y : S100000x128.Idx => ∑ k : Fin 128,
          (∑ e : Fin 1601536, if dstOf V c e = BitVec.ofNat 32 (y 0).val then msgOf V c e k else 0) * wtOf V c k (y 1) :=
  (dat1 V c).arrAt_eq_of_cover 3 (scatterOut V c) (fun t hf => flushed1_3 V c t hf) (fun i => cover1_3 c i)

end Cert.KernelIdeal.Scatter

end
-- ==== Proof.PadSum.lean ====
/-
  The padded sums are the unpadded ones.

  The kernel works on the edge arrays padded with zeros from 1600000 to 1601536 = 391 · 4096 entries. A padded edge
  has weight 0, so its message `row · 0` is 0 whatever row its (zero) source word names, and it adds nothing to the
  node its (zero) destination word names. What is left of the sum over the padded edges is the sum over the edges;
  a destination word equals the word of node `i < 100000` exactly when, read as a signed integer, it is `i`; and the
  transposed weight matrix at `(k, j)` is the weight matrix at `(j, k)`.
-/
import proofs.«416147_j79207786873559_1_alg».proof.Proof.Spec

noncomputable section

open scoped BigOperators

namespace Cert.Spec

open Idealize.ShloMosaic Idealize.ShloMosaic.ValueIdx

/-- A 32-bit word is the word of a number below 100000 exactly when its signed value is that number. -/
theorem word_eq_iff (v : BitVec 32) (i : Nat) (hi : i < 100000) : v = BitVec.ofNat 32 i ↔ v.toInt = (i : Int) := by
  have hv := v.isLt
  constructor
  · intro h
    subst h
    rw [BitVec.toInt_eq_toNat_cond, BitVec.toNat_ofNat]
    have : i % 2 ^ 32 = i := Nat.mod_eq_of_lt (by omega)
    rw [this, if_pos (by omega)]
  · intro h
    apply BitVec.eq_of_toNat_eq
    rw [BitVec.toNat_ofNat, Nat.mod_eq_of_lt (by omega)]
    rw [BitVec.toInt_eq_toNat_cond] at h
    split at h <;> omega

/-- An edge below 1600000 as a padded edge. -/
abbrev padIdx (e : Fin 1600000) : Fin 1601536 := ⟨e.val, by have := e.isLt; omega⟩

/-- A sum over the 1601536 padded edges of a function that vanishes on the padding is the sum over the edges. -/
theorem sum_padded (f : Fin 1601536 → EReal) (hz : ∀ e : Fin 1601536, 1600000 ≤ e.val → f e = 0) :
    ∑ e : Fin 1601536, f e = ∑ e : Fin 1600000, f (padIdx e) := by
  have h := Fin.sum_univ_add (a := 1600000) (b := 1536) (f := f)
  rw [h]
  have h2 : ∑ i : Fin 1536, f (Fin.natAdd 1600000 i) = 0 :=
    Finset.sum_eq_zero fun i _ => hz _ (by simp [Fin.natAdd])
  rw [h2, add_zero]
  exact Finset.sum_congr rfl fun e _ => congrArg f (Fin.ext rfl)

/-- THE PADDED FORM IS THE LAYER. Given padded edge arrays that agree with the edge arrays below 1600000 and whose
    weights vanish on the padding, and the transposed weight matrix, the kernel's closed form — per feature the sum
    over the padded edges whose destination word is the word of node `i` of the named row times the padded weight,
    times the transposed matrix — is `out`. -/
theorem padded_eq_out (ne : (⟨2, ![100000, 128]⟩ : Shape).Idx → EReal) (ew : (⟨1, ![1600000]⟩ : Shape).Idx → EReal)
    (src dst : IVec ⟨1, ![1600000]⟩ 32) (W : (⟨2, ![128, 128]⟩ : Shape).Idx → EReal)
    (srcP dstP : IVec ⟨1, ![1601536]⟩ 32) (ewP : (⟨1, ![1601536]⟩ : Shape).Idx → EReal)
    (Wt : (⟨2, ![128, 128]⟩ : Shape).Idx → EReal)
    (hs : ∀ e : Fin 1600000, srcP (ix1 (padIdx e)) = src (ix1 e))
    (hd : ∀ e : Fin 1600000, dstP (ix1 (padIdx e)) = dst (ix1 e))
    (hw : ∀ e : Fin 1600000, ewP (ix1 (padIdx e)) = ew (ix1 e))
    (hz : ∀ e : Fin 1601536, 1600000 ≤ e.val → ewP (ix1 e) = 0)
    (ht : ∀ (k j : Fin 128), Wt (ix2 k j) = W (ix2 j k))
    (i : Fin 100000) (j : Fin 128) :
    ∑ k : Fin 128, (∑ e : Fin 1601536, if dstP (ix1 e) = BitVec.ofNat 32 i.val
        then ne (ix2 (rowOf (srcP (ix1 e))) k) * ewP (ix1 e) else 0) * Wt (ix2 k j)
      = out ne ew src dst W (ix2 i j) := by
  unfold out agg msg
  refine Finset.sum_congr rfl fun k _ => ?_
  rw [ht k j]
  refine congrArg (· * W (ix2 j k)) ?_
  rw [sum_padded _ (fun e he => by rw [hz e he, mul_zero, ite_self])]
  refine Finset.sum_congr rfl fun e _ => ?_
  rw [hs e, hd e, hw e]
  by_cases h : dst (ix1 e) = BitVec.ofNat 32 i.val
  · rw [if_pos h, if_pos ((word_eq_iff _ _ i.isLt).mp h)]
  · rw [if_neg h, if_neg (fun h' => h ((word_eq_iff _ _ i.isLt).mpr h'))]

end Cert.Spec

end
-- ==== Proof.KI.Result.lean ====
/-
  The result buffer holds the layer.

  The gather call reads the source words and the weights padded with zeros to 1601536 entries and the node table as
  launched; the scatter-and-project call reads the destination words padded likewise, the gather call's output, and
  the weight matrix transposed. With every source word below 100000 the gather call's output row `e` is the named
  row of the node table times the padded weight; the scatter-and-project call's output is, per feature, the sum of
  the message rows whose destination word is the node's, times the transposed matrix; and the padded sums are the
  unpadded ones. So the result buffer ends at `Cert.Spec.out` of the five arguments.
-/
import proofs.«416147_j79207786873559_1_alg».proof.Proof.KI.Whole
import proofs.«416147_j79207786873559_1_alg».proof.Proof.KI.GatherValue
import proofs.«416147_j79207786873559_1_alg».proof.Proof.KI.ScatterValue
import proofs.«416147_j79207786873559_1_alg».proof.Proof.PadSum
import Idealize.ShloMosaic.Lib.KernelVsHost
import Idealize.ShloMosaic.Lib.ValueLayout
import Idealize.ShloMosaic.Lib.StableHlo.Run

set_option maxRecDepth 16384

noncomputable section

open scoped BigOperators

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Whole

variable (m : (ℓ : Loc nD τ sig) → Buf (Elt Ideal) ℓ)

/-! ## What the two calls read -/

/-- The padded source words: the source words, then zeros. -/
theorem in_src (c : Dev nD) :
    (E0 m c main_v0 : S1601536.Idx → BitVec 32)
      = pad S1601536 ![0] ![1536] ![0] (m ((c : Thread nD τ).loc main_arg2)) (id (constantI S_ 32 0#32 : IVec S_ 32)) pads_S1600000_S1601536_015360 h_S_ := by
  show V6 m c (Proc.devRef .tc main_v0) = _
  rw [V6_of m c main_v0 (by decide), V5_of m c main_v0 (by decide), V4_of m c main_v0 (by decide), V3_of m c main_v0 (by decide)]
  show StableHlo.after hostOps0_1 (StableHlo.after hostOps0 (V0 m c)) (Proc.devRef .tc main_v0) = _
  after_results
  rfl

/-- The padded weights: the weights, then the zero word's value. -/
theorem in_ew (c : Dev nD) :
    (E0 m c main_v2 : S1601536.Idx → EReal)
      = pad S1601536 ![0] ![1536] ![0] (m ((c : Thread nD τ).loc main_arg1)) (sitofp (F := Ideal) .f32 (constantI S_ 32 0#32 : IVec S_ 32)) pads_S1600000_S1601536_015360 h_S_ := by
  show V6 m c (Proc.devRef .tc main_v2) = _
  show StableHlo.after hostOps0_5 (StableHlo.after hostOps0_4 (V4 m c)) (Proc.devRef .tc main_v2) = _
  after_results
  rfl

/-- The node table is read as launched. -/
theorem in_ne (c : Dev nD) : E0 m c main_arg0 = m ((c : Thread nD τ).loc main_arg0) :=
  (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

/-- The padded destination words: the destination words, then zeros. -/
theorem in_dst (c : Dev nD) :
    (E2 m c main_v1 : S1601536.Idx → BitVec 32)
      = pad S1601536 ![0] ![1536] ![0] (m ((c : Thread nD τ).loc main_arg3)) (id (constantI S_ 32 0#32 : IVec S_ 32)) pads_S1600000_S1601536_015360 h_S_ := by
  show X2 m c (Proc.devRef .tc main_v1) = _
  rw [show X2 m c (Proc.devRef .tc main_v1) = X1 m c (Proc.devRef .tc main_v1) from StableHlo.after_of_writes_sub hostOps1 _ hostOps1_writes (by decide),
    X1_of_ne m c main_v1 (by decide), V6_of m c main_v1 (by decide), V5_of m c main_v1 (by decide)]
  show StableHlo.after hostOps0_3 (StableHlo.after hostOps0_2 (V2 m c)) (Proc.devRef .tc main_v1) = _
  after_results
  rfl

/-- The message array the scatter call reads is what the gather call's write-backs left. -/
theorem in_msg (c : Dev nD) : E2 m c main_v3 = (Gather.dat0 (E0 m) c).arrAt 3 cfg0.N :=
  (show X2 m c (Proc.devRef .tc main_v3) = X1 m c (Proc.devRef .tc main_v3) from
    StableHlo.after_of_writes_sub hostOps1 _ hostOps1_writes (by decide)).trans (X1_arr m c 3)

/-- The weight matrix is read transposed. -/
theorem in_wt (c : Dev nD) :
    (E2 m c main_v4 : S128x128.Idx → EReal)
      = transpose S128x128 [1, 0] (m ((c : Thread nD τ).loc main_arg4)) transposes_S128x128_S128x128_1_0 := by
  show StableHlo.after hostOps1 (X1 m c) (Proc.devRef .tc main_v4) = _
  after_results
  rw [X1_arg m c main_arg4 (by decide) (by decide) (by decide) (by decide) (by decide) (by decide) (by decide)]

/-! ## The padded arrays at an entry -/

/-- A padded word below 1600000 is the word. -/
theorem pad_lo {α : Type} (x : S1600000.Idx → α) (v : S_.Idx → α) (e : Fin 1600000) :
    pad S1601536 ![0] ![1536] ![0] x v pads_S1600000_S1601536_015360 h_S_ (ix1 (Cert.Spec.padIdx e)) = x (ix1 e) :=
  pad_apply_of_inside _ _ _ x v _ _ _ (ix1 e) fun a => by
    match a with
    | ⟨0, _⟩ => show e.val = 0 + e.val * (0 + 1); omega

/-- A padded word from 1600000 on is the padding value. -/
theorem pad_hi {α : Type} (x : S1600000.Idx → α) (v : S_.Idx → α) (e : Fin 1601536) (he : 1600000 ≤ e.val) :
    pad S1601536 ![0] ![1536] ![0] x v pads_S1600000_S1601536_015360 h_S_ (ix1 e) = v ix0 := by
  rw [pad_apply_of_not_inside _ _ _ x v _ _ (ix1 e) 0 (by
    show ¬(0 ≤ e.val ∧ (e.val - 0) % (0 + 1) = 0 ∧ (e.val - 0) / (0 + 1) < 1600000)
    omega)]
  exact congrArg v (eq_ix0 _)

/-! ## The result -/

/-- THE RESULT. With every source word of core `c` below 100000, what the scatter-and-project call's write-backs
    leave in the result buffer is the layer of the five launch arrays. -/
theorem result_eq (c : Dev nD)
    (hsrc : ∀ e : Fin 1600000, (m ((c : Thread nD τ).loc main_arg2) (ix1 e)).toNat < 100000) :
    (Scatter.dat1 (E2 m) c).arrAt 3 cfg1.N
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4)) := by
  have hr : ∀ e : Fin 1601536, (E0 m c main_v0 (ix1 e)).toNat < 100000 := fun e => by
    rw [in_src m c]
    by_cases he : e.val < 1600000
    · have := pad_lo (m ((c : Thread nD τ).loc main_arg2)) (id (constantI S_ 32 0#32 : IVec S_ 32)) ⟨e.val, he⟩
      rw [show ix1 (Cert.Spec.padIdx ⟨e.val, he⟩) = ix1 e from rfl] at this
      rw [this]; exact hsrc _
    · rw [pad_hi _ _ e (by omega)]; show (0#32).toNat < 100000; decide
  -- the five arrays the calls read, at their literal types
  let srcP : IVec S1601536 32 := E0 m c main_v0
  let ewP : FVec Ideal S1601536 .f32 := E0 m c main_v2
  let dstP : IVec S1601536 32 := E2 m c main_v1
  let Wt : FVec Ideal S128x128 .f32 := E2 m c main_v4
  let msgA : FVec Ideal S1601536x128 .f32 := E2 m c main_v3
  let neA : FVec Ideal S100000x128 .f32 := m ((c : Thread nD τ).loc main_arg0)
  have hs : ∀ e : Fin 1600000, srcP (ix1 (Cert.Spec.padIdx e)) = m ((c : Thread nD τ).loc main_arg2) (ix1 e) := fun e => by
    show E0 m c main_v0 _ = _
    rw [in_src m c]; exact pad_lo _ _ e
  have hd : ∀ e : Fin 1600000, dstP (ix1 (Cert.Spec.padIdx e)) = m ((c : Thread nD τ).loc main_arg3) (ix1 e) := fun e => by
    show E2 m c main_v1 _ = _
    rw [in_dst m c]; exact pad_lo _ _ e
  have hw : ∀ e : Fin 1600000, ewP (ix1 (Cert.Spec.padIdx e)) = m ((c : Thread nD τ).loc main_arg1) (ix1 e) := fun e => by
    show E0 m c main_v2 _ = _
    rw [in_ew m c]; exact pad_lo _ _ e
  have hz : ∀ e : Fin 1601536, 1600000 ≤ e.val → ewP (ix1 e) = 0 := fun e he => by
    show E0 m c main_v2 _ = _
    rw [in_ew m c, pad_hi _ _ e he]
    exact sitofp_zero
  have ht : ∀ k j : Fin 128, Wt (ix2 k j) = m ((c : Thread nD τ).loc main_arg4) (ix2 j k) := fun k j => by
    show E2 m c main_v4 _ = _
    rw [in_wt m c]; exact transpose_ix2_apply _ _ k j
  have hm : ∀ (e : Fin 1601536) (k : Fin 128), msgA (ix2 e k)
      = neA (ix2 (Cert.Spec.rowOf (srcP (ix1 e))) k) * ewP (ix1 e) := fun e k => by
    have h := congrFun ((in_msg m c).trans (Gather.gather_value (E0 m) c hr)) (ix2 e k)
    refine h.trans ?_
    show (show FVec Ideal S100000x128 .f32 from E0 m c main_arg0) _ * _ = _
    rw [show (show FVec Ideal S100000x128 .f32 from E0 m c main_arg0) = neA from in_ne m c]
  rw [Scatter.scatter_value (E2 m) c]
  funext y
  obtain ⟨i, j, rfl⟩ : ∃ (i : Fin 100000) (j : Fin 128), y = ix2 i j := ⟨y 0, y 1, eq_ix2 y⟩
  rw [← Cert.Spec.padded_eq_out (m ((c : Thread nD τ).loc main_arg0)) (m ((c : Thread nD τ).loc main_arg1))
    (m ((c : Thread nD τ).loc main_arg2)) (m ((c : Thread nD τ).loc main_arg3)) (m ((c : Thread nD τ).loc main_arg4))
    srcP dstP ewP Wt hs hd hw hz ht i j]
  show (∑ k : Fin 128, (∑ e : Fin 1601536, if dstP (ix1 e) = BitVec.ofNat 32 i.val then msgA (ix2 e k) else 0) * Wt (ix2 k j)) = _
  refine Finset.sum_congr rfl fun k _ => ?_
  refine congrArg (· * Wt (ix2 k j)) (Finset.sum_congr rfl fun e _ => ?_)
  rw [hm e k]

end Cert.KernelIdeal.Result

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.RefValue.lean ====
/-
  The reference program's result, read as the layer's plain sums over the extended reals.

  The reference wraps a negative source word by the table's height, takes the named rows of the node table, scales each
  by its edge's weight, adds the scaled rows into a table of zeros at the destination rows, and multiplies the result by
  the transposed weight matrix. On the domain where every source word names a row of the table the wrap changes nothing
  and the take's clamp changes nothing, so the taken row is the row the word names; a sum into zeros is the sum itself;
  and the product with a transposed matrix, read at (i, j), is the sum over k of the left factor at (i, k) times the
  matrix at (j, k).
-/
import proofs.«416147_j79207786873559_1_alg».proof.Proof.Gen.ReferenceIdeal.Run
import proofs.«416147_j79207786873559_1_alg».proof.Proof.Gen.ReferenceIdeal.Read
import proofs.«416147_j79207786873559_1_alg».proof.Proof.Spec
import proofs.«416147_j79207786873559_1_alg».proof.Proof.LibGatherRows
import proofs.«416147_j79207786873559_1_alg».proof.Proof.LibScatterAddRows
import Idealize.ShloMosaic.Lib.Affine

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## Words -/

/-- A word below the table's height is not negative, so the wrap of negative words leaves it as it is. -/
theorem wrap_eq (w : BitVec 32) (hw : w.toNat < 100000) :
    Scalar.select (IntOp.cmpi .slt w 0#32) (IntOp.addi w 100000#32) w = w := by
  have hc : ¬ IntOp.cmpi .slt w 0#32 = 1#1 := by
    rw [IntOp.cmpi_slt, BitVec.toInt_eq_toNat_of_lt (by omega), show (0#32 : BitVec 32).toInt = 0 from by decide]
    omega
  rw [eq_zero_of_ne_one hc, select_zero]

/-- A word below the table's height, read signed and clamped into the table, is the row it names. -/
theorem clamp_eq (w : BitVec 32) (hw : w.toNat < 100000) :
    GatherRows.clampPos 100000 (by decide) w = Cert.Spec.rowOf w := by
  refine Fin.ext ?_
  show min w.toInt.toNat (100000 - 1) = w.toNat % 100000
  rw [BitVec.toInt_eq_toNat_of_lt (by omega)]
  omega

/-! ## The stages, each at an element -/

section Stages

variable (ne : FVec Ideal S100000x128 .f32) (ew : FVec Ideal S1600000 .f32) (src dst : IVec S1600000 32)
  (W : FVec Ideal S128x128 .f32)

/-- The column of start indices at row e holds edge e's source word: the wrap is the identity on the domain. -/
theorem v5_at (hsrc : ∀ e : Fin 1600000, (src (ix1 e)).toNat < 100000) (e : Fin 1600000) :
    val_main_v5 (F := Ideal) src (ix2 e (0 : Fin 1)) = src (ix1 e) := by
  have hi : idx_main_v5 (ix2 e (0 : Fin 1)) = ix1 e := by
    funext a
    match a with
    | ⟨0, _⟩ => rfl
  rw [val_main_v5_apply, hi, val_main_v4_apply, val_main_v1_apply, val_main_v3_apply, val_main_v0_apply, val_main_v2_apply,
    val_main_c_apply, val_main_c_0_apply]
  exact wrap_eq _ (hsrc e)

/-- The taken row e, at feature k, is the node table at the row edge e's source word names. -/
theorem v6_at (hsrc : ∀ e : Fin 1600000, (src (ix1 e)).toNat < 100000) (e : Fin 1600000) (k : Fin 128) :
    val_main_v6 (F := Ideal) ne src (ix2 e k) = ne (ix2 (Cert.Spec.rowOf (src (ix1 e))) k) := by
  have hd : gather_S100000x128_S1600000x1_S1600000x128_1_0_n_n_0_1_1128
      = GatherRows.colDims 100000 128 1600000 Facts₀.gather_S100000x128_S1600000x1_S1600000x128_1_0_n_n_0_1_1128_wf := rfl
  unfold val_main_v6
  rw [hd, GatherRows.gather_col_apply (N := 100000) (by decide)]
  show ne (ix2 (GatherRows.clampPos 100000 _ (val_main_v5 (F := Ideal) src (ix2 e (0 : Fin 1)))) k) = _
  rw [v5_at src hsrc e, clamp_eq _ (hsrc e)]

/-- The broadcast weight at (e, k) is edge e's weight. -/
theorem v8_at (e : Fin 1600000) (k : Fin 128) : val_main_v8 (F := Ideal) ew (ix2 e k) = ew (ix1 e) := by
  rw [val_main_v8_apply, val_main_v7_apply]
  refine congrArg ew (funext fun a => ?_)
  match a with
  | ⟨0, _⟩ => rfl

/-- The scaled row e, at feature k, is edge e's message. -/
theorem v9_at (hsrc : ∀ e : Fin 1600000, (src (ix1 e)).toNat < 100000) (e : Fin 1600000) (k : Fin 128) :
    val_main_v9 (F := Ideal) ne ew src (ix2 e k) = Cert.Spec.msg ne ew src e k := by
  rw [val_main_v9_apply, v6_at ne src hsrc e k, v8_at ew e k]
  rfl

/-- The table the rows are added into is zero everywhere. -/
theorem v10_at (i : S100000x128.Idx) : val_main_v10 (F := Ideal) i = (0 : EReal) := by
  rw [val_main_v10_apply, val_main_cst_apply, Ideal.ofBits_def, Ideal.ofBits_zero_f32]

/-- The column of destination indices at row e holds edge e's destination word. -/
theorem v11_at (e : Fin 1600000) : val_main_v11 (F := Ideal) dst (ix2 e (0 : Fin 1)) = dst (ix1 e) := by
  rw [val_main_v11_apply]
  refine congrArg dst (funext fun a => ?_)
  match a with
  | ⟨0, _⟩ => rfl

/-- At the exact instance the host's accumulating scatter is the exact sum: the operand's element plus the sum of the
    updates that land on it. -/
theorem scatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-- The accumulated table at (i, k) is node i's aggregate at feature k. -/
theorem v12_at (hsrc : ∀ e : Fin 1600000, (src (ix1 e)).toNat < 100000) (i : Fin 100000) (k : Fin 128) :
    val_main_v12 (F := Ideal) ne ew src dst (ix2 i k) = Cert.Spec.agg ne ew src dst i k := by
  have hd : scatter_S100000x128_S1600000x1_S1600000x128_1_0_0_1
      = ScatterAddRows.rowsDims 100000 128 1600000 Facts₀.scatter_S100000x128_S1600000x1_S1600000x128_1_0_0_1_wf := rfl
  unfold val_main_v12
  rw [scatterAdd_eq, hd, ScatterAddRows.scatterAdd_rows_apply, v10_at, zero_add]
  unfold Cert.Spec.agg
  refine Finset.sum_congr rfl fun e _ => ?_
  rw [v11_at dst e, v9_at ne ew src hsrc e k]

end Stages

/-! ## The result -/

/-- THE REFERENCE'S RESULT. On the domain where every source word names a row of the node table, the term the
    reference's run states for its result is the layer's plain sums. -/
theorem ref_eq (ne : FVec Ideal S100000x128 .f32) (ew : FVec Ideal S1600000 .f32) (src dst : IVec S1600000 32)
    (W : FVec Ideal S128x128 .f32) (hsrc : ∀ e : Fin 1600000, (src (ix1 e)).toNat < 100000) :
    Host.dotGeneral dot_S100000x128_S128x128_S100000x128_1_0_0_1_n_n none (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (dst)) (mulf (Host.gather gather_S100000x128_S1600000x1_S1600000x128_1_0_n_n_0_1_1128 (ne) (broadcastInDim S1600000x1 ![0] bcast_S1600000_S1600000x1_0 (select (cmpi .slt (src) (broadcastInDim S1600000 ![] bcast_S_S1600000 (constantI S_ 32 0#32))) (addi (src) (broadcastInDim S1600000 ![] bcast_S_S1600000 (constantI S_ 32 100000#32))) (src)))) (broadcastInDim S1600000x128 ![0, 1] bcast_S1600000x1_S1600000x128_0_1 (broadcastInDim S1600000x1 ![0] bcast_S1600000_S1600000x1_0 (ew))))) (transpose S128x128 [1, 0] (W) transposes_S128x128_S128x128_1_0)
      = Cert.Spec.out ne ew src dst W := by
  refine (val_main_v14_eq (F := Ideal) ne ew src dst W).trans ?_
  funext y
  obtain ⟨i, j, rfl⟩ : ∃ (i : Fin 100000) (j : Fin 128), y = ix2 i j := ⟨y 0, y 1, eq_ix2 y⟩
  rw [val_main_v14_apply]
  show _ = ∑ k : Fin 128, Cert.Spec.agg ne ew src dst i k * W (ix2 j k)
  refine Finset.sum_congr rfl fun k _ => ?_
  have hl : lidx_main_v14 (ix2 i j) k = ix2 i k := by
    funext a
    match a with
    | ⟨0, _⟩ => rfl
    | ⟨1, _⟩ => rfl
  have hr : idx_main_v13 (ridx_main_v14 (ix2 i j) k) = ix2 j k := by
    funext a
    match a with
    | ⟨0, _⟩ => rfl
    | ⟨1, _⟩ => rfl
  rw [hl, v12_at ne ew src dst hsrc i k, val_main_v13_apply, hr]

/-! ## The run -/

/-- The reference's run, its result restated: from any memory whose source words all name rows of the node table, every
    weakly fair execution terminates with the result buffer at the layer's plain sums of the arguments, and the
    arguments unchanged. -/
theorem run_ref (m : (ℓ : Loc nD τ sig) → Buf (Elt Ideal) ℓ) (ρ : Dev nD → PrngReg)
    (hsrc : ∀ (c : Dev nD) (e : Fin 1600000), (m ((c.tc : Thread nD τ).loc main_arg2) (ix1 e)).toNat < 100000) :
    θ_run (defs (F := Ideal)) (onTc (τ := τ) (main (F := Ideal))) ⟨m, fun _ => 0, ρ⟩ fun r => ∀ c : Dev nD,
      r.2.mem ((c.tc : Thread nD τ).loc main_v14)
        = Cert.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans (ref_eq _ _ _ _ _ (hsrc c)), (h c).2⟩)
    (Cert.ReferenceIdeal.Value.run (F := Ideal) m ρ)

/-- The reference's run from a memory that agrees, argument by argument, with five given arrays whose source words all
    name rows of the node table: the result buffer ends at the layer's plain sums of THOSE arrays, the arguments
    unchanged. -/
theorem run_ref_of_agree (m : (ℓ : Loc nD τ sig) → Buf (Elt Ideal) ℓ) (ρ : Dev nD → PrngReg)
    (ne : Dev nD → FVec Ideal S100000x128 .f32) (ew : Dev nD → FVec Ideal S1600000 .f32)
    (src dst : Dev nD → IVec S1600000 32) (W : Dev nD → FVec Ideal S128x128 .f32)
    (hag : ∀ c : Dev nD,
      m ((c.tc : Thread nD τ).loc main_arg0) = ne c
      ∧ m ((c.tc : Thread nD τ).loc main_arg1) = ew c
      ∧ m ((c.tc : Thread nD τ).loc main_arg2) = src c
      ∧ m ((c.tc : Thread nD τ).loc main_arg3) = dst c
      ∧ m ((c.tc : Thread nD τ).loc main_arg4) = W c)
    (hsrc : ∀ (c : Dev nD) (e : Fin 1600000), (src c (ix1 e)).toNat < 100000) :
    θ_run (defs (F := Ideal)) (onTc (τ := τ) (main (F := Ideal))) ⟨m, fun _ => 0, ρ⟩ fun r => ∀ c : Dev nD,
      r.2.mem ((c.tc : Thread nD τ).loc main_v14) = Cert.Spec.out (ne c) (ew c) (src c) (dst c) (W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans (by
        obtain ⟨h0, h1, h2, h3, h4⟩ := hag c
        rw [h0, h1, h2, h3, h4]), (h c).2⟩)
    (run_ref m ρ fun c e => by rw [(hag c).2.2.1]; exact hsrc c e)

/-- The reference runs and leaves its arguments unchanged, from any memory. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => (h c).2) (Cert.ReferenceIdeal.Value.run (F := Ideal) m ρ)

end Cert.ReferenceIdeal.RefValue

end
-- ==== Proof.PreFacts.lean ====
/-
  The domain conjunct of the precondition, decoded.

  The printed predicate is a conjunction of four scalar bits; the last is the conjunction, over every edge, of
  "the source word is at least 0, signed" and "the source word is below 100000, signed". A conjunction of bits that is 1
  has every conjunct 1, an all-reduction by "and" that is 1 met only 1s, and a 32-bit word that reads, signed, in
  [0, 100000) has that same value unsigned. So under the precondition every source word names a row of the node table.
-/
import proofs.«416147_j79207786873559_1_alg».proof.Pre_finite_inputs
import Idealize.ShloMosaic.Lib.ReduceAll
import Idealize.ShloMosaic.Lib.ValueIdx

namespace Cert.PreFacts

open Idealize.ShloMosaic Idealize.ShloMosaic.ValueIdx

/-- The scalar shape has one index. -/
instance : Subsingleton Cert.Pre_finite_inputs.S_.Idx := ⟨fun a b => funext fun d => d.elim0⟩

/-- A 32-bit word that is, read signed, at least 0 and below 100000 has a value below 100000. -/
theorem toNat_lt_of_signed_range (w : BitVec 32) (h0 : IntOp.cmpi .sge w 0#32 = 1#1)
    (h1 : IntOp.cmpi .slt w 100000#32 = 1#1) : w.toNat < 100000 := by
  rw [IntOp.cmpi_sge, show (0#32 : BitVec 32).toInt = 0 from by decide] at h0
  rw [IntOp.cmpi_slt, show (100000#32 : BitVec 32).toInt = 100000 from by decide] at h1
  have hc := BitVec.toInt_eq_toNat_cond w
  have hw := w.isLt
  split at hc <;> omega

/-- Under the precondition every source word is below the node table's height. -/
theorem src_range [Cert.Pre_finite_inputs.Facts] {F : FTy → Type} [FloatOps F]
    (a0 : FVec F Cert.Pre_finite_inputs.S100000x128 .f32) (a1 : FVec F Cert.Pre_finite_inputs.S1600000 .f32)
    (a2 a3 : IVec Cert.Pre_finite_inputs.S1600000 32) (a4 : FVec F Cert.Pre_finite_inputs.S128x128 .f32)
    (h : Cert.Pre_finite_inputs.fn (F := F) a0 a1 a2 a3 a4 = fun _ => 1#1) :
    ∀ e : Fin 1600000, (a2 (ix1 e)).toNat < 100000 := by
  intro e
  have h0 := congrFun h ix0
  dsimp only [Cert.Pre_finite_inputs.fn, Cert.Pre_finite_inputs.fn_part1, andi] at h0
  have hall := (IntOp.andi_eq_one.1 h0).2
  have he := Host.reduce_andi_all _ _ _ _ _ hall (ix1 e)
  obtain ⟨hge, hlt⟩ := IntOp.andi_eq_one.1 he
  exact toNat_lt_of_signed_range _ hge hlt

end Cert.PreFacts
-- ==== Proof.lean ====
/-
  The claim: a graph layer written as two tiled calls — a gather of node rows by source index scaled by the edge
  weight, and a sum of those messages into their destination rows followed by the linear map — equals, over the
  extended reals, the same layer written with a gather, a segment sum and a matrix product, on inputs whose source
  indices are rows of the node table.

  Both calls select rows with one-hot matrix products: `Σ_n [s = n] · x_n = x_s` when `s` is a row, and the sum over
  the edges with `[d_e = i]` in front is the sum over the edges whose destination is `i`; an out-of-range destination
  matches no row on either side. The padding the kernel adds to the edge arrays carries weight 0 and adds nothing.
  Each program's frame (it runs to the end, faults nowhere, leaves its arguments unchanged) comes with its run; the
  kernel's idealization rewrote nothing, so `preserves` is trivial.
-/
import proofs.«416147_j79207786873559_1_alg».proof.Defs
import proofs.«416147_j79207786873559_1_alg».proof.Proof.Gen.Kernel
import proofs.«416147_j79207786873559_1_alg».proof.Proof.Gen.KernelIdeal
import proofs.«416147_j79207786873559_1_alg».proof.Proof.Gen.ReferenceIdeal
import proofs.«416147_j79207786873559_1_alg».proof.Proof.Gen.Pre_finite_inputs
import proofs.«416147_j79207786873559_1_alg».proof.Proof.K.Whole
import proofs.«416147_j79207786873559_1_alg».proof.Proof.KI.Result
import proofs.«416147_j79207786873559_1_alg».proof.Proof.RefValue
import proofs.«416147_j79207786873559_1_alg».proof.Proof.PreFacts
import Idealize.ShloMosaic.Adequacy
import Idealize.ShloMosaic.Init

noncomputable section

namespace Cert.Proof

open Idealize.ShloMosaic Idealize.ShloMosaic.ValueIdx Idealize.SL.Sem

/-- Under the precondition every source word of the idealized kernel's third argument is below 100000. -/
theorem src_lt (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1600000) :
    (m ((c.tc : Thread Cert.KernelIdeal.nD Cert.KernelIdeal.τ).loc Cert.KernelIdeal.main_arg2) (ix1 e)).toNat < 100000 :=
  Cert.PreFacts.src_range _ _ _ _ _ (hpre c) e

theorem claim : Cert.Claim := ⟨Cert.Kernel.Gen.facts, Cert.KernelIdeal.Gen.facts, Cert.ReferenceIdeal.Gen.facts, Cert.Pre_finite_inputs.Gen.facts,
  fun m ρ _ => Cert.Kernel.Whole.frame m ρ,
  fun m ρ _ => Cert.KernelIdeal.Whole.frame m ρ,
  fun m ρ _ => Cert.ReferenceIdeal.RefValue.frame_ref m ρ,
  trivial,
  fun m ρ m' ρ' hpre hagree =>
    ⟨fun c => Cert.Spec.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      (θ_run Cert.KernelIdeal.defs _ _).mono
        (fun _ h c => ⟨(h c).1.trans (Cert.KernelIdeal.Result.result_eq m c (src_lt m hpre c)), (h c).2⟩)
        (Cert.KernelIdeal.Whole.run_result m ρ),
      Cert.ReferenceIdeal.RefValue.run_ref_of_agree m' ρ' _ _ _ _ _ hagree (src_lt m hpre)⟩⟩

end Cert.Proof

end
